-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_
  bcast_S_S100000 : S_.BroadcastsInDim S100000 (![] : Fin 0 → Fin S100000.rank)
  reducesTo_S100000_S_d0 : S100000.ReducesTo [0] S_

variable [Facts]

def fn_part3 {F : FTy → Type} [FloatOps F] (main_arg9 : IVec S100000 32) (main_v46 : IVec S_ 1) (main_v49 : IVec S_ 1) : IVec S_ 1 :=
  let main_v50 : IVec S_ 1 := andi main_v46 main_v49
  let main_c_20 : IVec S_ 32 := constantI S_ 32 512#32
  let main_v51 : IVec S100000 32 := broadcastInDim S100000 ![] bcast_S_S100000 main_c_20
  let main_v52 : IVec S100000 1 := cmpi .slt main_arg9 main_v51
  let main_c_21 : IVec S_ 1 := constantI S_ 1 1#1
  let main_v53 : IVec S_ 1 := (fun x v => Host.reduce IntOp.andi x v reducesTo_S100000_S_d0 h_S_) main_v52 main_c_21
  let main_v54 : IVec S_ 1 := andi main_v50 main_v53
  main_v54

def fn_part2 {F : FTy → Type} [FloatOps F] (main_arg7 : FVec F S1 .f32) (main_arg8 : IVec S2x1600000 32) (main_arg9 : IVec S100000 32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S2x1600000 32 := broadcastInDim S2x1600000 ![] bcast_S_S2x1600000 main_c_14
  let main_v40 : IVec S2x1600000 1 := cmpi .sge main_arg8 main_v39
  let main_c_15 : IVec S_ 1 := constantI S_ 1 1#1
  let main_v41 : IVec S_ 1 := (fun x v => Host.reduce IntOp.andi x v reducesTo_S2x1600000_S_d0_1 h_S_) main_v40 main_c_15
  let main_v42 : IVec S_ 1 := andi main_v38 main_v41
  let main_c_16 : IVec S_ 32 := constantI S_ 32 100000#32
  let main_v43 : IVec S2x1600000 32 := broadcastInDim S2x1600000 ![] bcast_S_S2x1600000 main_c_16
  let main_v44 : IVec S2x1600000 1 := cmpi .slt main_arg8 main_v43
  let main_c_17 : IVec S_ 1 := constantI S_ 1 1#1
  let main_v45 : IVec S_ 1 := (fun x v => Host.reduce IntOp.andi x v reducesTo_S2x1600000_S_d0_1 h_S_) main_v44 main_c_17
  let main_v46 : IVec S_ 1 := andi main_v42 main_v45
  let main_c_18 : IVec S_ 32 := constantI S_ 32 0#32
  let main_v47 : IVec S100000 32 := broadcastInDim S100000 ![] bcast_S_S100000 main_c_18
  let main_v48 : IVec S100000 1 := cmpi .sge main_arg9 main_v47
  let main_c_19 : IVec S_ 1 := constantI S_ 1 1#1
  let main_v49 : IVec S_ 1 := (fun x v => Host.reduce IntOp.andi x v reducesTo_S100000_S_d0 h_S_) main_v48 main_c_19
  fn_part3 (F := F) main_arg9 main_v46 main_v49

def fn_part1 {F : FTy → Type} [FloatOps F] (main_arg4 : FVec F S128 .f32) (main_arg5 : FVec F S128 .f32) (main_arg6 : FVec F S128x1 .f32) (main_arg7 : FVec F S1 .f32) (main_arg8 : IVec S2x1600000 32) (main_arg9 : IVec S100000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x64 .f32) (main_arg1 : FVec F S128x128 .f32) (main_arg2 : FVec F S128 .f32) (main_arg3 : FVec F S128 .f32) (main_arg4 : FVec F S128 .f32) (main_arg5 : FVec F S128 .f32) (main_arg6 : FVec F S128x1 .f32) (main_arg7 : FVec F S1 .f32) (main_arg8 : IVec S2x1600000 32) (main_arg9 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x64 : Shape := ⟨2, ![100000, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S64x128 : Shape := ⟨2, ![64, 128]⟩
abbrev S1x128 : Shape := ⟨2, ![1, 128]⟩
abbrev S1600000x128 : Shape := ⟨2, ![1600000, 128]⟩
abbrev S16000x64 : Shape := ⟨2, ![16000, 64]⟩
abbrev S16000x128 : Shape := ⟨2, ![16000, 128]⟩
abbrev S250x512x384 : Shape := ⟨3, ![250, 512, 384]⟩
abbrev S6400x128 : Shape := ⟨2, ![6400, 128]⟩
abbrev S6400x1 : Shape := ⟨2, ![6400, 1]⟩
abbrev S1x512x384 : Shape := ⟨3, ![1, 512, 384]⟩
abbrev S6400x512 : Shape := ⟨2, ![6400, 512]⟩
abbrev S6400x384 : Shape := ⟨2, ![6400, 384]⟩
abbrev S512x384 : Shape := ⟨2, ![512, 384]⟩
abbrev S512x128 : Shape := ⟨2, ![512, 128]⟩
abbrev S512x1 : Shape := ⟨2, ![512, 1]⟩
abbrev S512x256 : Shape := ⟨2, ![512, 256]⟩
abbrev S1x1 : Shape := ⟨2, ![1, 1]⟩
abbrev S6400x256 : Shape := ⟨2, ![6400, 256]⟩

abbrev nBuf : Space → Nat
  | .hbm => 119
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S2x1600000, .i32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S64x128, .f32⟩
  | .hbm, ⟨67, _⟩ => ⟨S64x128, .bf16⟩
  | .hbm, ⟨68, _⟩ => ⟨S64x128, .f32⟩
  | .hbm, ⟨69, _⟩ => ⟨S64x128, .bf16⟩
  | .hbm, ⟨70, _⟩ => ⟨S1x128, .f32⟩
  | .hbm, ⟨71, _⟩ => ⟨S1600000x128, .bf16⟩
  | .hbm, ⟨72, _⟩ => ⟨S250x512x384, .f32⟩
  | .hbm, ⟨73, _⟩ => ⟨S_, .f32⟩
  | .hbm, ⟨74, _⟩ => ⟨S512x384, .f32⟩
  | .hbm, ⟨75, _⟩ => ⟨S512x128, .f32⟩
  | .hbm, ⟨76, _⟩ => ⟨S512x128, .f32⟩
  | .hbm, ⟨77, _⟩ => ⟨S512x1, .f32⟩
  | .hbm, ⟨78, _⟩ => ⟨S_, .f32⟩
  | .hbm, ⟨79, _⟩ => ⟨S512x1, .f32⟩
  | .hbm, ⟨80, _⟩ => ⟨S512x1, .f32⟩
  | .hbm, ⟨81, _⟩ => ⟨S512x128, .f32⟩
  | .hbm, ⟨82, _⟩ => ⟨S512x128, .f32⟩
  | .hbm, ⟨83, _⟩ => ⟨S1x128, .f32⟩
  | .hbm, ⟨84, _⟩ => ⟨S512x128, .f32⟩
  | .hbm, ⟨85, _⟩ => ⟨S512x128, .f32⟩
  | .hbm, ⟨86, _⟩ => ⟨S512x128, .f32⟩
  | .hbm, ⟨87, _⟩ => ⟨S_, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S512x128, .f32⟩
  | .hbm, ⟨93, _⟩ => ⟨S512x128, .f32⟩
  | .hbm, ⟨94, _⟩ => ⟨S512x128, .f32⟩
  | .hbm, ⟨95, _⟩ => ⟨S_, .f32⟩
  | .hbm, ⟨96, _⟩ => ⟨S512x128, .f32⟩
  | .hbm, ⟨97, _⟩ => ⟨S512x128, .f32⟩
  | .hbm, ⟨98, _⟩ => ⟨S_, .f32⟩
  | .hbm, ⟨99, _⟩ => ⟨S512x128, .f32⟩
  | .hbm, ⟨100, _⟩ => ⟨S512x128, .f32⟩
  | .hbm, ⟨101, _⟩ => ⟨S512x128, .f32⟩
  | .hbm, ⟨102, _⟩ => ⟨S_, .f32⟩
  | .hbm, ⟨103, _⟩ => ⟨S512x128, .f32⟩
  | .hbm, ⟨104, _⟩ => ⟨S512x128, .f32⟩
  | .hbm, ⟨105, _⟩ => ⟨S1x128, .f32⟩
  | .hbm, ⟨106, _⟩ => ⟨S512x128, .f32⟩
  | .hbm, ⟨107, _⟩ => ⟨S512x128, .f32⟩
  | .hbm, ⟨108, _⟩ => ⟨S1x128, .f32⟩
  | .hbm, ⟨109, _⟩ => ⟨S512x128, .f32⟩
  | .hbm, ⟨110, _⟩ => ⟨S512x128, .f32⟩
  | .hbm, ⟨111, _⟩ => ⟨S512x128, .f32⟩
  | .hbm, ⟨112, _⟩ => ⟨S512x128, .f32⟩
  | .hbm, ⟨113, _⟩ => ⟨S512x128, .f32⟩
  | .hbm, ⟨114, _⟩ => ⟨S512x256, .f32⟩
  | .hbm, ⟨115, _⟩ => ⟨S512x256, .bf16⟩
  | .hbm, ⟨116, _⟩ => ⟨S128x1, .bf16⟩
  | .hbm, ⟨117, _⟩ => ⟨S1x1, .f32⟩
  | .hbm, ⟨118, _⟩ => ⟨S1600000x1, .f32⟩
  | .local _ .vmem, ⟨0, _⟩ => ⟨S16000x64, .f32⟩
  | .local _ .vmem, ⟨1, _⟩ => ⟨S16000x64, .f32⟩
  | .local _ .vmem, ⟨2, _⟩ => ⟨S16000x64, .f32⟩
  | .local _ .vmem, ⟨3, _⟩ => ⟨S16000x64, .f32⟩
  | .local _ .vmem, ⟨4, _⟩ => ⟨S64x128, .bf16⟩
  | .local _ .vmem, ⟨5, _⟩ => ⟨S64x128, .bf16⟩
  | .local _ .vmem, ⟨6, _⟩ => ⟨S1x128, .f32⟩
  | .local _ .vmem, ⟨7, _⟩ => ⟨S16000x128, .bf16⟩
  | .local _ .vmem, ⟨8, _⟩ => ⟨S16000x128, .bf16⟩
  | .local _ .vmem, ⟨9, _⟩ => ⟨S6400x128, .bf16⟩
  | .local _ .vmem, ⟨10, _⟩ => ⟨S6400x128, .bf16⟩
  | .local _ .vmem, ⟨11, _⟩ => ⟨S6400x1, .i32⟩
  | .local _ .vmem, ⟨12, _⟩ => ⟨S6400x1, .i32⟩
  | .local _ .vmem, ⟨13, _⟩ => ⟨S1x512x384, .f32⟩
  | .local _ .vmem, ⟨14, _⟩ => ⟨S1x512x384, .f32⟩
  | .local _ .vmem, ⟨15, _⟩ => ⟨S6400x128, .bf16⟩
  | .local _ .vmem, ⟨16, _⟩ => ⟨S6400x128, .bf16⟩
  | .local _ .vmem, ⟨17, _⟩ => ⟨S6400x1, .i32⟩
  | .local _ .vmem, ⟨18, _⟩ => ⟨S6400x1, .i32⟩
  | .local _ .vmem, ⟨19, _⟩ => ⟨S512x256, .bf16⟩
  | .local _ .vmem, ⟨20, _⟩ => ⟨S128x1, .bf16⟩
  | .local _ .vmem, ⟨21, _⟩ => ⟨S1x1, .f32⟩
  | .local _ .vmem, ⟨22, _⟩ => ⟨S6400x1, .f32⟩
  | .local _ .vmem, ⟨23, _⟩ => ⟨S6400x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v5 : Ref sig .tc := ⟨.hbm, 29, rfl⟩
abbrev main_c_3 : Ref sig .tc := ⟨.hbm, 30, rfl⟩
abbrev main_v6 : Ref sig .tc := ⟨.hbm, 31, rfl⟩
abbrev main_v7 : Ref sig .tc := ⟨.hbm, 32, rfl⟩
abbrev main_c_4 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_5 : Ref sig .tc := ⟨.hbm, 39, rfl⟩
abbrev main_v13 : Ref sig .tc := ⟨.hbm, 40, rfl⟩
abbrev main_v14 : Ref sig .tc := ⟨.hbm, 41, rfl⟩
abbrev main_c_6 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_7 : Ref sig .tc := ⟨.hbm, 48, rfl⟩
abbrev main_v20 : Ref sig .tc := ⟨.hbm, 49, rfl⟩
abbrev main_v21 : Ref sig .tc := ⟨.hbm, 50, rfl⟩
abbrev main_c_8 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_9 : Ref sig .tc := ⟨.hbm, 57, rfl⟩
abbrev main_c_10 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_11 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_12 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_13 : Ref sig .tc := ⟨.hbm, 95, rfl⟩
abbrev main_v55 : Ref sig .tc := ⟨.hbm, 96, rfl⟩
abbrev main_v56 : Ref sig .tc := ⟨.hbm, 97, rfl⟩
abbrev main_cst_14 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_15 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S6400x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6400x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  slices_S2x1600000_S1x1600000_1_0 : S2x1600000.Slices ![1, 0] S1x1600000
  bcast_S1600000_S1600000x1_0 : S1600000.BroadcastsInDim S1600000x1 (![0] : Fin 1 → Fin S1600000x1.rank)
  shapeCasts_S1600000_S1600000x1 : S1600000.ShapeCasts S1600000x1
  slices_S128x128_S64x128_0_0 : S128x128.Slices ![0, 0] S64x128
  bitsLt_bf16_f32 : FTy.bits .bf16 < FTy.bits .f32
  slices_S128x128_S64x128_64_0 : S128x128.Slices ![64, 0] S64x128
  shapeCasts_S128_S1x128 : S128.ShapeCasts S1x128
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S16000x128_S16000x128_0_0 : ∀ a, (![0, 0] : Fin 2 → Nat) a + S16000x128.size a ≤ S16000x128.size a
  h_S16000x128 : 0 < S16000x128.numel
  packedbf16_S16000x128_S16000x128_0_0 : (Rect.unit (s := S16000x128) ![0, 0] S16000x128.size inb_S16000x128_S16000x128_0_0).PackedRows (EltTy.packing .bf16)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  iota_S6400x512_d1_w32 : S6400x512.Iotas .tc 32 [1]
  broadcasts_S6400x1_S6400x512 : S6400x1.Broadcasts S6400x512
  natLt_1_32 : 1 < 32
  concatenates_S6400x128_S6400x128_S6400x128_S6400x384_d1 : Shape.Concatenates [S6400x128, S6400x128, S6400x128] S6400x384 1
  shapeCasts_S512x384_S1x512x384 : S512x384.ShapeCasts S1x512x384
  inb_S1x512x384_S1x512x384_0_0_0 : ∀ a, (![0, 0, 0] : Fin 3 → Nat) a + S1x512x384.size a ≤ S1x512x384.size a
  h_S1x512x384 : 0 < S1x512x384.numel
  reducesTo_S250x512x384_S512x384_d0 : S250x512x384.ReducesTo [0] S512x384
  h_S_ : 0 < S_.numel
  slices_S512x384_S512x128_0_0 : S512x384.Slices ![0, 0] S512x128
  slices_S512x384_S512x128_0_128 : S512x384.Slices ![0, 128] S512x128
  slices_S512x384_S512x1_0_256 : S512x384.Slices ![0, 256] S512x1
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  concatenates_S512x128_S512x128_S512x256_d1 : Shape.Concatenates [S512x128, S512x128] S512x256 1
  shapeCasts_S1_S1x1 : S1.ShapeCasts S1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S6400x256_o0_0_S6400x128 : S6400x256.Slices ![0, 0] S6400x128
  slices_S6400x256_o0_128_S6400x128 : S6400x256.Slices ![0, 128] S6400x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  dot_S16000x64_S64x128_S16000x128_1_0_0_1_n_n_wf : DotDims.WF S16000x64 S64x128 S16000x128 [1] [0] [0] [1] [] []
  dot_S6400x512_S6400x384_S512x384_0_0_1_1_n_n_wf : DotDims.WF S6400x512 S6400x384 S512x384 [0] [0] [1] [1] [] []
  dot_S6400x512_S512x256_S6400x256_1_0_0_1_n_n_wf : DotDims.WF S6400x512 S512x256 S6400x256 [1] [0] [0] [1] [] []
  dot_S6400x128_S128x1_S6400x1_1_0_0_1_n_n_wf : DotDims.WF S6400x128 S128x1 S6400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1600000x64.size a
  hwx0_0 : ∀ i : grid0.Coords, EltTy.bits .f32 = 32 ∨ (Rect.block (s := S1600000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S1600000x64.size a
  hwx0_1 : ∀ i : grid0.Coords, EltTy.bits .f32 = 32 ∨ (Rect.block (s := S1600000x64) S16000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x128.size a ≤ S1600000x128.size a
  hwx0_5 : ∀ i : grid0.Coords, EltTy.bits .bf16 = 32 ∨ (Rect.block (s := S1600000x128) S16000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S1600000x128.size a
  hwx1_0 : ∀ i : grid1.Coords, EltTy.bits .bf16 = 32 ∨ (Rect.block (s := S1600000x128) S6400x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S1600000x1.size a
  hwx1_1 : ∀ i : grid1.Coords, EltTy.bits .i32 = 32 ∨ (Rect.block (s := S1600000x1) S6400x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x384.size a ≤ S250x512x384.size a
  hwx1_2 : ∀ i : grid1.Coords, EltTy.bits .f32 = 32 ∨ (Rect.block (s := S250x512x384) S1x512x384.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x128.size a ≤ S1600000x128.size a
  hwx2_0 : ∀ i : grid2.Coords, EltTy.bits .bf16 = 32 ∨ (Rect.block (s := S1600000x128) S6400x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x1.size a ≤ S1600000x1.size a
  hwx2_1 : ∀ i : grid2.Coords, EltTy.bits .i32 = 32 ∨ (Rect.block (s := S1600000x1) S6400x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S512x256.size a
  hwx2_2 : ∀ i : grid2.Coords, EltTy.bits .bf16 = 32 ∨ (Rect.block (s := S512x256) S512x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .bf16 = 32 ∨ (Rect.block (s := S128x1) S128x1.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6400x1.size a ≤ S1600000x1.size a
  hwx2_5 : ∀ i : grid2.Coords, EltTy.bits .f32 = 32 ∨ (Rect.block (s := S1600000x1) S6400x1.size (cc2_transform_5 i) (hinb2_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S16000x64_S64x128_S16000x128_1_0_0_1_n_n : DotDims S16000x64 S64x128 S16000x128 where
  lhsContracting := [1]
  rhsContracting := [0]
  lhsNonContracting := [0]
  rhsNonContracting := [1]
  lhsBatch := []
  rhsBatch := []
  wf := dot_S16000x64_S64x128_S16000x128_1_0_0_1_n_n_wf
def dot_S6400x512_S6400x384_S512x384_0_0_1_1_n_n : DotDims S6400x512 S6400x384 S512x384 where
  lhsContracting := [0]
  rhsContracting := [0]
  lhsNonContracting := [1]
  rhsNonContracting := [1]
  lhsBatch := []
  rhsBatch := []
  wf := dot_S6400x512_S6400x384_S512x384_0_0_1_1_n_n_wf
def dot_S6400x512_S512x256_S6400x256_1_0_0_1_n_n : DotDims S6400x512 S512x256 S6400x256 where
  lhsContracting := [1]
  rhsContracting := [0]
  lhsNonContracting := [0]
  rhsNonContracting := [1]
  lhsBatch := []
  rhsBatch := []
  wf := dot_S6400x512_S512x256_S6400x256_1_0_0_1_n_n_wf
def dot_S6400x128_S128x1_S6400x1_1_0_0_1_n_n : DotDims S6400x128 S128x1 S6400x1 where
  lhsContracting := [1]
  rhsContracting := [0]
  lhsNonContracting := [0]
  rhsNonContracting := [1]
  lhsBatch := []
  rhsBatch := []
  wf := dot_S6400x128_S128x1_S6400x1_1_0_0_1_n_n_wf

abbrev win0_0 : Pipeline.Window sig grid0 :=
  Pipeline.Window.ofSpec (Memref.whole main_v12) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S16000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x512x384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S6400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S6400x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v72) S512x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v74) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S6400x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1x128 : Shape := ⟨2, ![1, 128]⟩
abbrev S512 : Shape := ⟨1, ![512]⟩
abbrev S512x1 : Shape := ⟨2, ![512, 1]⟩
abbrev S512x128 : Shape := ⟨2, ![512, 128]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S2x1600000, .i32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S1600000x128, .f32⟩
  | .hbm, ⟨33, _⟩ => ⟨S1600000x128, .f32⟩
  | .hbm, ⟨34, _⟩ => ⟨S1x128, .f32⟩
  | .hbm, ⟨35, _⟩ => ⟨S1600000x128, .f32⟩
  | .hbm, ⟨36, _⟩ => ⟨S1600000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .i32⟩
  | .hbm, ⟨46, _⟩ => ⟨S_, .f32⟩
  | .hbm, ⟨47, _⟩ => ⟨S1600000, .f32⟩
  | .hbm, ⟨48, _⟩ => ⟨S_, .f32⟩
  | .hbm, ⟨49, _⟩ => ⟨S512, .f32⟩
  | .hbm, ⟨50, _⟩ => ⟨S1600000x1, .i32⟩
  | .hbm, ⟨51, _⟩ => ⟨S512, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S512x1, .f32⟩
  | .hbm, ⟨56, _⟩ => ⟨S_, .f32⟩
  | .hbm, ⟨57, _⟩ => ⟨S512x128, .f32⟩
  | .hbm, ⟨58, _⟩ => ⟨S1600000x1, .i32⟩
  | .hbm, ⟨59, _⟩ => ⟨S512x128, .f32⟩
  | .hbm, ⟨60, _⟩ => ⟨S512x128, .f32⟩
  | .hbm, ⟨61, _⟩ => ⟨S512x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S1x128, .f32⟩
  | .hbm, ⟨72, _⟩ => ⟨S1600000x128, .f32⟩
  | .hbm, ⟨73, _⟩ => ⟨S1600000x128, .f32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S512x128, .f32⟩
  | .hbm, ⟨78, _⟩ => ⟨S1600000x1, .i32⟩
  | .hbm, ⟨79, _⟩ => ⟨S512x128, .f32⟩
  | .hbm, ⟨80, _⟩ => ⟨S512x128, .f32⟩
  | .hbm, ⟨81, _⟩ => ⟨S512x128, .f32⟩
  | .hbm, ⟨82, _⟩ => ⟨S_, .f32⟩
  | .hbm, ⟨83, _⟩ => ⟨S512x128, .f32⟩
  | .hbm, ⟨84, _⟩ => ⟨S512x128, .f32⟩
  | .hbm, ⟨85, _⟩ => ⟨S512x128, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x128, .f32⟩
  | .hbm, ⟨95, _⟩ => ⟨S1600000x128, .f32⟩
  | .hbm, ⟨96, _⟩ => ⟨S1x128, .f32⟩
  | .hbm, ⟨97, _⟩ => ⟨S1600000x128, .f32⟩
  | .hbm, ⟨98, _⟩ => ⟨S1600000x128, .f32⟩
  | .hbm, ⟨99, _⟩ => ⟨S1x128, .f32⟩
  | .hbm, ⟨100, _⟩ => ⟨S1600000x128, .f32⟩
  | .hbm, ⟨101, _⟩ => ⟨S1600000x128, .f32⟩
  | .hbm, ⟨102, _⟩ => ⟨S_, .f32⟩
  | .hbm, ⟨103, _⟩ => ⟨S1600000x128, .f32⟩
  | .hbm, ⟨104, _⟩ => ⟨S1600000x128, .f32⟩
  | .hbm, ⟨105, _⟩ => ⟨S1600000x1, .f32⟩
  | .hbm, ⟨106, _⟩ => ⟨S1x1, .f32⟩
  | .hbm, ⟨107, _⟩ => ⟨S1600000x1, .f32⟩
  | .hbm, ⟨108, _⟩ => ⟨S1600000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_call0_cst : Ref sig .tc := ⟨.hbm, 102, rfl⟩
abbrev main_call0_v0 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S512 : S_.BroadcastsInDim S512 (![] : Fin 0 → Fin S512.rank)
  bcast_S512_S512x1_0 : S512.BroadcastsInDim S512x1 (![0] : Fin 1 → Fin S512x1.rank)
  bcast_S_S512x128 : S_.BroadcastsInDim S512x128 (![] : Fin 0 → Fin S512x128.rank)
  bcast_S512x1_S512x128_0_1 : S512x1.BroadcastsInDim S512x128 (![0, 1] : Fin 2 → Fin S512x128.rank)
  bcast_S_S1600000x128 : S_.BroadcastsInDim S1600000x128 (![] : Fin 0 → Fin S1600000x128.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  gather_S100000x64_S1600000x1_S1600000x64_1_0_n_n_0_1_164_wf : GatherDims.WF S100000x64 S1600000x1 S1600000x64 [1] [0] [] [0] [] 1 ![1, 64]
  dot_S1600000x128_S128x128_S1600000x128_1_0_0_1_n_n_wf : DotDims.WF S1600000x128 S128x128 S1600000x128 [1] [0] [0] [1] [] []
  gather_S100000_S1600000x1_S1600000_n_0_n_n_0_1_1_wf : GatherDims.WF S100000 S1600000x1 S1600000 [] [0] [] [0] [] 1 ![1]
  scatter_S512_S1600000x1_S1600000_n_0_0_1_wf : ScatterDims.WF S512 S1600000x1 S1600000 [] [0] [0] 1
  scatter_S512x128_S1600000x1_S1600000x128_1_0_0_1_wf : ScatterDims.WF S512x128 S1600000x1 S1600000x128 [1] [0] [0] 1
  gather_S512x128_S1600000x1_S1600000x128_1_0_n_n_0_1_1128_wf : GatherDims.WF S512x128 S1600000x1 S1600000x128 [1] [0] [] [0] [] 1 ![1, 128]
  dot_S1600000x128_S128x1_S1600000x1_1_0_0_1_n_n_wf : DotDims.WF S1600000x128 S128x1 S1600000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S512_S1600000x1_S1600000_n_0_0_1 : ScatterDims S512 S1600000x1 S1600000 where
  updateWindowDims := []
  insertedWindowDims := [0]
  scatterDimsToOperandDims := [0]
  indexVectorDim := 1
  wf := scatter_S512_S1600000x1_S1600000_n_0_0_1_wf
def scatter_S512x128_S1600000x1_S1600000x128_1_0_0_1 : ScatterDims S512x128 S1600000x1 S1600000x128 where
  updateWindowDims := [1]
  insertedWindowDims := [0]
  scatterDimsToOperandDims := [0]
  indexVectorDim := 1
  wf := scatter_S512x128_S1600000x1_S1600000x128_1_0_0_1_wf
def gather_S512x128_S1600000x1_S1600000x128_1_0_n_n_0_1_1128 : GatherDims S512x128 S1600000x1 S1600000x128 where
  offsetDims := [1]
  collapsedSliceDims := [0]
  operandBatchingDims := []
  startIndicesBatchingDims := []
  startIndexMap := [0]
  indexVectorDim := 1
  sliceSizes := ![1, 128]
  wf := gather_S512x128_S1600000x1_S1600000x128_1_0_n_n_0_1_1128_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf

class Facts : Prop extends Facts₀ where

variable [Facts]
-- ==== Proof.LibRowOps.lean ====
/-
  Host row operations read at an index, over the extended reals and arbitrary sizes: a scatter-add of E scalars
  into a vector of length N, a scatter-add of E rows into an N x C table, a gather of E rows out of an N x C table,
  and a one-row dynamic slice of an N x C table. A scatter index is read signed and not clamped (an update whose
  index is outside 0..N-1 lands nowhere); a gather or slice start is read signed and clamped into 0..N-1.
-/
import Idealize.ShloMosaic.PureOps.Ideal
import Idealize.ShloMosaic.Lib.ValueIdx

noncomputable section

namespace Cert.LibRowOps

open Idealize.ShloMosaic Idealize.ShloMosaic.ValueIdx

/-- The row a clamped signed start z selects in a table of N rows. -/
def clampRow (N : Nat) (hN : 0 < N) (z : Int) : Fin N := ⟨(min (max z 0) ((N - 1 : Nat) : Int)).toNat, by omega⟩

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

/-- An update lands at operand index i exactly when, on every operand axis, its signed start plus its window
    coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hh a
      rw [← hh]
      exact (Int.toNat_of_nonneg (h a).1).symm
    · intro hh
      funext a
      refine Fin.ext ?_
      show (d.start j idx a + (d.window j a : ℤ)).toNat = (i a).val
      rw [hh a]; rfl
  · rename_i h
    constructor
    · intro hh; cases hh
    · intro hh
      refine absurd (fun a => ?_) h
      rw [hh a]
      exact ⟨Int.natCast_nonneg _, by exact_mod_cast (i a).isLt⟩

/-- Rank 1, one scatter axis and no window: an update lands at n exactly when its signed index is n. -/
theorem vec_resultIdx?_iff {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) (idx : IVec ⟨2, ![E, 1]⟩ w) (e : Fin E) (n : Fin N) :
    d.resultIdx? (ix1 e) idx = some (ix1 n) ↔ (idx (ix2 e 0)).toInt = (n.val : ℤ) := by
  obtain ⟨uw, iw, sd, iv, wf⟩ := d
  simp only at hu hi hs hv
  subst hu hi hs hv
  rw [resultIdx?_eq_some_iff, Fin.forall_fin_one]
  have hstart : (ScatterDims.mk (s := ⟨1, ![N]⟩) (si := ⟨2, ![E, 1]⟩) (u := ⟨1, ![E]⟩) [] [0] [0] 1 wf).start (ix1 e) idx 0
      = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin : (ScatterDims.mk (s := ⟨1, ![N]⟩) (si := ⟨2, ![E, 1]⟩) (u := ⟨1, ![E]⟩) [] [0] [0] 1 wf).window (ix1 e) 0 = 0 := by
    unfold ScatterDims.window
    rw [dif_neg (by simp [Shape.kept])]
  rw [hstart, hwin]
  simp

/-- E scalars added into a vector of length N at signed, unclamped indices: entry n ends at its old value plus
    the updates whose index is n. -/
theorem scatterAdd_vec_apply {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e : Fin E, (if (idx (ix2 e 0)).toInt = (n.val : ℤ) then upd (ix1 e) else 0) := by
  unfold Ideal.hostScatterAdd
  congr 1
  rw [Finset.sum_filter, sum_idx1]
  refine Finset.sum_congr rfl fun e _ => ?_
  simp only [vec_resultIdx?_iff d hu hi hs hv idx e n]

/-- Rank 2, one scatter axis (the rows) and one window axis (the columns): the update at row e, column f' lands
    at (n, f) exactly when f' = f and row e's signed index is n. -/
theorem rows_resultIdx?_iff {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1) (idx : IVec ⟨2, ![E, 1]⟩ w) (e : Fin E) (f' f : Fin C) (n : Fin N) :
    d.resultIdx? (ix2 e f') idx = some (ix2 n f) ↔ f' = f ∧ (idx (ix2 e 0)).toInt = (n.val : ℤ) := by
  obtain ⟨uw, iw, sd, iv, wf⟩ := d
  simp only at hu hi hs hv
  subst hu hi hs hv
  rw [resultIdx?_eq_some_iff, Fin.forall_fin_two]
  have hstart0 : (ScatterDims.mk (s := ⟨2, ![N, C]⟩) (si := ⟨2, ![E, 1]⟩) (u := ⟨2, ![E, C]⟩) [1] [0] [0] 1 wf).start
      (ix2 e f') idx 0 = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin0 : (ScatterDims.mk (s := ⟨2, ![N, C]⟩) (si := ⟨2, ![E, 1]⟩) (u := ⟨2, ![E, C]⟩) [1] [0] [0] 1 wf).window
      (ix2 e f') 0 = 0 := by
    unfold ScatterDims.window
    rw [dif_neg (by simp [Shape.kept])]
  have hstart1 : (ScatterDims.mk (s := ⟨2, ![N, C]⟩) (si := ⟨2, ![E, 1]⟩) (u := ⟨2, ![E, C]⟩) [1] [0] [0] 1 wf).start
      (ix2 e f') idx 1 = 0 := by
    unfold ScatterDims.start
    rw [dif_neg (by simp)]
  have hwin1 : (ScatterDims.mk (s := ⟨2, ![N, C]⟩) (si := ⟨2, ![E, 1]⟩) (u := ⟨2, ![E, C]⟩) [1] [0] [0] 1 wf).window
      (ix2 e f') 1 = f'.val := by
    unfold ScatterDims.window
    rw [dif_pos (by simp [Shape.kept, List.finRange])]
    rfl
  rw [hstart0, hwin0, hstart1, hwin1]
  show (idx (ix2 e 0)).toInt + ((0 : ℕ) : ℤ) = (n.val : ℤ) ∧ (0 : ℤ) + (f'.val : ℤ) = (f.val : ℤ) ↔ _
  rw [Fin.ext_iff]
  constructor
  · rintro ⟨h1, h2⟩; exact ⟨by omega, by omega⟩
  · rintro ⟨h1, h2⟩; exact ⟨by omega, by omega⟩

/-- E rows added into an N x C table at signed, unclamped row indices. -/
theorem scatterAdd_rows_apply {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (upd : (⟨2, ![E, C]⟩ : Shape).Idx → EReal)
    (n : Fin N) (f : Fin C) :
    Ideal.hostScatterAdd d x idx upd (ix2 n f)
      = x (ix2 n f) + ∑ e : Fin E, (if (idx (ix2 e 0)).toInt = (n.val : ℤ) then upd (ix2 e f) else 0) := by
  unfold Ideal.hostScatterAdd
  congr 1
  rw [Finset.sum_filter, sum_idx2]
  refine Finset.sum_congr rfl fun e _ => ?_
  simp only [rows_resultIdx?_iff d hu hi hs hv idx e _ f n]
  rw [Finset.sum_eq_single f]
  · simp
  · intro f' _ hne
    rw [if_neg (fun h => hne h.1)]
  · intro h; exact absurd (Finset.mem_univ f) h

/-- E rows gathered out of an N x C table: row e of the result is the table's row at the clamped signed index. -/
theorem gather_rows_apply {α : Type} {N C E w : Nat} (hN : 0 < N) (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (hsz : d.sliceSizes = ![1, C])
    (x : (⟨2, ![N, C]⟩ : Shape).Idx → α) (idx : IVec ⟨2, ![E, 1]⟩ w) (e : Fin E) (f : Fin C) :
    Host.gather d x idx (ix2 e f) = x (ix2 (clampRow N hN (idx (ix2 e 0)).toInt) f) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix2 e f) idx a + GatherDims.batchCoord _ (ix2 e f) a + GatherDims.offCoord _ (ix2 e f) a = _
  rw [GatherDims.batchCoord_eq_zero _ _ _ List.not_mem_nil, Nat.add_zero]
  revert a
  rw [Fin.forall_fin_two]
  refine ⟨?_, ?_⟩
  · rw [GatherDims.offCoord_eq_zero _ _ _ (fun h => ((GatherDims.mem_sKept _ _).mp h).1 (List.mem_singleton.mpr rfl)),
      Nat.add_zero]
    unfold GatherDims.start
    rw [dif_pos (List.mem_singleton.mpr rfl)]
    have hsi : ∀ c, GatherDims.siIdx (s := ⟨2, ![N, C]⟩) (si := ⟨2, ![E, 1]⟩) (t := ⟨2, ![E, C]⟩)
        ⟨[1], [0], [], [], [0], 1, ![1, C], wf⟩ (ix2 e f) c = ix2 e 0 := by
      intro c
      funext b; refine Fin.ext ?_
      match b with
      | ⟨0, _⟩ => rfl
      | ⟨1, _⟩ => exact Nat.lt_one_iff.mp c.isLt
    rw [hsi]
    show min (idx (ix2 e 0)).toInt.toNat (N - 1) = (min (max (idx (ix2 e 0)).toInt 0) ((N - 1 : Nat) : Int)).toNat
    omega
  · unfold GatherDims.start
    rw [dif_neg (by simp), Nat.zero_add]
    rfl

/-- A one-row dynamic slice of an N x C table whose column start is 0: the row at the clamped signed start. -/
theorem dynamicSlice_row_apply {α : Type} {N C : Nat} (hN : 0 < N) (x : (⟨2, ![N, C]⟩ : Shape).Idx → α) (start : Fin 2 → Int)
    (h0 : start 1 = 0) (h : (⟨2, ![N, C]⟩ : Shape).Slices (fun _ => 0) ⟨2, ![1, C]⟩) (f : Fin C) :
    Host.dynamicSlice (s := ⟨2, ![N, C]⟩) ⟨2, ![1, C]⟩ x start h (ix2 0 f) = x (ix2 (clampRow N hN (start 0)) f) := by
  show x _ = x _
  congr 1
  funext a
  refine Fin.ext ?_
  match a with
  | ⟨0, _⟩ =>
    show (min (max (start 0) 0) ((N - 1 : Nat) : Int)).toNat + 0 = (min (max (start 0) 0) ((N - 1 : Nat) : Int)).toNat
    rfl
  | ⟨1, _⟩ =>
    show (min (max (start 1) 0) ((C - C : Nat) : Int)).toNat + f.val = f.val
    rw [h0]; simp

end Cert.LibRowOps

end
-- ==== Proof.Spec.lean ====
/-
  What the two programs compute, written once as plain functions of the argument arrays.

  An edge e joins nodes col e and row e; its feature row is x e = [emb (col e) | emb (row e)] · W1 + b1 (128 columns).
  Edges are grouped by the graph sg e of their first node. Per graph g and column j: the count n g (at least 1), the
  mean μ g j = (Σ_{sg e = g} x e j) / n g, the centred value o e j = x e j − μ (sg e) j · c j, the variance
  v g j = (Σ_{sg e = g} (o e j)²) / n g and σ g j = √(v g j + ε). The result at edge e is
  Σ_j max ((o e j / σ (sg e) j) · w j + b j) 0 · W2 j + b2.

  The tiled program reaches the same number another way: per tile of 6400 edges it sums, by a product with the 0/1 matrix
  "edge r belongs to graph g", the rows [x | x² | 1]; the tiles' sums give n, Σ x and Σ x² per graph; from them it tabulates
  scale g j = w j / σ' g j and shift g j = b j − μ g j · c j · scale g j with σ'² = max (Σx²/n − μ²(2c − c²)) 0 + ε, and the result
  is Σ_j max (x e j · scale (sg e) j + shift (sg e) j) 0 · W2 j + b2.  The definitions below name each of these pieces.
-/
import Idealize.ShloMosaic.PureOps.Ideal
import Idealize.ShloMosaic.Lib.ValueIdx
import proofs.«412857_j18983755448605_4_alg».proof.Proof.LibRowOps

noncomputable section

namespace Cert.EdgeNorm

open Idealize.ShloMosaic Idealize.ShloMosaic.ValueIdx

/-- The node a signed index word names, clamped into the node table: the word itself on 0 … 99999. -/
def nodeOf (z : BitVec 32) : Fin 100000 := Cert.LibRowOps.clampRow 100000 (by decide) z.toInt

/-- The graph a signed index word names, clamped into the 512 graphs: the word itself on 0 … 511. -/
def graphOf (z : BitVec 32) : Fin 512 := Cert.LibRowOps.clampRow 512 (by decide) z.toInt

/-- The entry of the 0/1 membership matrix: 1 when the word z is the graph number g. -/
def hot (z : BitVec 32) (g : Fin 512) : EReal := if z = BitVec.ofNat 32 g.val then 1 else 0

/-- The ε both programs add under the square root: the single-precision word nearest 1e-5, read exactly. -/
def epsv : EReal := Ideal.ofBits .f32 0x3727C5AC#32

/-! ## The tiled program's pieces -/

/-- The first layer on the two gathered halves: ec · W1[0:64] + er · W1[64:128] + b1. -/
def lin (ec er : (⟨2, ![1600000, 64]⟩ : Shape).Idx → EReal) (wt wb : (⟨2, ![64, 128]⟩ : Shape).Idx → EReal)
    (b : (⟨2, ![1, 128]⟩ : Shape).Idx → EReal) (e : Fin 1600000) (j : Fin 128) : EReal :=
  ((∑ k : Fin 64, ec (ix2 e k) * wt (ix2 k j)) + (∑ k : Fin 64, er (ix2 e k) * wb (ix2 k j))) + b (ix2 0 j)

/-- The edge in row r of tile t (tiles of 6400 consecutive edges). -/
def edgeAt (t : Fin 250) (r : Fin 6400) : Fin 1600000 := ⟨t.val * 6400 + r.val, by omega⟩

/-- The row [x | x² | 1] of edge e, 384 columns. -/
def feat (h : (⟨2, ![1600000, 128]⟩ : Shape).Idx → EReal) (e : Fin 1600000) (q : Fin 384) : EReal :=
  if hq : q.val < 128 then h (ix2 e ⟨q.val, hq⟩)
  else if hq2 : q.val < 256 then h (ix2 e ⟨q.val - 128, by omega⟩) * h (ix2 e ⟨q.val - 128, by omega⟩)
  else 1

/-- Tile t's sums per graph: Σ over the tile's rows of membership × [x | x² | 1]. -/
def stat (h : (⟨2, ![1600000, 128]⟩ : Shape).Idx → EReal) (seg : (⟨2, ![1600000, 1]⟩ : Shape).Idx → BitVec 32)
    (t : Fin 250) (g : Fin 512) (q : Fin 384) : EReal :=
  ∑ r : Fin 6400, hot (seg (ix2 (edgeAt t r) 0)) g * feat h (edgeAt t r) q

/-- The tiles' sums added up. -/
def comb (stats : (⟨3, ![250, 512, 384]⟩ : Shape).Idx → EReal) (g : Fin 512) (q : Fin 384) : EReal :=
  ∑ t : Fin 250, stats (ix3 t g q)

/-- The graph's edge count, at least 1 (column 256 of the sums). -/
def cntK (stats : (⟨3, ![250, 512, 384]⟩ : Shape).Idx → EReal) (g : Fin 512) : EReal :=
  max (comb stats g ⟨256, by decide⟩) 1

/-- The graph's mean of x. -/
def meanK (stats : (⟨3, ![250, 512, 384]⟩ : Shape).Idx → EReal) (g : Fin 512) (j : Fin 128) : EReal :=
  Ideal.div (comb stats g ⟨j.val, by omega⟩) (cntK stats g)

/-- The graph's mean of x². -/
def msqK (stats : (⟨3, ![250, 512, 384]⟩ : Shape).Idx → EReal) (g : Fin 512) (j : Fin 128) : EReal :=
  Ideal.div (comb stats g ⟨128 + j.val, by omega⟩) (cntK stats g)

/-- The variance by moments, cut at 0: max (E x² − μ² (2c − c²)) 0. -/
def varK (stats : (⟨3, ![250, 512, 384]⟩ : Shape).Idx → EReal) (c : (⟨1, ![128]⟩ : Shape).Idx → EReal)
    (g : Fin 512) (j : Fin 128) : EReal :=
  max (msqK stats g j - meanK stats g j * meanK stats g j * (2 * c (ix1 j) - c (ix1 j) * c (ix1 j))) 0

/-- scale g j = w j · (1 / √(var + ε)). -/
def scaleK (stats : (⟨3, ![250, 512, 384]⟩ : Shape).Idx → EReal) (c w : (⟨1, ![128]⟩ : Shape).Idx → EReal)
    (g : Fin 512) (j : Fin 128) : EReal :=
  w (ix1 j) * Ideal.div 1 (Ideal.sqrt (varK stats c g j + epsv))

/-- shift g j = b j − μ g j · c j · scale g j. -/
def shiftK (stats : (⟨3, ![250, 512, 384]⟩ : Shape).Idx → EReal) (c w b : (⟨1, ![128]⟩ : Shape).Idx → EReal)
    (g : Fin 512) (j : Fin 128) : EReal :=
  b (ix1 j) - meanK stats g j * c (ix1 j) * scaleK stats c w g j

/-- The table [scale | shift], 256 columns. -/
def tableK (stats : (⟨3, ![250, 512, 384]⟩ : Shape).Idx → EReal) (c w b : (⟨1, ![128]⟩ : Shape).Idx → EReal)
    (g : Fin 512) (q : Fin 256) : EReal :=
  if hq : q.val < 128 then scaleK stats c w g ⟨q.val, hq⟩ else shiftK stats c w b g ⟨q.val - 128, by omega⟩

/-- Row e of membership × table: the table's row of e's graph, as a sum over all graphs. -/
def gat (seg : (⟨2, ![1600000, 1]⟩ : Shape).Idx → BitVec 32) (table : (⟨2, ![512, 256]⟩ : Shape).Idx → EReal)
    (e : Fin 1600000) (q : Fin 256) : EReal :=
  ∑ g : Fin 512, hot (seg (ix2 e 0)) g * table (ix2 g q)

/-- The tiled program's result at edge e. -/
def outK (h : (⟨2, ![1600000, 128]⟩ : Shape).Idx → EReal) (seg : (⟨2, ![1600000, 1]⟩ : Shape).Idx → BitVec 32)
    (table : (⟨2, ![512, 256]⟩ : Shape).Idx → EReal) (w2 : (⟨2, ![128, 1]⟩ : Shape).Idx → EReal)
    (b2 : (⟨2, ![1, 1]⟩ : Shape).Idx → EReal) (e : Fin 1600000) : EReal :=
  (∑ j : Fin 128, max (h (ix2 e j) * gat seg table e ⟨j.val, by omega⟩ + gat seg table e ⟨128 + j.val, by omega⟩) 0
      * w2 (ix2 j 0)) + b2 (ix2 0 0)

/-! ## The plain program's pieces -/

/-- Row e of [emb (col e) | emb (row e)], 128 columns. -/
def f12 (emb : (⟨2, ![100000, 64]⟩ : Shape).Idx → EReal) (col row : Fin 1600000 → Fin 100000) (e : Fin 1600000)
    (k : Fin 128) : EReal :=
  if hk : k.val < 64 then emb (ix2 (col e) ⟨k.val, hk⟩) else emb (ix2 (row e) ⟨k.val - 64, by omega⟩)

/-- x e j = Σ_k f12 e k · W1 k j + b1 j. -/
def xR (emb : (⟨2, ![100000, 64]⟩ : Shape).Idx → EReal) (W1 : (⟨2, ![128, 128]⟩ : Shape).Idx → EReal)
    (b1 : (⟨1, ![128]⟩ : Shape).Idx → EReal) (col row : Fin 1600000 → Fin 100000) (e : Fin 1600000) (j : Fin 128) : EReal :=
  (∑ k : Fin 128, f12 emb col row e k * W1 (ix2 k j)) + b1 (ix1 j)

/-- The graph's edge count, at least 1. -/
def cntR (sg : Fin 1600000 → Fin 512) (g : Fin 512) : EReal :=
  max (∑ e : Fin 1600000, if sg e = g then (1 : EReal) else 0) 1

/-- Σ over the graph's edges of a per-edge value. -/
def sumR (y : Fin 1600000 → Fin 128 → EReal) (sg : Fin 1600000 → Fin 512) (g : Fin 512) (j : Fin 128) : EReal :=
  ∑ e : Fin 1600000, if sg e = g then y e j else 0

/-- The graph's mean. -/
def meanR (x : Fin 1600000 → Fin 128 → EReal) (sg : Fin 1600000 → Fin 512) (g : Fin 512) (j : Fin 128) : EReal :=
  Ideal.div (sumR x sg g j) (cntR sg g)

/-- The centred value o e j = x e j − μ (sg e) j · c j. -/
def ctrR (x : Fin 1600000 → Fin 128 → EReal) (sg : Fin 1600000 → Fin 512) (c : (⟨1, ![128]⟩ : Shape).Idx → EReal)
    (e : Fin 1600000) (j : Fin 128) : EReal :=
  x e j - meanR x sg (sg e) j * c (ix1 j)

/-- The graph's variance of the centred values. -/
def varR (x : Fin 1600000 → Fin 128 → EReal) (sg : Fin 1600000 → Fin 512) (c : (⟨1, ![128]⟩ : Shape).Idx → EReal)
    (g : Fin 512) (j : Fin 128) : EReal :=
  Ideal.div (sumR (fun e j => ctrR x sg c e j * ctrR x sg c e j) sg g j) (cntR sg g)

/-- σ g j = √(v g j + ε). -/
def stdR (x : Fin 1600000 → Fin 128 → EReal) (sg : Fin 1600000 → Fin 512) (c : (⟨1, ![128]⟩ : Shape).Idx → EReal)
    (g : Fin 512) (j : Fin 128) : EReal :=
  Ideal.sqrt (varR x sg c g j + epsv)

/-- The normalised value (o e j / σ (sg e) j) · w j + b j. -/
def normR (x : Fin 1600000 → Fin 128 → EReal) (sg : Fin 1600000 → Fin 512) (c w b : (⟨1, ![128]⟩ : Shape).Idx → EReal)
    (e : Fin 1600000) (j : Fin 128) : EReal :=
  Ideal.div (ctrR x sg c e j) (stdR x sg c (sg e) j) * w (ix1 j) + b (ix1 j)

/-- The plain program's result at edge e. -/
def refOut (x : Fin 1600000 → Fin 128 → EReal) (sg : Fin 1600000 → Fin 512) (c w b : (⟨1, ![128]⟩ : Shape).Idx → EReal)
    (W2 : (⟨2, ![128, 1]⟩ : Shape).Idx → EReal) (b2 : (⟨1, ![1]⟩ : Shape).Idx → EReal) (e : Fin 1600000) : EReal :=
  (∑ j : Fin 128, max (normR x sg c w b e j) 0 * W2 (ix2 j 0)) + b2 (ix1 0)

end Cert.EdgeNorm

end
-- ==== Proof.Region0.lean ====
/-
  Region 0 (the first layer): the array its output window leaves.  Each grid point t writes rows 16000·t … 16000·t + 15999 of
  the [1600000, 128] array; row e, column j holds Σ_k ec e k · wt k j + Σ_k er e k · wb k j + b 0 j (two products with the
  64-row halves of W1, then the bias row), so the whole array is Cert.EdgeNorm.lin of the five input arrays, whatever the
  buffer contents V at the region's entry are.
-/
import proofs.«412857_j18983755448605_4_alg».proof.Proof.Gen.KernelIdeal.Frame
import proofs.«412857_j18983755448605_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The five input arrays and the output array of the region, at their literal types. -/
abbrev ecA (c : Dev nD) : Vec Ideal S1600000x64 .f32 := V c (Pipeline.arrRef spec0 0)
abbrev erA (c : Dev nD) : Vec Ideal S1600000x64 .f32 := V c (Pipeline.arrRef spec0 1)
abbrev wtA (c : Dev nD) : Vec Ideal S64x128 .bf16 := V c (Pipeline.arrRef spec0 2)
abbrev wbA (c : Dev nD) : Vec Ideal S64x128 .bf16 := V c (Pipeline.arrRef spec0 3)
abbrev biasA (c : Dev nD) : Vec Ideal S1x128 .f32 := V c (Pipeline.arrRef spec0 4)
abbrev hOut (c : Dev nD) : Vec Ideal S1600000x128 .bf16 := (dat0 (F := Ideal) V c).arrAt 5 cfg0.N

/-! ## The stored value at an entry of the block -/

/-- The dimension numbers of both products: rows × 64 times 64 × columns. -/
abbrev D0 : DotDims S16000x64 S64x128 S16000x128 := dot_S16000x64_S64x128_S16000x128_1_0_0_1_n_n

theorem D0_rank : D0.contr.rank = 1 := rfl
theorem D0_size : D0.contr.size ⟨0, by rw [D0_rank]; exact Nat.one_pos⟩ = 64 := rfl

theorem lhs_0 (j : S16000x128.Idx) (k : D0.contr.Idx) : (D0.lhsIdx j k 0).val = (j 0).val := rfl
theorem lhs_1 (j : S16000x128.Idx) (k : D0.contr.Idx) :
    (D0.lhsIdx j k 1).val = (k ⟨0, by rw [D0_rank]; exact Nat.one_pos⟩).val :=
  D0.lhsIdx_val_of_single (cl := 1) rfl j k
theorem rhs_0 (j : S16000x128.Idx) (k : D0.contr.Idx) :
    (D0.rhsIdx j k 0).val = (k ⟨0, by rw [D0_rank]; exact Nat.one_pos⟩).val :=
  D0.rhsIdx_val_of_single (cr := 0) rfl j k
theorem rhs_1 (j : S16000x128.Idx) (k : D0.contr.Idx) : (D0.rhsIdx j k 1).val = (j 1).val := rfl

/-- The left operand's index at output (r, j) and contraction position k is (r, k). -/
theorem lhsIdx_eq (r : Fin 16000) (j : Fin 128) (k : Fin 64) :
    D0.lhsIdx (ix2 r j) ((contrEquiv1 D0 64 D0_rank D0_size).symm k) = ix2 r k := by
  funext a; apply Fin.ext
  match a with
  | ⟨0, _⟩ => exact lhs_0 _ _
  | ⟨1, _⟩ => exact (lhs_1 _ _).trans (contrEquiv1_symm_val D0 64 D0_rank D0_size k)

/-- The right operand's index there is (k, j). -/
theorem rhsIdx_eq (r : Fin 16000) (j : Fin 128) (k : Fin 64) :
    D0.rhsIdx (ix2 r j) ((contrEquiv1 D0 64 D0_rank D0_size).symm k) = ix2 k j := by
  funext a; apply Fin.ext
  match a with
  | ⟨0, _⟩ => exact (rhs_0 _ _).trans (contrEquiv1_symm_val D0 64 D0_rank D0_size k)
  | ⟨1, _⟩ => exact rhs_1 _ _

/-- A product into the zero accumulator, read at (r, j): the sum over the 64 contraction positions. -/
theorem matmul_at (x : FVec Ideal S16000x64 .bf16) (w : FVec Ideal S64x128 .bf16) (r : Fin 16000) (j : Fin 128) :
    FloatOps.matmul D0 none x w (constant (F := Ideal) S16000x128 .f32 0x00000000#32) (ix2 r j)
      = ∑ k : Fin 64, x (ix2 r k) * w (ix2 k j) := by
  rw [Ideal.matmul_constant_zero_apply, ← Equiv.sum_comp (contrEquiv1 D0 64 D0_rank D0_size).symm]
  refine Finset.sum_congr rfl fun k _ => ?_
  rw [lhsIdx_eq, rhsIdx_eq]

/-- The body's stored value at row r, column j of the block: the two products' sums plus the bias row. -/
theorem pay_at (x0 x1 : Vec Ideal S16000x64 .f32) (x2 x3 : Vec Ideal S64x128 .bf16) (x4 : Vec Ideal S1x128 .f32)
    (r : Fin 16000) (j : Fin 128) :
    k0_pay1 (F := Ideal) x0 x1 x2 x3 x4 (ix2 r j)
      = ((∑ k : Fin 64, x0 (ix2 r k) * x2 (ix2 k j)) + (∑ k : Fin 64, x1 (ix2 r k) * x3 (ix2 k j))) + x4 (ix2 0 j) := by
  unfold k0_pay1
  simp only [shapeCast_self]
  rw [truncf_apply, addf_apply, addf_apply]
  simp only [matmul]
  rw [matmul_at, matmul_at, broadcastTo_1b_ab_apply]
  simp only [truncf_apply]

/-! ## Each window's block as rows of its array -/

/-- The zero offsets of every load and of the store. -/
theorem hz : (![0, 0] : Fin 2 → Nat) = fun _ => 0 := funext fun a => by fin_cases a <;> rfl

/-- The windows' block indices at grid point t, decided over the 100 points: the two row operands and the output take
    block (t, 0); the two weight halves and the bias row take block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block t of the first row operand is rows 16000·t … 16000·t + 15999 of its array. -/
theorem blk0_apply (c : Dev nD) (t : Fin cfg0.N) (x : S16000x64.Idx) (k : S1600000x64.Idx)
    (hk0 : (k 0).val = 16000 * t.val + (x 0).val) (hk1 : (k 1).val = (x 1).val) :
    (iblk0 (F := Ideal) V c 0 t : Vec Ideal S16000x64 .f32) x = ecA V c k := by
  obtain ⟨e0, e1, -⟩ := idx_facts t
  unfold iblk0
  rw [View.read_apply]
  show V c (Pipeline.arrRef spec0 0) _ = V c (Pipeline.arrRef spec0 0) _
  congr 1
  funext a; apply Fin.ext
  match a with
  | ⟨0, _⟩ => show win0_0.index t (0 : Fin 2) * 16000 + 1 * (x 0).val = (k 0).val; rw [e0, hk0]; omega
  | ⟨1, _⟩ => show win0_0.index t (1 : Fin 2) * 64 + 1 * (x 1).val = (k 1).val; rw [e1, hk1]; omega

/-- Block t of the second row operand likewise. -/
theorem blk1_apply (c : Dev nD) (t : Fin cfg0.N) (x : S16000x64.Idx) (k : S1600000x64.Idx)
    (hk0 : (k 0).val = 16000 * t.val + (x 0).val) (hk1 : (k 1).val = (x 1).val) :
    (iblk0 (F := Ideal) V c 1 t : Vec Ideal S16000x64 .f32) x = erA V c k := by
  obtain ⟨-, -, e0, e1, -⟩ := idx_facts t
  unfold iblk0
  rw [View.read_apply]
  show V c (Pipeline.arrRef spec0 1) _ = V c (Pipeline.arrRef spec0 1) _
  congr 1
  funext a; apply Fin.ext
  match a with
  | ⟨0, _⟩ => show win0_1.index t (0 : Fin 2) * 16000 + 1 * (x 0).val = (k 0).val; rw [e0, hk0]; omega
  | ⟨1, _⟩ => show win0_1.index t (1 : Fin 2) * 64 + 1 * (x 1).val = (k 1).val; rw [e1, hk1]; omega

/-- The one block of the first weight half is the whole [64, 128] array, at every point. -/
theorem blk2_apply (c : Dev nD) (t : Fin cfg0.N) (x : S64x128.Idx) :
    (iblk0 (F := Ideal) V c 2 t : Vec Ideal S64x128 .bf16) x = wtA V c x := by
  obtain ⟨-, -, -, -, e0, e1, -⟩ := idx_facts t
  unfold iblk0
  rw [View.read_apply]
  show V c (Pipeline.arrRef spec0 2) _ = V c (Pipeline.arrRef spec0 2) _
  congr 1
  funext a; apply Fin.ext
  match a with
  | ⟨0, _⟩ => show win0_2.index t (0 : Fin 2) * 64 + 1 * (x 0).val = (x 0).val; rw [e0]; omega
  | ⟨1, _⟩ => show win0_2.index t (1 : Fin 2) * 128 + 1 * (x 1).val = (x 1).val; rw [e1]; omega

/-- The one block of the second weight half likewise. -/
theorem blk3_apply (c : Dev nD) (t : Fin cfg0.N) (x : S64x128.Idx) :
    (iblk0 (F := Ideal) V c 3 t : Vec Ideal S64x128 .bf16) x = wbA V c x := by
  obtain ⟨-, -, -, -, -, -, e0, e1, -⟩ := idx_facts t
  unfold iblk0
  rw [View.read_apply]
  show V c (Pipeline.arrRef spec0 3) _ = V c (Pipeline.arrRef spec0 3) _
  congr 1
  funext a; apply Fin.ext
  match a with
  | ⟨0, _⟩ => show win0_3.index t (0 : Fin 2) * 64 + 1 * (x 0).val = (x 0).val; rw [e0]; omega
  | ⟨1, _⟩ => show win0_3.index t (1 : Fin 2) * 128 + 1 * (x 1).val = (x 1).val; rw [e1]; omega

/-- The one block of the bias row is the whole [1, 128] array. -/
theorem blk4_apply (c : Dev nD) (t : Fin cfg0.N) (x : S1x128.Idx) :
    (iblk0 (F := Ideal) V c 4 t : Vec Ideal S1x128 .f32) x = biasA V c x := by
  obtain ⟨-, -, -, -, -, -, -, -, e0, e1, -⟩ := idx_facts t
  unfold iblk0
  rw [View.read_apply]
  show V c (Pipeline.arrRef spec0 4) _ = V c (Pipeline.arrRef spec0 4) _
  congr 1
  funext a; apply Fin.ext
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-- The whole output array, entry by entry: the first layer of the five input arrays. -/
def G (c : Dev nD) : S1600000x128.Idx → EReal :=
  fun i => Cert.EdgeNorm.lin (ecA V c) (erA V c) (wtA V c) (wbA V c) (biasA V c) (i 0) (i 1)

/-- The array index of entry y of the output's block at point t: row 16000·t + y₀, column y₁. -/
theorem out_emb (t : Fin cfg0.N) (y : S16000x128.Idx) :
    ((((cfg0.win 5).blk t).view.emb y : S1600000x128.Idx) 0).val = 16000 * t.val + (y 0).val
    ∧ ((((cfg0.win 5).blk t).view.emb y : S1600000x128.Idx) 1).val = (y 1).val := by
  obtain ⟨-, -, -, -, -, -, -, -, -, -, e0, e1⟩ := idx_facts t
  constructor
  · show win0_5.index t (0 : Fin 2) * 16000 + 1 * (y 0).val = _; rw [e0]; omega
  · show win0_5.index t (1 : Fin 2) * 128 + 1 * (y 1).val = _; rw [e1]; omega

/-! ## From the blocks to the whole array -/

/-- Entry y of what the body stores at point t is G at row 16000·t + y₀, column y₁. -/
theorem block_eq (c : Dev nD) (t : Fin cfg0.N) (y : S16000x128.Idx) (i : S1600000x128.Idx)
    (h0 : (i 0).val = 16000 * t.val + (y 0).val) (h1 : (i 1).val = (y 1).val) :
    k0_pay1 (F := Ideal) (iblk0 V c 0 t) (iblk0 V c 1 t) (iblk0 V c 2 t) (iblk0 V c 3 t) (iblk0 V c 4 t) y = G V c i := by
  obtain ⟨r, j, rfl⟩ : ∃ (r : Fin 16000) (j : Fin 128), y = ix2 r j := ⟨y 0, y 1, eq_ix2 y⟩
  obtain ⟨e, j', rfl⟩ : ∃ (e : Fin 1600000) (j' : Fin 128), i = ix2 e j' := ⟨i 0, i 1, eq_ix2 i⟩
  have hj : j' = j := Fin.ext h1
  subst hj
  have he : e.val = 16000 * t.val + r.val := h0
  refine (pay_at _ _ _ _ _ r j').trans ?_
  show _ = Cert.EdgeNorm.lin (ecA V c) (erA V c) (wtA V c) (wbA V c) (biasA V c) e j'
  unfold Cert.EdgeNorm.lin
  refine congrArg₂ (· + ·) (congrArg₂ (· + ·) ?_ ?_) ?_
  · refine Finset.sum_congr rfl fun k _ => ?_
    rw [blk0_apply V c t (ix2 r k) (ix2 e k) he rfl, blk2_apply]
  · refine Finset.sum_congr rfl fun k _ => ?_
    rw [blk1_apply V c t (ix2 r k) (ix2 e k) he rfl, blk3_apply]
  · rw [blk4_apply]

/-- What grid point t writes back is block t of G. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  unfold out0_5
  rw [View.canon_unit_zero hz]
  simp only [View.ld_unit_zero (S := S16000x64) hz, View.ld_unit_zero (S := S64x128) hz, View.ld_unit_zero (S := S1x128) hz]
  funext y
  show k0_pay1 (F := Ideal) (iblk0 V c 0 t) (iblk0 V c 1 t) (iblk0 V c 2 t) (iblk0 V c 3 t) (iblk0 V c 4 t) y
      = G V c (((cfg0.win 5).blk t).view.emb y)
  exact block_eq V c t y _ (out_emb t y).1 (out_emb t y).2

/-- An index of the array is in point t's block iff each coordinate is in the block's range on its axis. -/
theorem mem_blk (t : Fin cfg0.N) (i : S1600000x128.Idx) :
    i ∈ ((cfg0.win 5).blk t).view.set ↔ ∀ a : Fin 2, win0_5.index t a * S16000x128.size a ≤ (i a).val
      ∧ (i a).val < win0_5.index t a * S16000x128.size a + S16000x128.size a := by
  show i ∈ ((View.whole main_v34).slice (win0_5.rect t)).set ↔ _
  rw [View.set_slice_whole, Rect.mem_set_unit]
  exact Iff.rfl

/-- Row e of the array lies in the block of point e / 16000, which writes back. -/
theorem cover (i : S1600000x128.Idx) :
    ∃ t : Fin cfg0.N, (cfg0.win 5).flush t = true ∧ i ∈ ((cfg0.win 5).blk t).view.set := by
  have hi0 : (i 0).val < 1600000 := (i 0).isLt
  have hi1 : (i 1).val < 128 := (i 1).isLt
  have hN : cfg0.N = 100 := N_0
  obtain ⟨t, ht⟩ : ∃ t : Fin cfg0.N, t.val = (i 0).val / 16000 := ⟨⟨(i 0).val / 16000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 16000 ≤ (i 0).val ∧ (i 0).val < win0_5.index t (0 : Fin 2) * 16000 + 16000
    rw [e0]; omega
  | ⟨1, _⟩ =>
    show win0_5.index t (1 : Fin 2) * 128 ≤ (i 1).val ∧ (i 1).val < win0_5.index t (1 : Fin 2) * 128 + 128
    rw [e1]; omega

/-- The array region 0 leaves, entry by entry. -/
theorem value (c : Dev nD) (e : Fin 1600000) (j : Fin 128) :
    hOut V c (ix2 e j) = Cert.EdgeNorm.lin (ecA V c) (erA V c) (wtA V c) (wbA V c) (biasA V c) e j :=
  congrFun ((dat0 (F := Ideal) V c).arrAt_eq_of_cover 5 (G V c) (fun t _ => flushed_eq V c t) cover) (ix2 e j)

end Cert.KernelIdeal.Region0

end
-- ==== Proof.Region1.lean ====
/-
  Region 1 (the per-tile sums): the array its output window leaves.  Grid point t writes plane t of the [250, 512, 384] array;
  entry (t, g, q) is the sum over the 6400 edges of tile t of (1 if the edge's graph word is g, else 0) times column q of the
  edge's row [x | x² | 1]: a product of the transposed 0/1 membership matrix with the rows.  So the whole array is
  Cert.EdgeNorm.stat of the two input arrays, whatever the buffer contents V at the region's entry are.
-/
import proofs.«412857_j18983755448605_4_alg».proof.Proof.Gen.KernelIdeal.Frame
import proofs.«412857_j18983755448605_4_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The row [x | x² | 1] of row r of a 6400-row block, column q. -/
def featB (x : Vec Ideal S6400x128 .bf16) (r : Fin 6400) (q : Fin 384) : EReal :=
  if hq : q.val < 128 then x (ix2 r ⟨q.val, hq⟩)
  else if hq2 : q.val < 256 then x (ix2 r ⟨q.val - 128, by omega⟩) * x (ix2 r ⟨q.val - 128, by omega⟩)
  else 1

/-! ## The product's operand indices: both operands are contracted along their rows -/

theorem lhs_ax0 (i : S512x384.Idx) (k : dot_S6400x512_S6400x384_S512x384_0_0_1_1_n_n.contr.Idx) :
    (dot_S6400x512_S6400x384_S512x384_0_0_1_1_n_n.lhsIdx i k 0).val = (k ⟨0, by decide⟩).val :=
  dot_S6400x512_S6400x384_S512x384_0_0_1_1_n_n.lhsIdx_val_of_single rfl i k
theorem lhs_ax1 (i : S512x384.Idx) (k : dot_S6400x512_S6400x384_S512x384_0_0_1_1_n_n.contr.Idx) :
    (dot_S6400x512_S6400x384_S512x384_0_0_1_1_n_n.lhsIdx i k 1).val = (i 0).val := by
  unfold DotDims.lhsIdx
  rw [dif_neg (show ¬(1 : Fin S6400x512.rank) ∈ dot_S6400x512_S6400x384_S512x384_0_0_1_1_n_n.lhsBatch by decide), dif_pos (show (1 : Fin S6400x512.rank) ∈ dot_S6400x512_S6400x384_S512x384_0_0_1_1_n_n.lhsNonContracting by decide)]
  rfl
theorem rhs_ax0 (i : S512x384.Idx) (k : dot_S6400x512_S6400x384_S512x384_0_0_1_1_n_n.contr.Idx) :
    (dot_S6400x512_S6400x384_S512x384_0_0_1_1_n_n.rhsIdx i k 0).val = (k ⟨0, by decide⟩).val :=
  dot_S6400x512_S6400x384_S512x384_0_0_1_1_n_n.rhsIdx_val_of_single rfl i k
theorem rhs_ax1 (i : S512x384.Idx) (k : dot_S6400x512_S6400x384_S512x384_0_0_1_1_n_n.contr.Idx) :
    (dot_S6400x512_S6400x384_S512x384_0_0_1_1_n_n.rhsIdx i k 1).val = (i 1).val := by
  unfold DotDims.rhsIdx
  rw [dif_neg (show ¬(1 : Fin S6400x384.rank) ∈ dot_S6400x512_S6400x384_S512x384_0_0_1_1_n_n.rhsBatch by decide), dif_pos (show (1 : Fin S6400x384.rank) ∈ dot_S6400x512_S6400x384_S512x384_0_0_1_1_n_n.rhsNonContracting by decide)]
  rfl

/-! ## The entries of the two operands -/

/-- The comparison's bit, widened and read as a signed integer, is the membership entry: 1 when the word is the
    graph number, else 0. -/
theorem hot_entry (z : BitVec 32) (g : Fin 512) :
    ((((IntOp.cmpi .eq (BitVec.ofNat 32 g.val) z).setWidth 32).toInt : ℝ) : EReal) = Cert.EdgeNorm.hot z g := by
  unfold Cert.EdgeNorm.hot
  show ((((BitVec.ofBool (BitVec.ofNat 32 g.val == z)).setWidth 32).toInt : ℝ) : EReal) = _
  by_cases h : z = BitVec.ofNat 32 g.val
  · rw [if_pos h, ← h, beq_self_eq_true]
    rw [show ((BitVec.ofBool true).setWidth 32).toInt = 1 by decide]
    simp
  · rw [if_neg h, beq_false_of_ne (fun e => h e.symm)]
    rw [show ((BitVec.ofBool false).setWidth 32).toInt = 0 by decide]
    simp

/-- A one-column array broadcast along its rows reads, at (r, g), the column's entry of row r. -/
theorem bcast_col_apply {α : Type} (v : S6400x1.Idx → α) (h : S6400x1.Broadcasts S6400x512) (r : Fin 6400) (g : Fin 512) :
    broadcastTo S6400x512 v h (ix2 r g) = v (ix2 r (0 : Fin 1)) := by
  refine broadcastTo_apply v h (ix2 r g) (ix2 r (0 : Fin 1)) fun ax => ?_
  match ax with
  | ⟨0, _⟩ => show r.val = if (6400 : Nat) = 1 then 0 else r.val; rw [if_neg (by decide)]
  | ⟨1, _⟩ => show (0 : Nat) = if (1 : Nat) = 1 then 0 else g.val; rw [if_pos rfl]

/-- Three 128-column pieces laid side by side, read at (r, q): the piece that holds column q, at its own column. -/
theorem concat3_apply (P0 P1 P2 : FVec Ideal S6400x128 .bf16) (r : Fin 6400) (q : Fin 384) :
    (concatenate S6400x384 1 [⟨S6400x128, P0⟩, ⟨S6400x128, P1⟩, ⟨S6400x128, P2⟩]
        concatenates_S6400x128_S6400x128_S6400x128_S6400x384_d1 : FVec Ideal S6400x384 .bf16) (ix2 r q)
      = if hq : q.val < 128 then P0 (ix2 r ⟨q.val, hq⟩)
        else if hq2 : q.val < 256 then P1 (ix2 r ⟨q.val - 128, by omega⟩)
        else P2 (ix2 r ⟨q.val - 256, by have := q.isLt; omega⟩) := by
  have hq384 := q.isLt
  by_cases hq : q.val < 128
  · rw [dif_pos hq]
    exact concatenate_apply_piece (1 : Fin S6400x384.rank) ([⟨S6400x128, P0⟩, ⟨S6400x128, P1⟩, ⟨S6400x128, P2⟩] : List ((s : Shape) × (s.Idx → Ideal .bf16))) concatenates_S6400x128_S6400x128_S6400x128_S6400x384_d1 (ix2 r q)
      0 (by show (0 : Nat) < 3; omega) S6400x128 P0 rfl rfl 0 (by rfl) (ix2 r ⟨q.val, hq⟩)
      (fun b hb => by match b with | ⟨0, _⟩ => rfl | ⟨1, _⟩ => exact absurd rfl hb)
      (by show 0 + q.val = q.val; omega)
  · rw [dif_neg hq]
    by_cases hq2 : q.val < 256
    · rw [dif_pos hq2]
      exact concatenate_apply_piece (1 : Fin S6400x384.rank) ([⟨S6400x128, P0⟩, ⟨S6400x128, P1⟩, ⟨S6400x128, P2⟩] : List ((s : Shape) × (s.Idx → Ideal .bf16))) concatenates_S6400x128_S6400x128_S6400x128_S6400x384_d1 (ix2 r q)
        1 (by show (1 : Nat) < 3; omega) S6400x128 P1 rfl rfl 128 (by rfl) (ix2 r ⟨q.val - 128, by omega⟩)
        (fun b hb => by match b with | ⟨0, _⟩ => rfl | ⟨1, _⟩ => exact absurd rfl hb)
        (by show 128 + (q.val - 128) = q.val; omega)
    · rw [dif_neg hq2]
      exact concatenate_apply_piece (1 : Fin S6400x384.rank) ([⟨S6400x128, P0⟩, ⟨S6400x128, P1⟩, ⟨S6400x128, P2⟩] : List ((s : Shape) × (s.Idx → Ideal .bf16))) concatenates_S6400x128_S6400x128_S6400x128_S6400x384_d1 (ix2 r q)
        2 (by show (2 : Nat) < 3; omega) S6400x128 P2 rfl rfl 256 (by rfl) (ix2 r ⟨q.val - 256, by omega⟩)
        (fun b hb => by match b with | ⟨0, _⟩ => rfl | ⟨1, _⟩ => exact absurd rfl hb)
        (by show 256 + (q.val - 256) = q.val; omega)

/-! ## The body's result at an index -/

/-- What the body leaves at (0, g, q), from its two loaded blocks: the sum over the block's 6400 rows of the membership
    entry of row r and graph g times column q of the row [x | x² | 1]. -/
theorem pay_apply (x0 : Vec Ideal S6400x128 .bf16) (x1 : Vec Ideal S6400x1 .i32) (g : Fin 512) (q : Fin 384) :
    k1_pay1 (F := Ideal) x0 x1 (ix3 (0 : Fin 1) g q)
      = ∑ r : Fin 6400, Cert.EdgeNorm.hot (x1 (ix2 r (0 : Fin 1))) g * featB x0 r q := by
  unfold k1_pay1
  dsimp only
  simp only [shapeCast_self]
  rw [shapeCast_ab_1ab_apply]
  simp only [matmul]
  rw [Ideal.matmul_constant_zero_apply, ← Equiv.sum_comp (contrEquiv1 dot_S6400x512_S6400x384_S512x384_0_0_1_1_n_n 6400 rfl rfl).symm]
  refine Finset.sum_congr rfl fun k _ => ?_
  have hk := contrEquiv1_symm_val dot_S6400x512_S6400x384_S512x384_0_0_1_1_n_n 6400 rfl rfl k
  have el : dot_S6400x512_S6400x384_S512x384_0_0_1_1_n_n.lhsIdx (ix2 g q) ((contrEquiv1 dot_S6400x512_S6400x384_S512x384_0_0_1_1_n_n 6400 rfl rfl).symm k) = ix2 k g := funext fun a => Fin.ext (by
    match a with
    | ⟨0, _⟩ => exact (lhs_ax0 _ _).trans hk
    | ⟨1, _⟩ => exact lhs_ax1 _ _)
  have er : dot_S6400x512_S6400x384_S512x384_0_0_1_1_n_n.rhsIdx (ix2 g q) ((contrEquiv1 dot_S6400x512_S6400x384_S512x384_0_0_1_1_n_n 6400 rfl rfl).symm k) = ix2 k q := funext fun a => Fin.ext (by
    match a with
    | ⟨0, _⟩ => exact (rhs_ax0 _ _).trans hk
    | ⟨1, _⟩ => exact rhs_ax1 _ _)
  rw [el, er]
  congr 1
  · show ((((IntOp.cmpi .eq (iota .tc S6400x512 32 [1] iota_S6400x512_d1_w32 (ix2 k g)) (broadcastTo S6400x512 x1 broadcasts_S6400x1_S6400x512 (ix2 k g))).setWidth 32).toInt : ℝ) : EReal) = _
    rw [iota_single_apply, bcast_col_apply]
    exact hot_entry _ g
  · refine (concat3_apply _ _ _ k q).trans ?_
    unfold featB
    simp only [shapeCast_self]
    by_cases hq : q.val < 128
    · simp only [dif_pos hq]; rfl
    · by_cases hq2 : q.val < 256
      · simp only [dif_neg hq, dif_pos hq2]; rfl
      · simp only [dif_neg hq, dif_neg hq2]
        show Ideal.ofBits .bf16 0x3F80#16 = 1
        exact Ideal.ofBits_one_bf16

/-! ## From the blocks to the array -/

variable (V : (c : Dev nD) → (b : Ref sig .tc) → Buf (Elt Ideal) ((c : Thread nD τ).loc b))

/-- The two input arrays and the output array of the region, at their literal types. -/
abbrev hA (c : Dev nD) : Vec Ideal S1600000x128 .bf16 := V c (Pipeline.arrRef spec1 0)
abbrev segA (c : Dev nD) : Vec Ideal S1600000x1 .i32 := V c (Pipeline.arrRef spec1 1)
abbrev statOut (c : Dev nD) : Vec Ideal S250x512x384 .f32 := (dat1 (F := Ideal) V c).arrAt 2 cfg1.N

/-- The whole output array as one function of the two input arrays: plane t is tile t's sums. -/
abbrev tileSums (c : Dev nD) : Vec Ideal S250x512x384 .f32 :=
  fun i => Cert.EdgeNorm.stat (hA V c) (segA V c) (i 0) (i 1) (i 2)

theorem zeros2 : (![0, 0] : Fin 2 → Nat) = fun _ => 0 := funext fun a => by fin_cases a <;> rfl
theorem zeros3 : (![0, 0, 0] : Fin 3 → Nat) = fun _ => 0 := funext fun a => by fin_cases a <;> rfl

/-- Where the windows' blocks sit at grid point t: both inputs at row block t, the output at plane t. -/
theorem block_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- Row r of the first input's block at point p is row 6400 p + r of the array. -/
theorem rows_block (c : Dev nD) (p : Fin cfg1.N) (r : Fin 6400) (k : Fin 128) (e : Fin 1600000)
    (he : e.val = p.val * 6400 + r.val) :
    (iblk1 (F := Ideal) V c 0 p : Vec Ideal S6400x128 .bf16) (ix2 r k) = hA V c (ix2 e k) := by
  obtain ⟨e0, e1, -⟩ := block_at p
  unfold iblk1
  rw [View.read_apply]
  show V c (Pipeline.arrRef spec1 0) _ = V c (Pipeline.arrRef spec1 0) _
  congr 1
  funext a
  apply Fin.ext
  match a with
  | ⟨0, _⟩ => show win1_0.index p (0 : Fin 2) * 6400 + 1 * r.val = e.val; rw [e0, he]; omega
  | ⟨1, _⟩ => show win1_0.index p (1 : Fin 2) * 128 + 1 * k.val = k.val; rw [e1]; omega

/-- Row r of the second input's block at point p is row 6400 p + r of the array. -/
theorem words_block (c : Dev nD) (p : Fin cfg1.N) (r : Fin 6400) (e : Fin 1600000)
    (he : e.val = p.val * 6400 + r.val) :
    (iblk1 (F := Ideal) V c 1 p : Vec Ideal S6400x1 .i32) (ix2 r (0 : Fin 1)) = segA V c (ix2 e (0 : Fin 1)) := by
  obtain ⟨-, -, e0, e1, -⟩ := block_at p
  unfold iblk1
  rw [View.read_apply]
  show V c (Pipeline.arrRef spec1 1) _ = V c (Pipeline.arrRef spec1 1) _
  congr 1
  funext a
  apply Fin.ext
  match a with
  | ⟨0, _⟩ => show win1_1.index p (0 : Fin 2) * 6400 + 1 * r.val = e.val; rw [e0, he]; omega
  | ⟨1, _⟩ => show win1_1.index p (1 : Fin 2) * 1 + 1 * 0 = 0; rw [e1]

/-- The body's result on two blocks that hold rows 6400 p … 6400 p + 6399 of the arrays is plane p of the tiles' sums. -/
theorem point_eq (c : Dev nD) (p : Fin cfg1.N) (x0 : Vec Ideal S6400x128 .bf16) (x1 : Vec Ideal S6400x1 .i32)
    (h0 : ∀ (r : Fin 6400) (k : Fin 128) (e : Fin 1600000), e.val = p.val * 6400 + r.val → x0 (ix2 r k) = hA V c (ix2 e k))
    (h1 : ∀ (r : Fin 6400) (e : Fin 1600000), e.val = p.val * 6400 + r.val → x1 (ix2 r (0 : Fin 1)) = segA V c (ix2 e (0 : Fin 1)))
    (y : S1x512x384.Idx) (i : S250x512x384.Idx) (hi0 : (i 0).val = p.val) (hi1 : (i 1).val = (y 1).val)
    (hi2 : (i 2).val = (y 2).val) :
    k1_pay1 (F := Ideal) x0 x1 y = tileSums V c i := by
  obtain ⟨u, g, q, rfl⟩ : ∃ (u : Fin 1) (g : Fin 512) (q : Fin 384), y = ix3 u g q := ⟨y 0, y 1, y 2, eq_ix3 y⟩
  obtain rfl : u = 0 := Subsingleton.elim _ _
  obtain ⟨t, g', q', rfl⟩ : ∃ (t : Fin 250) (g' : Fin 512) (q' : Fin 384), i = ix3 t g' q' := ⟨i 0, i 1, i 2, eq_ix3 i⟩
  have hg : g' = g := Fin.ext hi1
  have hq : q' = q := Fin.ext hi2
  subst hg hq
  rw [pay_apply]
  show _ = Cert.EdgeNorm.stat (hA V c) (segA V c) t g' q'
  unfold Cert.EdgeNorm.stat
  refine Finset.sum_congr rfl fun r _ => ?_
  have he : (Cert.EdgeNorm.edgeAt t r).val = p.val * 6400 + r.val := by
    show t.val * 6400 + r.val = _
    rw [show t.val = p.val from hi0]
  rw [h1 r _ he]
  congr 1
  unfold featB Cert.EdgeNorm.feat
  by_cases hq : q'.val < 128
  · simp only [dif_pos hq]
    exact h0 r _ _ he
  · by_cases hq2 : q'.val < 256
    · simp only [dif_neg hq, dif_pos hq2]
      rw [h0 r _ _ he]
    · simp only [dif_neg hq, dif_neg hq2]

/-- What grid point p writes back is block p of the tiles' sums. -/
theorem flushed_eq (c : Dev nD) (p : Fin cfg1.N) :
    (dat1 (F := Ideal) V c).flushed 2 p = ((cfg1.win 2).blk p).view.read (Elt Ideal) (tileSums V c) := by
  show (cfg1.win 2).cut (grid1.coords p) ((dat1 (F := Ideal) V c).after 2 p) = _
  rw [after1_2]
  unfold out1_2
  rw [View.canon_unit_zero zeros3]
  simp only [View.ld_unit_zero (S := S6400x128) zeros2, View.ld_unit_zero (S := S6400x1) zeros2]
  obtain ⟨-, -, -, -, e0, e1, e2⟩ := block_at p
  funext j
  rw [View.read_apply]
  show k1_pay1 (F := Ideal) (iblk1 V c 0 p) (iblk1 V c 1 p) ((cfg1.win 2).xinj (grid1.coords p) j)
    = tileSums V c (((cfg1.win 2).blk p).view.emb j)
  have hj0 : (j 0).val < 1 := (j 0).isLt
  refine point_eq V c p (iblk1 V c 0 p) (iblk1 V c 1 p) (fun r k e he => rows_block V c p r k e he)
    (fun r e he => words_block V c p r e he) _ _ ?_ ?_ ?_
  · show win1_2.index p (0 : Fin 3) * 1 + 1 * (j 0).val = p.val
    rw [e0]; omega
  · show win1_2.index p (1 : Fin 3) * 512 + 1 * (j 1).val = (j 1).val
    rw [e1]; omega
  · show win1_2.index p (2 : Fin 3) * 384 + 1 * (j 2).val = (j 2).val
    rw [e2]; omega

/-- An index of the array is in point t's block iff each coordinate is in the block's range on its axis. -/
theorem mem_block (t : Fin cfg1.N) (i : S250x512x384.Idx) :
    i ∈ ((cfg1.win 2).blk t).view.set ↔ ∀ a : Fin 3, win1_2.index t a * S1x512x384.size a ≤ (i a).val
      ∧ (i a).val < win1_2.index t a * S1x512x384.size a + S1x512x384.size a := by
  show i ∈ ((View.whole main_v35).slice (win1_2.rect t)).set ↔ _
  rw [View.set_slice_whole, Rect.mem_set_unit]
  exact Iff.rfl

/-- Plane t of the array is the block of grid point t. -/
theorem planes_cover (i : S250x512x384.Idx) :
    ∃ t : Fin cfg1.N, (cfg1.win 2).flush t = true ∧ i ∈ ((cfg1.win 2).blk t).view.set := by
  have hi0 : (i 0).val < 250 := (i 0).isLt
  have hi1 : (i 1).val < 512 := (i 1).isLt
  have hi2 : (i 2).val < 384 := (i 2).isLt
  obtain ⟨t, ht⟩ : ∃ t : Fin cfg1.N, t.val = (i 0).val :=
    ⟨⟨(i 0).val, by have h : cfg1.N = 250 := N_1; omega⟩, rfl⟩
  obtain ⟨-, -, -, -, e0, e1, e2⟩ := block_at t
  refine ⟨t, flush1_2 t, ?_⟩
  rw [mem_block]
  intro a
  match a with
  | ⟨0, _⟩ =>
    show win1_2.index t (0 : Fin 3) * 1 ≤ (i 0).val ∧ (i 0).val < win1_2.index t (0 : Fin 3) * 1 + 1
    rw [e0]; omega
  | ⟨1, _⟩ =>
    show win1_2.index t (1 : Fin 3) * 512 ≤ (i 1).val ∧ (i 1).val < win1_2.index t (1 : Fin 3) * 512 + 512
    rw [e1]; omega
  | ⟨2, _⟩ =>
    show win1_2.index t (2 : Fin 3) * 384 ≤ (i 2).val ∧ (i 2).val < win1_2.index t (2 : Fin 3) * 384 + 384
    rw [e2]; omega

/-- The array region 1 leaves, entry by entry. -/
theorem value (c : Dev nD) (t : Fin 250) (g : Fin 512) (q : Fin 384) :
    statOut V c (ix3 t g q) = Cert.EdgeNorm.stat (hA V c) (segA V c) t g q := by
  have h := (dat1 (F := Ideal) V c).arrAt_eq_of_cover 2 (tileSums V c) (fun p _ => flushed_eq V c p) planes_cover
  exact congrFun h (ix3 t g q)

end Cert.KernelIdeal.Region1

end
-- ==== Proof.Region2.lean ====
/-
  Region 2 (normalise, cut at 0, second layer): the array its output window leaves.  Grid point t writes rows 6400·t … 6400·t + 6399
  of the [1600000, 1] array; row e holds Σ_j max (h e j · G e j + G e (128 + j)) 0 · w2 j + b2, where G e q = Σ_g (1 if e's graph word is
  g, else 0) · table g q is the product of the 0/1 membership matrix with the table.  So the whole array is Cert.EdgeNorm.outK of the
  five input arrays, whatever the buffer contents V at the region's entry are.
-/
import proofs.«412857_j18983755448605_4_alg».proof.Proof.Gen.KernelIdeal.Frame
import proofs.«412857_j18983755448605_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The five input arrays and the output array of the region, at their literal types. -/
abbrev hA (c : Dev nD) : Vec Ideal S1600000x128 .bf16 := V c (Pipeline.arrRef spec2 0)
abbrev segA (c : Dev nD) : Vec Ideal S1600000x1 .i32 := V c (Pipeline.arrRef spec2 1)
abbrev tableA (c : Dev nD) : Vec Ideal S512x256 .bf16 := V c (Pipeline.arrRef spec2 2)
abbrev w2A (c : Dev nD) : Vec Ideal S128x1 .bf16 := V c (Pipeline.arrRef spec2 3)
abbrev b2A (c : Dev nD) : Vec Ideal S1x1 .f32 := V c (Pipeline.arrRef spec2 4)
abbrev resOut (c : Dev nD) : Vec Ideal S1600000x1 .f32 := (dat2 (F := Ideal) V c).arrAt 5 cfg2.N

/-! ## The two products read at an index -/

theorem lhsA_0 (i : S6400x256.Idx) (q : dot_S6400x512_S512x256_S6400x256_1_0_0_1_n_n.contr.Idx) :
    (dot_S6400x512_S512x256_S6400x256_1_0_0_1_n_n.lhsIdx i q 0).val = (i 0).val := by
  unfold DotDims.lhsIdx
  rw [dif_neg (show ¬(0 : Fin S6400x512.rank) ∈ dot_S6400x512_S512x256_S6400x256_1_0_0_1_n_n.lhsBatch by decide), dif_pos (show (0 : Fin S6400x512.rank) ∈ dot_S6400x512_S512x256_S6400x256_1_0_0_1_n_n.lhsNonContracting by decide)]
  rfl
theorem lhsA_1 (i : S6400x256.Idx) (q : dot_S6400x512_S512x256_S6400x256_1_0_0_1_n_n.contr.Idx) :
    (dot_S6400x512_S512x256_S6400x256_1_0_0_1_n_n.lhsIdx i q 1).val = (q ⟨0, by decide⟩).val :=
  dot_S6400x512_S512x256_S6400x256_1_0_0_1_n_n.lhsIdx_val_of_single rfl i q
theorem rhsA_0 (i : S6400x256.Idx) (q : dot_S6400x512_S512x256_S6400x256_1_0_0_1_n_n.contr.Idx) :
    (dot_S6400x512_S512x256_S6400x256_1_0_0_1_n_n.rhsIdx i q 0).val = (q ⟨0, by decide⟩).val :=
  dot_S6400x512_S512x256_S6400x256_1_0_0_1_n_n.rhsIdx_val_of_single rfl i q
theorem rhsA_1 (i : S6400x256.Idx) (q : dot_S6400x512_S512x256_S6400x256_1_0_0_1_n_n.contr.Idx) :
    (dot_S6400x512_S512x256_S6400x256_1_0_0_1_n_n.rhsIdx i q 1).val = (i 1).val := by
  unfold DotDims.rhsIdx
  rw [dif_neg (show ¬(1 : Fin S512x256.rank) ∈ dot_S6400x512_S512x256_S6400x256_1_0_0_1_n_n.rhsBatch by decide), dif_pos (show (1 : Fin S512x256.rank) ∈ dot_S6400x512_S512x256_S6400x256_1_0_0_1_n_n.rhsNonContracting by decide)]
  rfl

/-- The membership-by-table product at row r, column q: the sum over the 512 graphs. -/
theorem mmA_apply (a : FVec Ideal S6400x512 .bf16) (b : FVec Ideal S512x256 .bf16) (r : Fin 6400) (q : Fin 256) :
    matmul dot_S6400x512_S512x256_S6400x256_1_0_0_1_n_n none a b (constant (F := Ideal) S6400x256 .f32 0x00000000#32) (ix2 r q)
      = ∑ g : Fin 512, a (ix2 r g) * b (ix2 g q) := by
  simp only [matmul]
  rw [Ideal.matmul_constant_zero_apply, ← Equiv.sum_comp (ValueIdx.contrEquiv1 dot_S6400x512_S512x256_S6400x256_1_0_0_1_n_n 512 rfl rfl).symm]
  refine Finset.sum_congr rfl fun k _ => ?_
  have hk := ValueIdx.contrEquiv1_symm_val dot_S6400x512_S512x256_S6400x256_1_0_0_1_n_n 512 rfl rfl k
  have el : dot_S6400x512_S512x256_S6400x256_1_0_0_1_n_n.lhsIdx (ix2 r q) ((ValueIdx.contrEquiv1 dot_S6400x512_S512x256_S6400x256_1_0_0_1_n_n 512 rfl rfl).symm k) = ix2 r k := funext fun a => Fin.ext (by
    match a with
    | ⟨0, _⟩ => exact lhsA_0 _ _
    | ⟨1, _⟩ => exact (lhsA_1 _ _).trans hk)
  have er : dot_S6400x512_S512x256_S6400x256_1_0_0_1_n_n.rhsIdx (ix2 r q) ((ValueIdx.contrEquiv1 dot_S6400x512_S512x256_S6400x256_1_0_0_1_n_n 512 rfl rfl).symm k) = ix2 k q := funext fun a => Fin.ext (by
    match a with
    | ⟨0, _⟩ => exact (rhsA_0 _ _).trans hk
    | ⟨1, _⟩ => exact rhsA_1 _ _)
  rw [el, er]

theorem lhsB_0 (i : S6400x1.Idx) (q : dot_S6400x128_S128x1_S6400x1_1_0_0_1_n_n.contr.Idx) :
    (dot_S6400x128_S128x1_S6400x1_1_0_0_1_n_n.lhsIdx i q 0).val = (i 0).val := by
  unfold DotDims.lhsIdx
  rw [dif_neg (show ¬(0 : Fin S6400x128.rank) ∈ dot_S6400x128_S128x1_S6400x1_1_0_0_1_n_n.lhsBatch by decide), dif_pos (show (0 : Fin S6400x128.rank) ∈ dot_S6400x128_S128x1_S6400x1_1_0_0_1_n_n.lhsNonContracting by decide)]
  rfl
theorem lhsB_1 (i : S6400x1.Idx) (q : dot_S6400x128_S128x1_S6400x1_1_0_0_1_n_n.contr.Idx) :
    (dot_S6400x128_S128x1_S6400x1_1_0_0_1_n_n.lhsIdx i q 1).val = (q ⟨0, by decide⟩).val :=
  dot_S6400x128_S128x1_S6400x1_1_0_0_1_n_n.lhsIdx_val_of_single rfl i q
theorem rhsB_0 (i : S6400x1.Idx) (q : dot_S6400x128_S128x1_S6400x1_1_0_0_1_n_n.contr.Idx) :
    (dot_S6400x128_S128x1_S6400x1_1_0_0_1_n_n.rhsIdx i q 0).val = (q ⟨0, by decide⟩).val :=
  dot_S6400x128_S128x1_S6400x1_1_0_0_1_n_n.rhsIdx_val_of_single rfl i q
theorem rhsB_1 (i : S6400x1.Idx) (q : dot_S6400x128_S128x1_S6400x1_1_0_0_1_n_n.contr.Idx) :
    (dot_S6400x128_S128x1_S6400x1_1_0_0_1_n_n.rhsIdx i q 1).val = (i 1).val := by
  unfold DotDims.rhsIdx
  rw [dif_neg (show ¬(1 : Fin S128x1.rank) ∈ dot_S6400x128_S128x1_S6400x1_1_0_0_1_n_n.rhsBatch by decide), dif_pos (show (1 : Fin S128x1.rank) ∈ dot_S6400x128_S128x1_S6400x1_1_0_0_1_n_n.rhsNonContracting by decide)]
  rfl

/-- The second layer's product at row r: the sum over the 128 columns. -/
theorem mmB_apply (a : FVec Ideal S6400x128 .bf16) (b : FVec Ideal S128x1 .bf16) (r : Fin 6400) (q : Fin 1) :
    matmul dot_S6400x128_S128x1_S6400x1_1_0_0_1_n_n none a b (constant (F := Ideal) S6400x1 .f32 0x00000000#32) (ix2 r q)
      = ∑ j : Fin 128, a (ix2 r j) * b (ix2 j q) := by
  simp only [matmul]
  rw [Ideal.matmul_constant_zero_apply, ← Equiv.sum_comp (ValueIdx.contrEquiv1 dot_S6400x128_S128x1_S6400x1_1_0_0_1_n_n 128 rfl rfl).symm]
  refine Finset.sum_congr rfl fun k _ => ?_
  have hk := ValueIdx.contrEquiv1_symm_val dot_S6400x128_S128x1_S6400x1_1_0_0_1_n_n 128 rfl rfl k
  have el : dot_S6400x128_S128x1_S6400x1_1_0_0_1_n_n.lhsIdx (ix2 r q) ((ValueIdx.contrEquiv1 dot_S6400x128_S128x1_S6400x1_1_0_0_1_n_n 128 rfl rfl).symm k) = ix2 r k := funext fun a => Fin.ext (by
    match a with
    | ⟨0, _⟩ => exact lhsB_0 _ _
    | ⟨1, _⟩ => exact (lhsB_1 _ _).trans hk)
  have er : dot_S6400x128_S128x1_S6400x1_1_0_0_1_n_n.rhsIdx (ix2 r q) ((ValueIdx.contrEquiv1 dot_S6400x128_S128x1_S6400x1_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The two column halves of the product -/

/-- Columns 0 … 127 of a [6400, 256] array. -/
theorem sliceLo_apply (v : FVec Ideal S6400x256 .f32) (r : Fin 6400) (j : Fin 128) :
    extractStridedSlice S6400x128 ![0, 0] v slices_S6400x256_o0_0_S6400x128 (ix2 r j) = v (ix2 r ⟨j.val, by omega⟩) :=
  extractStridedSlice_apply _ v _ (ix2 r j) (ix2 r ⟨j.val, by omega⟩) fun a => by
    match a with
    | ⟨0, _⟩ => show r.val = 0 + r.val; omega
    | ⟨1, _⟩ => show j.val = 0 + j.val; omega

/-- Columns 128 … 255 of a [6400, 256] array. -/
theorem sliceHi_apply (v : FVec Ideal S6400x256 .f32) (r : Fin 6400) (j : Fin 128) :
    extractStridedSlice S6400x128 ![0, 128] v slices_S6400x256_o0_128_S6400x128 (ix2 r j) = v (ix2 r ⟨128 + j.val, by omega⟩) :=
  extractStridedSlice_apply _ v _ (ix2 r j) (ix2 r ⟨128 + j.val, by omega⟩) fun a => by
    match a with
    | ⟨0, _⟩ => show r.val = 0 + r.val; omega
    | ⟨1, _⟩ => show 128 + j.val = 128 + j.val; rfl

/-! ## The 0/1 membership matrix -/

/-- The membership matrix the body builds from the block's graph words: compare the lane number with the word, widen, convert. -/
abbrev memb (x1 : Vec Ideal S6400x1 .i32) : FVec Ideal S6400x512 .bf16 :=
  truncf .bf16 (sitofp (F := Ideal) .f32 (extui 32 (cmpi .eq (iota .tc S6400x512 32 [1] iota_S6400x512_d1_w32)
    (broadcastTo S6400x512 x1 broadcasts_S6400x1_S6400x512)) natLt_1_32)) bitsLt_bf16_f32

/-- Its entry at (r, g) is 1 when row r's word is g, else 0. -/
theorem memb_apply (x1 : Vec Ideal S6400x1 .i32) (r : Fin 6400) (g : Fin 512) :
    memb x1 (ix2 r g) = if x1 (ix2 r 0) = BitVec.ofNat 32 g.val then (1 : EReal) else 0 := by
  show FloatOps.sitofp (F := Ideal) .f32 ((IntOp.cmpi .eq (iota .tc S6400x512 32 [1] iota_S6400x512_d1_w32 (ix2 r g))
    (broadcastTo S6400x512 x1 broadcasts_S6400x1_S6400x512 (ix2 r g))).setWidth 32) = _
  rw [iota_single_apply, broadcastTo_apply x1 _ (ix2 r g) (ix2 r 0) (fun a => by
    match a with
    | ⟨0, _⟩ => show r.val = if (6400 : Nat) = 1 then 0 else r.val; rw [if_neg (by decide)]
    | ⟨1, _⟩ => show (0 : Nat) = if (1 : Nat) = 1 then 0 else g.val; rw [if_pos rfl])]
  show ((((IntOp.cmpi .eq (BitVec.ofNat 32 g.val) (x1 (ix2 r 0))).setWidth 32).toInt : ℝ) : EReal) = _
  by_cases h : x1 (ix2 r 0) = BitVec.ofNat 32 g.val
  · rw [if_pos h, h]
    have : IntOp.cmpi .eq (BitVec.ofNat 32 g.val) (BitVec.ofNat 32 g.val) = 1#1 := by
      show BitVec.ofBool (BitVec.ofNat 32 g.val == BitVec.ofNat 32 g.val) = 1#1
      rw [beq_self_eq_true]; rfl
    rw [this]
    have : ((1#1 : BitVec 1).setWidth 32).toInt = 1 := by decide
    rw [this]; simp
  · rw [if_neg h]
    have : IntOp.cmpi .eq (BitVec.ofNat 32 g.val) (x1 (ix2 r 0)) = 0#1 := by
      have h' : BitVec.ofNat 32 g.val ≠ x1 (ix2 r 0) := fun e => h e.symm
      show BitVec.ofBool (BitVec.ofNat 32 g.val == x1 (ix2 r 0)) = 0#1
      rw [beq_eq_false_iff_ne.mpr h']; rfl
    rw [this]
    have : ((0#1 : BitVec 1).setWidth 32).toInt = 0 := by decide
    rw [this]; simp

/-! ## The body's payload at a row -/

/-- Row r of the product of the block's membership matrix with the table, at column q. -/
def rowG (x1 : Vec Ideal S6400x1 .i32) (x2 : Vec Ideal S512x256 .bf16) (r : Fin 6400) (q : Fin 256) : EReal :=
  ∑ g : Fin 512, (if x1 (ix2 r 0) = BitVec.ofNat 32 g.val then (1 : EReal) else 0) * x2 (ix2 g q)

/-- What the body stores at row r of its output block, from the five blocks it loads. -/
theorem pay_apply (x0 : Vec Ideal S6400x128 .bf16) (x1 : Vec Ideal S6400x1 .i32) (x2 : Vec Ideal S512x256 .bf16)
    (x3 : Vec Ideal S128x1 .bf16) (x4 : Vec Ideal S1x1 .f32) (r : Fin 6400) :
    k2_pay1 (F := Ideal) x0 x1 x2 x3 x4 (ix2 r 0)
      = (∑ j : Fin 128, max (x0 (ix2 r j) * rowG x1 x2 r ⟨j.val, by omega⟩ + rowG x1 x2 r ⟨128 + j.val, by omega⟩) 0
          * x3 (ix2 j 0)) + x4 (ix2 0 0) := by
  unfold k2_pay1
  simp only [shapeCast_self]
  rw [addf_apply, mmB_apply]
  congr 1
  · refine Finset.sum_congr rfl fun j _ => ?_
    rw [truncf_apply, maximumf_apply, addf_apply, mulf_apply, extf_apply, sliceLo_apply, sliceHi_apply, mmA_apply, mmA_apply,
      broadcast_apply]
    have hm : ∀ q : Fin 256, (∑ g : Fin 512, memb x1 (ix2 r g) * x2 (ix2 g q)) = rowG x1 x2 r q := fun q =>
      Finset.sum_congr rfl fun g _ => by rw [memb_apply]
    show max (x0 (ix2 r j) * (∑ g : Fin 512, memb x1 (ix2 r g) * x2 (ix2 g ⟨j.val, _⟩))
      + (∑ g : Fin 512, memb x1 (ix2 r g) * x2 (ix2 g ⟨128 + j.val, _⟩))) (Ideal.ofBits .f32 0x00000000#32) * x3 (ix2 j 0) = _
    rw [hm, hm, Ideal.ofBits_zero_f32]
  · exact broadcastTo_apply x4 _ (ix2 r 0) (ix2 0 0) (fun a => by
      match a with
      | ⟨0, _⟩ => show (0 : Nat) = if (1 : Nat) = 1 then 0 else r.val; rw [if_pos rfl]
      | ⟨1, _⟩ => show (0 : Nat) = if (1 : Nat) = 1 then 0 else 0; rw [if_pos rfl])

/-! ## From the blocks to the arrays -/

theorem zeroOff : (![0, 0] : Fin 2 → Nat) = fun _ => 0 := funext fun a => by fin_cases a <;> rfl

/-- Where each window's block sits at grid point t: the three row-blocked windows at block (t, 0), the three whole ones at (0, 0). -/
theorem blockAt : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The edge in row r of grid point t's block. -/
def rowAt (t : Fin cfg2.N) (r : Fin 6400) : Fin 1600000 :=
  ⟨t.val * 6400 + r.val, by have h : t.val < 250 := lt_of_lt_of_eq t.isLt N_2; omega⟩

/-- The features' block at point t is rows 6400·t … of the array. -/
theorem blk0_apply (c : Dev nD) (t : Fin cfg2.N) (r : Fin 6400) (j : Fin 128) :
    (iblk2 (F := Ideal) V c 0 t : Vec Ideal S6400x128 .bf16) (ix2 r j) = hA V c (ix2 (rowAt t r) j) := by
  obtain ⟨e0, e1, -⟩ := blockAt t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 6400 + 1 * r.val = t.val * 6400 + r.val; rw [e0]; omega
  | ⟨1, _⟩ => show win2_0.index t (1 : Fin 2) * 128 + 1 * j.val = j.val; rw [e1]; omega

/-- The graph words' block at point t is rows 6400·t … of the array. -/
theorem blk1_apply (c : Dev nD) (t : Fin cfg2.N) (r : Fin 6400) :
    (iblk2 (F := Ideal) V c 1 t : Vec Ideal S6400x1 .i32) (ix2 r 0) = segA V c (ix2 (rowAt t r) 0) := by
  obtain ⟨-, -, e0, e1, -⟩ := blockAt t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 6400 + 1 * r.val = t.val * 6400 + r.val; rw [e0]; omega
  | ⟨1, _⟩ => show win2_1.index t (1 : Fin 2) * 1 + 1 * 0 = 0; rw [e1]

/-- The table's block is the whole table at every point. -/
theorem blk2_eq (c : Dev nD) (t : Fin cfg2.N) :
    (iblk2 (F := Ideal) V c 2 t : Vec Ideal S512x256 .bf16) = tableA V c := by
  obtain ⟨-, -, -, -, e0, e1, -⟩ := blockAt t
  funext y
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 512 + 1 * (y 0).val = (y 0).val; rw [e0]; omega
  | ⟨1, _⟩ => show win2_2.index t (1 : Fin 2) * 256 + 1 * (y 1).val = (y 1).val; rw [e1]; omega

/-- The second layer's weights' block is the whole column at every point. -/
theorem blk3_eq (c : Dev nD) (t : Fin cfg2.N) :
    (iblk2 (F := Ideal) V c 3 t : Vec Ideal S128x1 .bf16) = w2A V c := by
  obtain ⟨-, -, -, -, -, -, e0, e1, -⟩ := blockAt t
  funext y
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 1 + 1 * (y 1).val = (y 1).val; rw [e1]; omega

/-- The bias's block is the one entry at every point. -/
theorem blk4_eq (c : Dev nD) (t : Fin cfg2.N) :
    (iblk2 (F := Ideal) V c 4 t : Vec Ideal S1x1 .f32) = b2A V c := by
  obtain ⟨-, -, -, -, -, -, -, -, e0, e1, -⟩ := blockAt t
  funext y
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 1 + 1 * (y 1).val = (y 1).val; rw [e1]; omega

/-- The whole output array as one function of the five input arrays. -/
abbrev outArr (c : Dev nD) : Vec Ideal S1600000x1 .f32 := fun i =>
  Cert.EdgeNorm.outK (hA V c) (segA V c) (tableA V c) (w2A V c) (b2A V c) (i 0)

/-- Row r of the block's membership × table product is the arrays' row at that edge. -/
theorem rowG_eq (c : Dev nD) (t : Fin cfg2.N) (r : Fin 6400) (q : Fin 256) :
    rowG (iblk2 (F := Ideal) V c 1 t) (iblk2 (F := Ideal) V c 2 t) r q
      = Cert.EdgeNorm.gat (segA V c) (tableA V c) (rowAt t r) q := by
  unfold rowG Cert.EdgeNorm.gat Cert.EdgeNorm.hot
  rw [blk1_apply, blk2_eq]

/-- Row r of what point t's body stores is the specification's value at edge 6400·t + r. -/
theorem blockRow (c : Dev nD) (t : Fin cfg2.N) (r : Fin 6400) :
    k2_pay1 (F := Ideal) (iblk2 V c 0 t) (iblk2 V c 1 t) (iblk2 V c 2 t) (iblk2 V c 3 t) (iblk2 V c 4 t) (ix2 r 0)
      = Cert.EdgeNorm.outK (hA V c) (segA V c) (tableA V c) (w2A V c) (b2A V c) (rowAt t r) := by
  rw [pay_apply]
  unfold Cert.EdgeNorm.outK
  rw [blk4_eq, blk3_eq]
  refine congrArg (fun s : EReal => s + b2A V c (ix2 0 0)) (Finset.sum_congr rfl fun j _ => ?_)
  rw [blk0_apply, rowG_eq, rowG_eq]

/-- What grid point t writes back is block t of the whole-array function. -/
theorem flushed_eq (c : Dev nD) (t : Fin cfg2.N) :
    (dat2 (F := Ideal) V c).flushed 5 t = ((cfg2.win 5).blk t).view.read (Elt Ideal) (outArr V c) := by
  show (cfg2.win 5).cut (grid2.coords t) ((dat2 V c).after 5 t) = _
  rw [after2_5]
  unfold out2_5
  rw [View.canon_unit_zero zeroOff]
  simp only [View.ld_unit_zero (S := S6400x128) zeroOff, View.ld_unit_zero (S := S6400x1) zeroOff,
    View.ld_unit_zero (S := S512x256) zeroOff, View.ld_unit_zero (S := S128x1) zeroOff, View.ld_unit_zero (S := S1x1) zeroOff]
  funext y
  revert y
  show ∀ y : S6400x1.Idx, k2_pay1 (F := Ideal) (iblk2 V c 0 t) (iblk2 V c 1 t) (iblk2 V c 2 t) (iblk2 V c 3 t) (iblk2 V c 4 t) y
      = outArr V c (((View.whole main_v75).slice (win2_5.rect t)).emb y)
  intro y
  obtain ⟨r, q, rfl⟩ : ∃ (r : Fin 6400) (q : Fin 1), y = ix2 r q := ⟨y 0, y 1, eq_ix2 y⟩
  obtain rfl : q = 0 := Subsingleton.elim _ _
  obtain ⟨-, -, -, -, -, -, -, -, -, -, e0, e1⟩ := blockAt t
  have hr : ((View.whole main_v75).slice (win2_5.rect t)).emb (ix2 r 0) = ix2 (rowAt t r) 0 := funext fun a => Fin.ext (by
    match a with
    | ⟨0, _⟩ => show win2_5.index t (0 : Fin 2) * 6400 + 1 * r.val = t.val * 6400 + r.val; rw [e0]; omega
    | ⟨1, _⟩ => show win2_5.index t (1 : Fin 2) * 1 + 1 * 0 = 0; rw [e1])
  rw [hr]
  exact blockRow V c t r

/-- The array region 2 leaves, entry by entry. -/
theorem value (c : Dev nD) (e : Fin 1600000) :
    resOut V c (ix2 e 0) = Cert.EdgeNorm.outK (hA V c) (segA V c) (tableA V c) (w2A V c) (b2A V c) e := by
  have hN : cfg2.N = 250 := N_2
  have h : resOut V c = outArr V c :=
    (dat2 (F := Ideal) V c).arrAt_eq_of_cover 5 (outArr V c) (fun t _ => flushed_eq V c t) fun i => by
      have hi0 : (i 0 : Nat) < 1600000 := (i 0).isLt
      have hi1 : (i 1 : Nat) < 1 := (i 1).isLt
      obtain ⟨t, ht⟩ : ∃ t : Fin cfg2.N, t.val = (i 0 : Nat) / 6400 := ⟨⟨(i 0 : Nat) / 6400, by rw [hN]; omega⟩, rfl⟩
      obtain ⟨-, -, -, -, -, -, -, -, -, -, e0, e1⟩ := blockAt t
      refine ⟨t, flush2_5 t, ?_⟩
      show i ∈ ((View.whole main_v75).slice (win2_5.rect t)).set
      rw [View.set_slice_whole, Rect.mem_set_unit]
      intro a
      match a with
      | ⟨0, _⟩ =>
        show win2_5.index t (0 : Fin 2) * 6400 ≤ (i 0 : Nat) ∧ (i 0 : Nat) < win2_5.index t (0 : Fin 2) * 6400 + 6400
        rw [e0, ht]; omega
      | ⟨1, _⟩ =>
        show win2_5.index t (1 : Fin 2) * 1 ≤ (i 1 : Nat) ∧ (i 1 : Nat) < win2_5.index t (1 : Fin 2) * 1 + 1
        rw [e1]; omega
  rw [h]

end Cert.KernelIdeal.Region2

end
-- ==== Proof.Domain.lean ====
/-
  The domain the claim is stated on, and the moment form of the normalisation.

  Every float argument holds real numbers, every node index lies in 0 … 99999 and every graph number in 0 … 511.  On that
  domain an index word names itself: col e, row e are the two nodes of edge e and sg e the graph of col e.

  The moment form: with n, μ as in the plain program and E₂ g j = (Σ_{sg e = g} (x e j)²) / n g, put
  v' g j = max (E₂ g j − μ g j² (2 c j − c j²)) 0, scale g j = w j · (1 / √(v' g j + ε)) and shift g j = b j − μ g j · c j · scale g j.
-/
import proofs.«412857_j18983755448605_4_alg».proof.Proof.Spec

noncomputable section

namespace Cert.EdgeNorm

open Idealize.ShloMosaic Idealize.ShloMosaic.ValueIdx

/-- Every entry of the array is a real number. -/
def FiniteArr {s : Shape} (f : s.Idx → EReal) : Prop := ∀ i, ∃ r : ℝ, f i = (r : EReal)

/-- Every node index is a node and every graph number a graph. -/
def InRange (ei : (⟨2, ![2, 1600000]⟩ : Shape).Idx → BitVec 32) (batch : (⟨1, ![100000]⟩ : Shape).Idx → BitVec 32) : Prop :=
  (∀ (a : Fin 2) (e : Fin 1600000), 0 ≤ (ei (ix2 a e)).toInt ∧ (ei (ix2 a e)).toInt < 100000) ∧
  (∀ n : Fin 100000, 0 ≤ (batch (ix1 n)).toInt ∧ (batch (ix1 n)).toInt < 512)

/-- The first node of edge e. -/
def colOf (ei : (⟨2, ![2, 1600000]⟩ : Shape).Idx → BitVec 32) (e : Fin 1600000) : Fin 100000 := nodeOf (ei (ix2 0 e))
/-- The second node of edge e. -/
def rowOf (ei : (⟨2, ![2, 1600000]⟩ : Shape).Idx → BitVec 32) (e : Fin 1600000) : Fin 100000 := nodeOf (ei (ix2 1 e))
/-- The graph of edge e: the graph of its first node. -/
def sgOf (ei : (⟨2, ![2, 1600000]⟩ : Shape).Idx → BitVec 32) (batch : (⟨1, ![100000]⟩ : Shape).Idx → BitVec 32)
    (e : Fin 1600000) : Fin 512 := graphOf (batch (ix1 (colOf ei e)))

/-- In range, the node a word names has the word's value. -/
theorem nodeOf_val (z : BitVec 32) (h0 : 0 ≤ z.toInt) (h1 : z.toInt < 100000) : ((nodeOf z).val : ℤ) = z.toInt := by
  unfold nodeOf Cert.LibRowOps.clampRow
  simp only
  omega

/-- In range, the graph a word names has the word's value. -/
theorem graphOf_val (z : BitVec 32) (h0 : 0 ≤ z.toInt) (h1 : z.toInt < 512) : ((graphOf z).val : ℤ) = z.toInt := by
  unfold graphOf Cert.LibRowOps.clampRow
  simp only
  omega

/-- In range, a graph word is the 32-bit numeral of the graph it names. -/
theorem word_eq_ofNat_graphOf (z : BitVec 32) (h0 : 0 ≤ z.toInt) (h1 : z.toInt < 512) :
    z = BitVec.ofNat 32 (graphOf z).val := by
  have hv := graphOf_val z h0 h1
  have hnat : z.toNat = (graphOf z).val := by
    have h := BitVec.toInt_eq_toNat_cond z
    have hz := z.isLt
    split_ifs at h <;> omega
  rw [← hnat]
  exact (BitVec.ofNat_toNat 32 z).symm

/-- x² entry by entry. -/
def sqR (x : Fin 1600000 → Fin 128 → EReal) : Fin 1600000 → Fin 128 → EReal := fun e j => x e j * x e j

/-- The variance by moments, cut at 0. -/
def varM (x : Fin 1600000 → Fin 128 → EReal) (sg : Fin 1600000 → Fin 512) (c : (⟨1, ![128]⟩ : Shape).Idx → EReal)
    (g : Fin 512) (j : Fin 128) : EReal :=
  max (Ideal.div (sumR (sqR x) sg g j) (cntR sg g)
        - meanR x sg g j * meanR x sg g j * (2 * c (ix1 j) - c (ix1 j) * c (ix1 j))) 0

/-- scale g j = w j · (1 / √(v' + ε)). -/
def scaleM (x : Fin 1600000 → Fin 128 → EReal) (sg : Fin 1600000 → Fin 512) (c w : (⟨1, ![128]⟩ : Shape).Idx → EReal)
    (g : Fin 512) (j : Fin 128) : EReal :=
  w (ix1 j) * Ideal.div 1 (Ideal.sqrt (varM x sg c g j + epsv))

/-- shift g j = b j − μ g j · c j · scale g j. -/
def shiftM (x : Fin 1600000 → Fin 128 → EReal) (sg : Fin 1600000 → Fin 512) (c w b : (⟨1, ![128]⟩ : Shape).Idx → EReal)
    (g : Fin 512) (j : Fin 128) : EReal :=
  b (ix1 j) - meanR x sg g j * c (ix1 j) * scaleM x sg c w g j

end Cert.EdgeNorm

end
-- ==== Proof.HostA.lean ====
/-
  The host operations before region 0, read at an index.  With every index in range the three clamps and the three
  negative-index wrap-arounds are the identity, so: the two gathered halves hold the embedding rows of the edge's two nodes, the
  graph column holds the graph word of the edge's first node, the two weight blocks are rows 0 … 63 and 64 … 127 of W1, and the bias
  row is b1.
-/
import proofs.«412857_j18983755448605_4_alg».proof.Proof.Gen.KernelIdeal.Frame
import proofs.«412857_j18983755448605_4_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«412857_j18983755448605_4_alg».proof.Proof.Domain
import Idealize.ShloMosaic.Lib.StableHlo.Run
set_option maxRecDepth 16384

noncomputable section

namespace Cert.KernelIdeal.HostA

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.EdgeNorm

variable (m : (ℓ : Loc nD τ sig) → Buf (Elt Ideal) ℓ) (ρ : Dev nD → PrngReg)

/-- The argument arrays at launch, at their literal types. -/
abbrev embM (c : Dev nD) : Vec Ideal S100000x64 .f32 := m ((c : Thread nD τ).loc main_arg0)
abbrev w1M (c : Dev nD) : Vec Ideal S128x128 .f32 := m ((c : Thread nD τ).loc main_arg1)
abbrev b1M (c : Dev nD) : Vec Ideal S128 .f32 := m ((c : Thread nD τ).loc main_arg2)
abbrev gwM (c : Dev nD) : Vec Ideal S128 .f32 := m ((c : Thread nD τ).loc main_arg3)
abbrev gbM (c : Dev nD) : Vec Ideal S128 .f32 := m ((c : Thread nD τ).loc main_arg4)
abbrev gcM (c : Dev nD) : Vec Ideal S128 .f32 := m ((c : Thread nD τ).loc main_arg5)
abbrev w2M (c : Dev nD) : Vec Ideal S128x1 .f32 := m ((c : Thread nD τ).loc main_arg6)
abbrev b2M (c : Dev nD) : Vec Ideal S1 .f32 := m ((c : Thread nD τ).loc main_arg7)
abbrev eiM (c : Dev nD) : Vec Ideal S2x1600000 .i32 := m ((c : Thread nD τ).loc main_arg8)
abbrev batchM (c : Dev nD) : Vec Ideal S100000 .i32 := m ((c : Thread nD τ).loc main_arg9)

/-- The buffers region 0 and the later regions read, as region 0 finds them. -/
abbrev ecV (c : Dev nD) : Vec Ideal S1600000x64 .f32 := V7 m ρ c main_v12
abbrev erV (c : Dev nD) : Vec Ideal S1600000x64 .f32 := V7 m ρ c main_v19
abbrev segV (c : Dev nD) : Vec Ideal S1600000x1 .i32 := V7 m ρ c main_v28
abbrev wtV (c : Dev nD) : Vec Ideal S64x128 .bf16 := V7 m ρ c main_v30
abbrev wbV (c : Dev nD) : Vec Ideal S64x128 .bf16 := V7 m ρ c main_v32
abbrev biasV (c : Dev nD) : Vec Ideal S1x128 .f32 := V7 m ρ c main_v33

/-! ## The seven stretches of host operations, each read at the buffers it writes, over any earlier contents -/

section Stretches

variable (V : Valuation τ sig (Elt Ideal))

/-- The clamp of an index vector between two scalar words: min hi (max lo x). -/
def clipV (lo hi : IVec S_ 32) (x : IVec S1600000 32) : IVec S1600000 32 :=
  minsi (broadcastInDim S1600000 ![] bcast_S_S1600000 hi) (maxsi (broadcastInDim S1600000 ![] bcast_S_S1600000 lo) x)

/-- The wrap-around of a negative index: x + 100000 where x < 0, else x. -/
def wrapV (x : IVec S1600000 32) : IVec S1600000 32 :=
  select (cmpi .slt x (broadcastInDim S1600000 ![] bcast_S_S1600000 (constantI S_ 32 0#32)))
    (addi x (broadcastInDim S1600000 ![] bcast_S_S1600000 (constantI S_ 32 100000#32))) x

/-- An index vector as a one-column table of start indices. -/
def colV (x : IVec S1600000 32) : IVec S1600000x1 32 :=
  broadcastInDim S1600000x1 ![0] bcast_S1600000_S1600000x1_0 x

/-- Row a of the edge-index array as a vector. -/
def rowV0 (ei : IVec S2x1600000 32) : IVec S1600000 32 :=
  shapeCast S1600000 (extractStridedSlice S1x1600000 ![0, 0] ei slices_S2x1600000_S1x1600000_0_0) shapeCasts_S1x1600000_S1600000
def rowV1 (ei : IVec S2x1600000 32) : IVec S1600000 32 :=
  shapeCast S1600000 (extractStridedSlice S1x1600000 ![1, 0] ei slices_S2x1600000_S1x1600000_1_0) shapeCasts_S1x1600000_S1600000

theorem s0_v1 : (StableHlo.after (hostOps0 (F := Ideal)) V (Proc.devRef .tc main_v1) : IVec S1600000 32)
    = rowV0 (V (Proc.devRef .tc main_arg8)) := by
  simp only [hostOps0]; after_results; rfl
theorem s0_c : (StableHlo.after (hostOps0 (F := Ideal)) V (Proc.devRef .tc main_c) : IVec S_ 32) = constantI S_ 32 0#32 := by
  simp only [hostOps0]; after_results
theorem s0_c0 : (StableHlo.after (hostOps0 (F := Ideal)) V (Proc.devRef .tc main_c_0) : IVec S_ 32) = constantI S_ 32 99999#32 := by
  simp only [hostOps0]; after_results

theorem s1_v2 : (StableHlo.after (hostOps0_1 (F := Ideal)) V (Proc.devRef .tc main_v2) : IVec S1600000 32)
    = clipV (V (Proc.devRef .tc main_c)) (V (Proc.devRef .tc main_c_0)) (V (Proc.devRef .tc main_v1)) := by
  simp only [hostOps0_1]; after_results; rfl

theorem s2_v4 : (StableHlo.after (hostOps0_2 (F := Ideal)) V (Proc.devRef .tc main_v4) : IVec S1600000 32)
    = rowV1 (V (Proc.devRef .tc main_arg8)) := by
  simp only [hostOps0_2]; after_results; rfl
theorem s2_c1 : (StableHlo.after (hostOps0_2 (F := Ideal)) V (Proc.devRef .tc main_c_1) : IVec S_ 32) = constantI S_ 32 0#32 := by
  simp only [hostOps0_2]; after_results
theorem s2_c2 : (StableHlo.after (hostOps0_2 (F := Ideal)) V (Proc.devRef .tc main_c_2) : IVec S_ 32) = constantI S_ 32 99999#32 := by
  simp only [hostOps0_2]; after_results

theorem s3_v5 : (StableHlo.after (hostOps0_3 (F := Ideal)) V (Proc.devRef .tc main_v5) : IVec S1600000 32)
    = clipV (V (Proc.devRef .tc main_c_1)) (V (Proc.devRef .tc main_c_2)) (V (Proc.devRef .tc main_v4)) := by
  simp only [hostOps0_3]; after_results; rfl

theorem s4_v12 : (StableHlo.after (hostOps0_4 (F := Ideal)) V (Proc.devRef .tc main_v12) : Vec Ideal S1600000x64 .f32)
    = Host.gather gather_S100000x64_S1600000x1_S1600000x64_1_0_n_n_0_1_164 (V (Proc.devRef .tc main_arg0) : Vec Ideal S100000x64 .f32)
        (colV (wrapV (V (Proc.devRef .tc main_v2)))) := by
  simp only [hostOps0_4]; after_results_simp; rfl
theorem s4_v19 : (StableHlo.after (hostOps0_4 (F := Ideal)) V (Proc.devRef .tc main_v19) : Vec Ideal S1600000x64 .f32)
    = Host.gather gather_S100000x64_S1600000x1_S1600000x64_1_0_n_n_0_1_164 (V (Proc.devRef .tc main_arg0) : Vec Ideal S100000x64 .f32)
        (colV (wrapV (V (Proc.devRef .tc main_v5)))) := by
  simp only [hostOps0_4]; after_results_simp; rfl
theorem s4_v26 : (StableHlo.after (hostOps0_4 (F := Ideal)) V (Proc.devRef .tc main_v26) : IVec S1600000 32)
    = Host.gather gather_S100000_S1600000x1_S1600000_n_0_n_n_0_1_1 (V (Proc.devRef .tc main_arg9) : IVec S100000 32)
        (colV (wrapV (V (Proc.devRef .tc main_v2)))) := by
  simp only [hostOps0_4]; after_results_simp; rfl
theorem s4_c9 : (StableHlo.after (hostOps0_4 (F := Ideal)) V (Proc.devRef .tc main_c_9) : IVec S_ 32) = constantI S_ 32 0#32 := by
  simp only [hostOps0_4]; after_results_simp
theorem s4_c10 : (StableHlo.after (hostOps0_4 (F := Ideal)) V (Proc.devRef .tc main_c_10) : IVec S_ 32) = constantI S_ 32 511#32 := by
  simp only [hostOps0_4]; after_results_simp

theorem s5_v27 : (StableHlo.after (hostOps0_5 (F := Ideal)) V (Proc.devRef .tc main_v27) : IVec S1600000 32)
    = clipV (V (Proc.devRef .tc main_c_9)) (V (Proc.devRef .tc main_c_10)) (V (Proc.devRef .tc main_v26)) := by
  simp only [hostOps0_5]; after_results; rfl

theorem s6_v28 : (StableHlo.after (hostOps0_6 (F := Ideal)) V (Proc.devRef .tc main_v28) : IVec S1600000x1 32)
    = shapeCast S1600000x1 (V (Proc.devRef .tc main_v27) : IVec S1600000 32) shapeCasts_S1600000_S1600000x1 := by
  simp only [hostOps0_6]; after_results; rfl
theorem s6_v30 : (StableHlo.after (hostOps0_6 (F := Ideal)) V (Proc.devRef .tc main_v30) : Vec Ideal S64x128 .bf16)
    = truncf (F := Ideal) .bf16 (extractStridedSlice S64x128 ![0, 0] (V (Proc.devRef .tc main_arg1) : Vec Ideal S128x128 .f32) slices_S128x128_S64x128_0_0) bitsLt_bf16_f32 := by
  simp only [hostOps0_6]; after_results
theorem s6_v32 : (StableHlo.after (hostOps0_6 (F := Ideal)) V (Proc.devRef .tc main_v32) : Vec Ideal S64x128 .bf16)
    = truncf (F := Ideal) .bf16 (extractStridedSlice S64x128 ![64, 0] (V (Proc.devRef .tc main_arg1) : Vec Ideal S128x128 .f32) slices_S128x128_S64x128_64_0) bitsLt_bf16_f32 := by
  simp only [hostOps0_6]; after_results
theorem s6_v33 : (StableHlo.after (hostOps0_6 (F := Ideal)) V (Proc.devRef .tc main_v33) : Vec Ideal S1x128 .f32)
    = shapeCast S1x128 (V (Proc.devRef .tc main_arg2) : Vec Ideal S128 .f32) shapeCasts_S128_S1x128 := by
  simp only [hostOps0_6]; after_results; rfl

end Stretches

/-! ## Words in range: the clamp and the wrap-around are the identity -/

theorem clip_word (lo hi w : BitVec 32) (h0 : lo.toInt ≤ w.toInt) (h1 : w.toInt ≤ hi.toInt) :
    IntOp.minsi hi (IntOp.maxsi lo w) = w := by
  have e1 : IntOp.maxsi lo w = w := by
    unfold IntOp.maxsi
    rw [if_neg]
    simp only [BitVec.slt, decide_eq_true_eq]; omega
  rw [e1]
  unfold IntOp.minsi
  rw [if_neg]
  simp only [BitVec.slt, decide_eq_true_eq]; omega

theorem wrap_word (w : BitVec 32) (h0 : 0 ≤ w.toInt) :
    Scalar.select (IntOp.cmpi .slt w 0#32) (IntOp.addi w 100000#32) w = w := by
  have hs : w.slt 0#32 = false := by
    simp only [BitVec.slt, BitVec.toInt_zero, decide_eq_false_iff_not]; omega
  have e : IntOp.cmpi .slt w 0#32 = 0#1 := by
    unfold IntOp.cmpi
    simp only [hs]; rfl
  rw [e]; exact select_zero _ _

/-! ## The pieces read at an index -/

theorem clipV_apply (lo hi : BitVec 32) (x : IVec S1600000 32) (j : S1600000.Idx)
    (h0 : lo.toInt ≤ (x j).toInt) (h1 : (x j).toInt ≤ hi.toInt) :
    clipV (constantI S_ 32 lo) (constantI S_ 32 hi) x j = x j :=
  clip_word lo hi (x j) h0 h1

theorem wrapV_apply (x : IVec S1600000 32) (j : S1600000.Idx) (h0 : 0 ≤ (x j).toInt) : wrapV x j = x j :=
  wrap_word (x j) h0

theorem colV_apply (x : IVec S1600000 32) (e : Fin 1600000) : colV x (ix2 e 0) = x (ix1 e) := by
  unfold colV
  refine broadcastInDim_apply _ _ _ _ _ (fun a => ?_)
  match a with
  | ⟨0, _⟩ => rfl

theorem rowV0_apply (ei : IVec S2x1600000 32) (e : Fin 1600000) : rowV0 ei (ix1 e) = ei (ix2 0 e) := by
  unfold rowV0
  rw [shapeCast_1a_a_apply]
  exact slice2_axis0_apply 0 ei _ 0 e 0 rfl

theorem rowV1_apply (ei : IVec S2x1600000 32) (e : Fin 1600000) : rowV1 ei (ix1 e) = ei (ix2 1 e) := by
  unfold rowV1
  rw [shapeCast_1a_a_apply]
  exact slice2_axis0_apply 1 ei _ 0 e 1 rfl

/-- E entries gathered out of a vector of length N: entry e of the result is the vector's entry at the clamped
    signed index. -/
theorem gather_vec_apply {α : Type} {N E w : Nat} (hN : 0 < N) (d : GatherDims ⟨1, ![N]⟩ ⟨2, ![E, 1]⟩ ⟨1, ![E]⟩)
    (ho : d.offsetDims = []) (hc : d.collapsedSliceDims = [0]) (hb : d.operandBatchingDims = [])
    (hsb : d.startIndicesBatchingDims = []) (hm : d.startIndexMap = [0]) (hv : d.indexVectorDim = 1)
    (hsz : d.sliceSizes = ![1])
    (x : (⟨1, ![N]⟩ : Shape).Idx → α) (idx : IVec ⟨2, ![E, 1]⟩ w) (e : Fin E) :
    Host.gather d x idx (ix1 e) = x (ix1 (Cert.LibRowOps.clampRow N hN (idx (ix2 e 0)).toInt)) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix1 e) idx a + GatherDims.batchCoord _ (ix1 e) a + GatherDims.offCoord _ (ix1 e) a = _
  rw [GatherDims.batchCoord_eq_zero _ _ _ List.not_mem_nil, Nat.add_zero]
  revert a
  rw [Fin.forall_fin_one]
  rw [GatherDims.offCoord_eq_zero _ _ _ (fun h => ((GatherDims.mem_sKept _ _).mp h).1 (List.mem_singleton.mpr rfl)),
    Nat.add_zero]
  unfold GatherDims.start
  rw [dif_pos (List.mem_singleton.mpr rfl)]
  have hsi : ∀ c, GatherDims.siIdx (s := ⟨1, ![N]⟩) (si := ⟨2, ![E, 1]⟩) (t := ⟨1, ![E]⟩)
      ⟨[], [0], [], [], [0], 1, ![1], wf⟩ (ix1 e) c = ix2 e 0 := by
    intro c
    funext b; refine Fin.ext ?_
    match b with
    | ⟨0, _⟩ => rfl
    | ⟨1, _⟩ => exact Nat.lt_one_iff.mp c.isLt
  rw [hsi]
  show min (idx (ix2 e 0)).toInt.toNat (N - 1) = (min (max (idx (ix2 e 0)).toInt 0) ((N - 1 : Nat) : Int)).toNat
  omega

/-! ## The buffers as region 0 finds them, as terms over the launch arrays -/

section Levels

/-- A buffer that no operation of a stretch writes holds after the stretch what it held before. -/
local macro "keep_through " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- The clamped first-node column and second-node column of the edge-index array. -/
abbrev colC (c : Dev nD) : IVec S1600000 32 :=
  clipV (constantI S_ 32 0#32) (constantI S_ 32 99999#32) (rowV0 (eiM m c))
abbrev rowC (c : Dev nD) : IVec S1600000 32 :=
  clipV (constantI S_ 32 0#32) (constantI S_ 32 99999#32) (rowV1 (eiM m c))

theorem W1_c (c : Dev nD) : (W1 m ρ c (Proc.devRef .tc main_c) : IVec S_ 32) = constantI S_ 32 0#32 := s0_c _
theorem W1_c0 (c : Dev nD) : (W1 m ρ c (Proc.devRef .tc main_c_0) : IVec S_ 32) = constantI S_ 32 99999#32 := s0_c0 _
theorem W1_v1 (c : Dev nD) : (W1 m ρ c (Proc.devRef .tc main_v1) : IVec S1600000 32) = rowV0 (eiM m c) := s0_v1 _

theorem W2_arg8 (c : Dev nD) : (W2 m ρ c (Proc.devRef .tc main_arg8) : IVec S2x1600000 32) = eiM m c :=
  calc W2 m ρ c (Proc.devRef .tc main_arg8)
    _ = W1 m ρ c (Proc.devRef .tc main_arg8) := by keep_through hostOps0_1
    _ = W0 m ρ c (Proc.devRef .tc main_arg8) := by keep_through hostOps0
    _ = eiM m c := rfl

theorem W2_v2 (c : Dev nD) : (W2 m ρ c (Proc.devRef .tc main_v2) : IVec S1600000 32) = colC m c :=
  calc W2 m ρ c (Proc.devRef .tc main_v2)
    _ = clipV (W1 m ρ c (Proc.devRef .tc main_c)) (W1 m ρ c (Proc.devRef .tc main_c_0)) (W1 m ρ c (Proc.devRef .tc main_v1)) := s1_v2 _
    _ = colC m c := by rw [W1_c, W1_c0, W1_v1]

theorem W3_c1 (c : Dev nD) : (W3 m ρ c (Proc.devRef .tc main_c_1) : IVec S_ 32) = constantI S_ 32 0#32 := s2_c1 _
theorem W3_c2 (c : Dev nD) : (W3 m ρ c (Proc.devRef .tc main_c_2) : IVec S_ 32) = constantI S_ 32 99999#32 := s2_c2 _
theorem W3_v4 (c : Dev nD) : (W3 m ρ c (Proc.devRef .tc main_v4) : IVec S1600000 32) = rowV1 (eiM m c) :=
  calc W3 m ρ c (Proc.devRef .tc main_v4)
    _ = rowV1 (W2 m ρ c (Proc.devRef .tc main_arg8)) := s2_v4 _
    _ = rowV1 (eiM m c) := by rw [W2_arg8]

theorem W4_v2 (c : Dev nD) : (W4 m ρ c (Proc.devRef .tc main_v2) : IVec S1600000 32) = colC m c :=
  calc W4 m ρ c (Proc.devRef .tc main_v2)
    _ = W3 m ρ c (Proc.devRef .tc main_v2) := by keep_through hostOps0_3
    _ = W2 m ρ c (Proc.devRef .tc main_v2) := by keep_through hostOps0_2
    _ = colC m c := W2_v2 m ρ c

theorem W4_v5 (c : Dev nD) : (W4 m ρ c (Proc.devRef .tc main_v5) : IVec S1600000 32) = rowC m c :=
  calc W4 m ρ c (Proc.devRef .tc main_v5)
    _ = clipV (W3 m ρ c (Proc.devRef .tc main_c_1)) (W3 m ρ c (Proc.devRef .tc main_c_2)) (W3 m ρ c (Proc.devRef .tc main_v4)) := s3_v5 _
    _ = rowC m c := by rw [W3_c1, W3_c2, W3_v4]

theorem W4_arg0 (c : Dev nD) : (W4 m ρ c (Proc.devRef .tc main_arg0) : Vec Ideal S100000x64 .f32) = embM m c :=
  calc W4 m ρ c (Proc.devRef .tc main_arg0)
    _ = W3 m ρ c (Proc.devRef .tc main_arg0) := by keep_through hostOps0_3
    _ = W2 m ρ c (Proc.devRef .tc main_arg0) := by keep_through hostOps0_2
    _ = W1 m ρ c (Proc.devRef .tc main_arg0) := by keep_through hostOps0_1
    _ = W0 m ρ c (Proc.devRef .tc main_arg0) := by keep_through hostOps0
    _ = embM m c := rfl

theorem W4_arg9 (c : Dev nD) : (W4 m ρ c (Proc.devRef .tc main_arg9) : IVec S100000 32) = batchM m c :=
  calc W4 m ρ c (Proc.devRef .tc main_arg9)
    _ = W3 m ρ c (Proc.devRef .tc main_arg9) := by keep_through hostOps0_3
    _ = W2 m ρ c (Proc.devRef .tc main_arg9) := by keep_through hostOps0_2
    _ = W1 m ρ c (Proc.devRef .tc main_arg9) := by keep_through hostOps0_1
    _ = W0 m ρ c (Proc.devRef .tc main_arg9) := by keep_through hostOps0
    _ = batchM m c := rfl

theorem W7_v12 (c : Dev nD) : (W7 m ρ c (Proc.devRef .tc main_v12) : Vec Ideal S1600000x64 .f32)
    = Host.gather gather_S100000x64_S1600000x1_S1600000x64_1_0_n_n_0_1_164 (embM m c) (colV (wrapV (colC m c))) :=
  calc W7 m ρ c (Proc.devRef .tc main_v12)
    _ = W6 m ρ c (Proc.devRef .tc main_v12) := by keep_through hostOps0_6
    _ = W5 m ρ c (Proc.devRef .tc main_v12) := by keep_through hostOps0_5
    _ = Host.gather gather_S100000x64_S1600000x1_S1600000x64_1_0_n_n_0_1_164
          (W4 m ρ c (Proc.devRef .tc main_arg0) : Vec Ideal S100000x64 .f32) (colV (wrapV (W4 m ρ c (Proc.devRef .tc main_v2)))) := s4_v12 _
    _ = _ := by rw [W4_arg0, W4_v2]

theorem W7_v19 (c : Dev nD) : (W7 m ρ c (Proc.devRef .tc main_v19) : Vec Ideal S1600000x64 .f32)
    = Host.gather gather_S100000x64_S1600000x1_S1600000x64_1_0_n_n_0_1_164 (embM m c) (colV (wrapV (rowC m c))) :=
  calc W7 m ρ c (Proc.devRef .tc main_v19)
    _ = W6 m ρ c (Proc.devRef .tc main_v19) := by keep_through hostOps0_6
    _ = W5 m ρ c (Proc.devRef .tc main_v19) := by keep_through hostOps0_5
    _ = Host.gather gather_S100000x64_S1600000x1_S1600000x64_1_0_n_n_0_1_164
          (W4 m ρ c (Proc.devRef .tc main_arg0) : Vec Ideal S100000x64 .f32) (colV (wrapV (W4 m ρ c (Proc.devRef .tc main_v5)))) := s4_v19 _
    _ = _ := by rw [W4_arg0, W4_v5]

theorem W5_c9 (c : Dev nD) : (W5 m ρ c (Proc.devRef .tc main_c_9) : IVec S_ 32) = constantI S_ 32 0#32 := s4_c9 _
theorem W5_c10 (c : Dev nD) : (W5 m ρ c (Proc.devRef .tc main_c_10) : IVec S_ 32) = constantI S_ 32 511#32 := s4_c10 _
theorem W5_v26 (c : Dev nD) : (W5 m ρ c (Proc.devRef .tc main_v26) : IVec S1600000 32)
    = Host.gather gather_S100000_S1600000x1_S1600000_n_0_n_n_0_1_1 (batchM m c) (colV (wrapV (colC m c))) :=
  calc W5 m ρ c (Proc.devRef .tc main_v26)
    _ = Host.gather gather_S100000_S1600000x1_S1600000_n_0_n_n_0_1_1
          (W4 m ρ c (Proc.devRef .tc main_arg9) : IVec S100000 32) (colV (wrapV (W4 m ρ c (Proc.devRef .tc main_v2)))) := s4_v26 _
    _ = _ := by rw [W4_arg9, W4_v2]

theorem W7_v28 (c : Dev nD) : (W7 m ρ c (Proc.devRef .tc main_v28) : IVec S1600000x1 32)
    = shapeCast S1600000x1 (clipV (constantI S_ 32 0#32) (constantI S_ 32 511#32)
        (Host.gather gather_S100000_S1600000x1_S1600000_n_0_n_n_0_1_1 (batchM m c) (colV (wrapV (colC m c)))))
        shapeCasts_S1600000_S1600000x1 :=
  calc W7 m ρ c (Proc.devRef .tc main_v28)
    _ = shapeCast S1600000x1 (W6 m ρ c (Proc.devRef .tc main_v27) : IVec S1600000 32) shapeCasts_S1600000_S1600000x1 := s6_v28 _
    _ = shapeCast S1600000x1 (clipV (W5 m ρ c (Proc.devRef .tc main_c_9)) (W5 m ρ c (Proc.devRef .tc main_c_10))
          (W5 m ρ c (Proc.devRef .tc main_v26))) shapeCasts_S1600000_S1600000x1 := by
        rw [show (W6 m ρ c (Proc.devRef .tc main_v27) : IVec S1600000 32) = _ from s5_v27 _]
    _ = _ := by rw [W5_c9, W5_c10, W5_v26]

theorem W6_arg1 (c : Dev nD) : (W6 m ρ c (Proc.devRef .tc main_arg1) : Vec Ideal S128x128 .f32) = w1M m c :=
  calc W6 m ρ c (Proc.devRef .tc main_arg1)
    _ = W5 m ρ c (Proc.devRef .tc main_arg1) := by keep_through hostOps0_5
    _ = W4 m ρ c (Proc.devRef .tc main_arg1) := by keep_through hostOps0_4
    _ = W3 m ρ c (Proc.devRef .tc main_arg1) := by keep_through hostOps0_3
    _ = W2 m ρ c (Proc.devRef .tc main_arg1) := by keep_through hostOps0_2
    _ = W1 m ρ c (Proc.devRef .tc main_arg1) := by keep_through hostOps0_1
    _ = W0 m ρ c (Proc.devRef .tc main_arg1) := by keep_through hostOps0
    _ = w1M m c := rfl

theorem W6_arg2 (c : Dev nD) : (W6 m ρ c (Proc.devRef .tc main_arg2) : Vec Ideal S128 .f32) = b1M m c :=
  calc W6 m ρ c (Proc.devRef .tc main_arg2)
    _ = W5 m ρ c (Proc.devRef .tc main_arg2) := by keep_through hostOps0_5
    _ = W4 m ρ c (Proc.devRef .tc main_arg2) := by keep_through hostOps0_4
    _ = W3 m ρ c (Proc.devRef .tc main_arg2) := by keep_through hostOps0_3
    _ = W2 m ρ c (Proc.devRef .tc main_arg2) := by keep_through hostOps0_2
    _ = W1 m ρ c (Proc.devRef .tc main_arg2) := by keep_through hostOps0_1
    _ = W0 m ρ c (Proc.devRef .tc main_arg2) := by keep_through hostOps0
    _ = b1M m c := rfl

theorem W7_v30 (c : Dev nD) : (W7 m ρ c (Proc.devRef .tc main_v30) : Vec Ideal S64x128 .bf16)
    = truncf (F := Ideal) .bf16 (extractStridedSlice S64x128 ![0, 0] (w1M m c) slices_S128x128_S64x128_0_0) bitsLt_bf16_f32 :=
  calc W7 m ρ c (Proc.devRef .tc main_v30)
    _ = truncf (F := Ideal) .bf16 (extractStridedSlice S64x128 ![0, 0] (W6 m ρ c (Proc.devRef .tc main_arg1) : Vec Ideal S128x128 .f32) slices_S128x128_S64x128_0_0) bitsLt_bf16_f32 := s6_v30 _
    _ = _ := by rw [W6_arg1]

theorem W7_v32 (c : Dev nD) : (W7 m ρ c (Proc.devRef .tc main_v32) : Vec Ideal S64x128 .bf16)
    = truncf (F := Ideal) .bf16 (extractStridedSlice S64x128 ![64, 0] (w1M m c) slices_S128x128_S64x128_64_0) bitsLt_bf16_f32 :=
  calc W7 m ρ c (Proc.devRef .tc main_v32)
    _ = truncf (F := Ideal) .bf16 (extractStridedSlice S64x128 ![64, 0] (W6 m ρ c (Proc.devRef .tc main_arg1) : Vec Ideal S128x128 .f32) slices_S128x128_S64x128_64_0) bitsLt_bf16_f32 := s6_v32 _
    _ = _ := by rw [W6_arg1]

theorem W7_v33 (c : Dev nD) : (W7 m ρ c (Proc.devRef .tc main_v33) : Vec Ideal S1x128 .f32)
    = shapeCast S1x128 (b1M m c) shapeCasts_S128_S1x128 :=
  calc W7 m ρ c (Proc.devRef .tc main_v33)
    _ = shapeCast S1x128 (W6 m ρ c (Proc.devRef .tc main_arg2) : Vec Ideal S128 .f32) shapeCasts_S128_S1x128 := s6_v33 _
    _ = _ := by rw [W6_arg2]

end Levels

/-! ## The six reads -/

/-- In range, the start-index column built from row 0 of the edge-index array holds the index words themselves. -/
theorem idx_col (ei : IVec S2x1600000 32) (e : Fin 1600000) (h0 : 0 ≤ (ei (ix2 0 e)).toInt)
    (h1 : (ei (ix2 0 e)).toInt < 100000) :
    colV (wrapV (clipV (constantI S_ 32 0#32) (constantI S_ 32 99999#32) (rowV0 ei))) (ix2 e 0) = ei (ix2 0 e) := by
  have hrow := rowV0_apply ei e
  have e0 : (0#32 : BitVec 32).toInt = 0 := by decide
  have e9 : (99999#32 : BitVec 32).toInt = 99999 := by decide
  have hclip : clipV (constantI S_ 32 0#32) (constantI S_ 32 99999#32) (rowV0 ei) (ix1 e) = ei (ix2 0 e) := by
    rw [clipV_apply 0#32 99999#32 (rowV0 ei) (ix1 e) (by rw [hrow, e0]; exact h0) (by rw [hrow, e9]; omega)]
    exact hrow
  have hwrap : wrapV (clipV (constantI S_ 32 0#32) (constantI S_ 32 99999#32) (rowV0 ei)) (ix1 e) = ei (ix2 0 e) := by
    rw [wrapV_apply _ _ (by rw [hclip]; exact h0)]
    exact hclip
  rw [colV_apply]
  exact hwrap

/-- The same for row 1. -/
theorem idx_row (ei : IVec S2x1600000 32) (e : Fin 1600000) (h0 : 0 ≤ (ei (ix2 1 e)).toInt)
    (h1 : (ei (ix2 1 e)).toInt < 100000) :
    colV (wrapV (clipV (constantI S_ 32 0#32) (constantI S_ 32 99999#32) (rowV1 ei))) (ix2 e 0) = ei (ix2 1 e) := by
  have hrow := rowV1_apply ei e
  have e0 : (0#32 : BitVec 32).toInt = 0 := by decide
  have e9 : (99999#32 : BitVec 32).toInt = 99999 := by decide
  have hclip : clipV (constantI S_ 32 0#32) (constantI S_ 32 99999#32) (rowV1 ei) (ix1 e) = ei (ix2 1 e) := by
    rw [clipV_apply 0#32 99999#32 (rowV1 ei) (ix1 e) (by rw [hrow, e0]; exact h0) (by rw [hrow, e9]; omega)]
    exact hrow
  have hwrap : wrapV (clipV (constantI S_ 32 0#32) (constantI S_ 32 99999#32) (rowV1 ei)) (ix1 e) = ei (ix2 1 e) := by
    rw [wrapV_apply _ _ (by rw [hclip]; exact h0)]
    exact hclip
  rw [colV_apply]
  exact hwrap

theorem ec_eq (c : Dev nD) (hr : InRange (eiM m c) (batchM m c)) (e : Fin 1600000) (k : Fin 64) :
    ecV m ρ c (ix2 e k) = embM m c (ix2 (colOf (eiM m c) e) k) := by
  have hc := hr.1 0 e
  show (W7 m ρ c (Proc.devRef .tc main_v12) : Vec Ideal S1600000x64 .f32) (ix2 e k) = _
  rw [W7_v12, Cert.LibRowOps.gather_rows_apply (by decide : 0 < 100000) _ rfl rfl rfl rfl rfl rfl rfl,
    idx_col (eiM m c) e hc.1 hc.2]
  rfl

theorem er_eq (c : Dev nD) (hr : InRange (eiM m c) (batchM m c)) (e : Fin 1600000) (k : Fin 64) :
    erV m ρ c (ix2 e k) = embM m c (ix2 (rowOf (eiM m c) e) k) := by
  have hc := hr.1 1 e
  show (W7 m ρ c (Proc.devRef .tc main_v19) : Vec Ideal S1600000x64 .f32) (ix2 e k) = _
  rw [W7_v19, Cert.LibRowOps.gather_rows_apply (by decide : 0 < 100000) _ rfl rfl rfl rfl rfl rfl rfl,
    idx_row (eiM m c) e hc.1 hc.2]
  rfl

theorem seg_eq (c : Dev nD) (hr : InRange (eiM m c) (batchM m c)) (e : Fin 1600000) :
    segV m ρ c (ix2 e 0) = batchM m c (ix1 (colOf (eiM m c) e)) := by
  have hc := hr.1 0 e
  have hb := hr.2 (colOf (eiM m c) e)
  have hg : Host.gather gather_S100000_S1600000x1_S1600000_n_0_n_n_0_1_1 (batchM m c) (colV (wrapV (colC m c))) (ix1 e)
      = batchM m c (ix1 (colOf (eiM m c) e)) := by
    rw [gather_vec_apply (by decide : 0 < 100000) _ rfl rfl rfl rfl rfl rfl rfl, idx_col (eiM m c) e hc.1 hc.2]
    rfl
  have e0 : (0#32 : BitVec 32).toInt = 0 := by decide
  have e5 : (511#32 : BitVec 32).toInt = 511 := by decide
  show (W7 m ρ c (Proc.devRef .tc main_v28) : IVec S1600000x1 32) (ix2 e 0) = _
  rw [W7_v28, shapeCast_apply _ _ (ix2 e 0) (ix1 e) (by
    rw [Shape.rowMajor_val_two, Shape.rowMajor_val_one]
    show e.val = e.val * 1 + 0
    omega)]
  rw [clipV_apply 0#32 511#32 _ (ix1 e) (by rw [hg, e0]; exact hb.1) (by rw [hg, e5]; omega)]
  exact hg

theorem wt_eq (c : Dev nD) (k : Fin 64) (j : Fin 128) :
    wtV m ρ c (ix2 k j) = w1M m c (ix2 (⟨k.val, by omega⟩ : Fin 128) j) := by
  show (W7 m ρ c (Proc.devRef .tc main_v30) : Vec Ideal S64x128 .bf16) (ix2 k j) = _
  rw [W7_v30, truncf_apply]
  exact slice2_axis0_apply 0 (w1M m c) _ k j ⟨k.val, by omega⟩ (Nat.zero_add _).symm

theorem wb_eq (c : Dev nD) (k : Fin 64) (j : Fin 128) :
    wbV m ρ c (ix2 k j) = w1M m c (ix2 (⟨64 + k.val, by omega⟩ : Fin 128) j) := by
  show (W7 m ρ c (Proc.devRef .tc main_v32) : Vec Ideal S64x128 .bf16) (ix2 k j) = _
  rw [W7_v32, truncf_apply]
  exact slice2_axis0_apply 64 (w1M m c) _ k j ⟨64 + k.val, by omega⟩ rfl

theorem bias_eq (c : Dev nD) (j : Fin 128) : biasV m ρ c (ix2 0 j) = b1M m c (ix1 j) := by
  show (W7 m ρ c (Proc.devRef .tc main_v33) : Vec Ideal S1x128 .f32) (ix2 0 j) = _
  rw [W7_v33]
  exact shapeCast_a_1a_apply (b1M m c) _ 0 j

end Cert.KernelIdeal.HostA

end
-- ==== Proof.HostB.lean ====
/-
  The host operations between region 1 and region 2, read at an index: the tiles' sums are added up, and from the totals the
  [scale | shift] table is tabulated (Cert.EdgeNorm.tableK); the second layer's weights and bias are the arguments' own.
-/
import proofs.«412857_j18983755448605_4_alg».proof.Proof.Gen.KernelIdeal.Frame
import proofs.«412857_j18983755448605_4_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«412857_j18983755448605_4_alg».proof.Proof.Domain
import Idealize.ShloMosaic.Lib.StableHlo.Run
import Idealize.ShloMosaic.Lib.IdealHost
set_option maxRecDepth 16384

noncomputable section

namespace Cert.KernelIdeal.HostB

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.EdgeNorm

variable (m : (ℓ : Loc nD τ sig) → Buf (Elt Ideal) ℓ) (ρ : Dev nD → PrngReg)

/-- The per-tile sums as region 1 leaves them, and the three buffers the host writes for region 2. -/
abbrev statV (c : Dev nD) : Vec Ideal S250x512x384 .f32 := V9 m ρ c main_v35
abbrev tableV (c : Dev nD) : Vec Ideal S512x256 .bf16 := V10 m ρ c main_v72
abbrev w2V (c : Dev nD) : Vec Ideal S128x1 .bf16 := V10 m ρ c main_v73
abbrev b2V (c : Dev nD) : Vec Ideal S1x1 .f32 := V10 m ρ c main_v74

/-- The normalisation's three parameter vectors and the second layer's weights and bias, at launch. -/
abbrev gwM (c : Dev nD) : Vec Ideal S128 .f32 := m ((c : Thread nD τ).loc main_arg3)
abbrev gbM (c : Dev nD) : Vec Ideal S128 .f32 := m ((c : Thread nD τ).loc main_arg4)
abbrev gcM (c : Dev nD) : Vec Ideal S128 .f32 := m ((c : Thread nD τ).loc main_arg5)
abbrev w2M (c : Dev nD) : Vec Ideal S128x1 .f32 := m ((c : Thread nD τ).loc main_arg6)
abbrev b2M (c : Dev nD) : Vec Ideal S1 .f32 := m ((c : Thread nD τ).loc main_arg7)

/-! ## The host's arrays, named one by one (the operations in the program's own order) -/

section Arrays
variable (s : FVec Ideal S250x512x384 .f32) (gc gw gb : FVec Ideal S128 .f32)

/-- The tiles' sums added up over the tile axis: one [512, 384] array of totals. -/
def totA : FVec Ideal S512x384 .f32 :=
  Host.reduceAdd s (constant (F := Ideal) S_ .f32 0x00000000#32) reducesTo_S250x512x384_S512x384_d0 h_S_

/-- Columns 0 … 127 of the totals: Σ x. -/
def sumA : FVec Ideal S512x128 .f32 := extractStridedSlice S512x128 ![0, 0] (totA s) slices_S512x384_S512x128_0_0

/-- Columns 128 … 255 of the totals: Σ x². -/
def sqA : FVec Ideal S512x128 .f32 := extractStridedSlice S512x128 ![0, 128] (totA s) slices_S512x384_S512x128_0_128

/-- Column 256 of the totals, raised to at least 1: the count. -/
def cntA : FVec Ideal S512x1 .f32 :=
  maximumf (extractStridedSlice S512x1 ![0, 256] (totA s) slices_S512x384_S512x1_0_256)
    (broadcastInDim S512x1 ![] bcast_S_S512x1 (constant (F := Ideal) S_ .f32 0x3F800000#32))

/-- The count spread over the 128 columns. -/
def cntB : FVec Ideal S512x128 .f32 := broadcastInDim S512x128 ![0, 1] bcast_S512x1_S512x128_0_1 (cntA s)

/-- The mean of x. -/
def meanA : FVec Ideal S512x128 .f32 := Host.divf (sumA s) (cntB s)

/-- The mean of x². -/
def msqA : FVec Ideal S512x128 .f32 := Host.divf (sqA s) (cntB s)

/-- A vector of 128 parameters as one row. -/
def cRow : FVec Ideal S1x128 .f32 := broadcastInDim S1x128 ![1] bcast_S128_S1x128_1 gc

/-- 2c − c², one row. -/
def facA : FVec Ideal S1x128 .f32 :=
  subf (mulf (broadcastInDim S1x128 ![] bcast_S_S1x128 (constant (F := Ideal) S_ .f32 0x40000000#32)) (cRow gc))
    (mulf (cRow gc) (cRow gc))

/-- The variance by moments, cut at 0. -/
def varA : FVec Ideal S512x128 .f32 :=
  maximumf
    (subf (msqA s) (mulf (mulf (meanA s) (meanA s)) (broadcastInDim S512x128 ![0, 1] bcast_S1x128_S512x128_0_1 (facA gc))))
    (broadcastInDim S512x128 ![] bcast_S_S512x128 (constant (F := Ideal) S_ .f32 0x00000000#32))

/-- 1 / √(var + ε). -/
def rstdA : FVec Ideal S512x128 .f32 :=
  Host.divf (broadcastInDim S512x128 ![] bcast_S_S512x128 (constant (F := Ideal) S_ .f32 0x3F800000#32))
    (Host.sqrt (addf (varA s gc)
      (broadcastInDim S512x128 ![] bcast_S_S512x128 (constant (F := Ideal) S_ .f32 0x3727C5AC#32))))

/-- scale = w · (1 / √(var + ε)). -/
def scaleA : FVec Ideal S512x128 .f32 :=
  mulf (broadcastInDim S512x128 ![0, 1] bcast_S1x128_S512x128_0_1 (cRow gw))
    (rstdA s gc)

/-- shift = b − μ · c · scale. -/
def shiftA : FVec Ideal S512x128 .f32 :=
  subf (broadcastInDim S512x128 ![0, 1] bcast_S1x128_S512x128_0_1 (cRow gb))
    (mulf (mulf (meanA s) (broadcastInDim S512x128 ![0, 1] bcast_S1x128_S512x128_0_1 (cRow gc))) (scaleA s gc gw))

/-- The table [scale | shift], in the narrower float format (the same numbers at the ideal values). -/
def tableA : FVec Ideal S512x256 .bf16 :=
  truncf .bf16 (concatenate S512x256 1 [⟨S512x128, scaleA s gc gw⟩, ⟨S512x128, shiftA s gc gw gb⟩]
    concatenates_S512x128_S512x128_S512x256_d1) bitsLt_bf16_f32

end Arrays

/-! ## Each array read at an index -/

section Reads
variable (s : FVec Ideal S250x512x384 .f32) (gc gw gb : FVec Ideal S128 .f32)

/-- The f32 pattern 0x40000000 is the extended real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- The shape fact of the sum over the tile axis, in the form that names the inserted coordinate. -/
theorem redTiles : S250x512x384.Reduces [0] S512x384 := by decide

/-- The totals are the spec's comb: the initial value is zero, and the reduced index (g, q) with tile t inserted is (t, g, q). -/
theorem totA_apply (g : Fin 512) (q : Fin 384) : totA s (ix2 g q) = comb s g q := by
  unfold totA comb
  rw [hostReduceAdd_apply, Ideal.hostReduceAdd_single reducesTo_S250x512x384_S512x384_d0 redTiles, constant_apply,
    Ideal.ofBits_zero_f32, zero_add]
  refine Finset.sum_congr rfl fun t _ => congrArg s (funext fun a => ?_)
  match a with
  | ⟨0, _⟩ => exact Fin.ext rfl
  | ⟨1, _⟩ => exact Fin.ext rfl
  | ⟨2, _⟩ => exact Fin.ext rfl

theorem sumA_apply (g : Fin 512) (j : Fin 128) : sumA s (ix2 g j) = comb s g ⟨j.val, by omega⟩ := by
  unfold sumA
  exact (slice2_axis1_apply 0 (totA s) slices_S512x384_S512x128_0_0 g j ⟨j.val, by omega⟩ (Nat.zero_add _).symm).trans
    (totA_apply s g _)

theorem sqA_apply (g : Fin 512) (j : Fin 128) : sqA s (ix2 g j) = comb s g ⟨128 + j.val, by omega⟩ := by
  unfold sqA
  exact (slice2_axis1_apply 128 (totA s) slices_S512x384_S512x128_0_128 g j ⟨128 + j.val, by omega⟩ rfl).trans
    (totA_apply s g _)

theorem cntA_apply (g : Fin 512) : cntA s (ix2 g 0) = cntK s g := by
  unfold cntA cntK
  rw [maximumf_apply, broadcastInDim_scalar_apply, constant_apply, Ideal.ofBits_one_f32]
  exact congrArg (fun z => max z (1 : EReal))
    ((slice2_axis1_apply 256 (totA s) slices_S512x384_S512x1_0_256 g 0 ⟨256, by decide⟩ rfl).trans (totA_apply s g _))

/-- One column spread over the 128 columns. -/
theorem cols_apply (x : FVec Ideal S512x1 .f32) (g : Fin 512) (j : Fin 128) :
    broadcastInDim S512x128 ![0, 1] bcast_S512x1_S512x128_0_1 x (ix2 g j) = x (ix2 g 0) := by
  refine broadcastInDim_apply ![0, 1] bcast_S512x1_S512x128_0_1 x (ix2 g j) (ix2 g 0) fun a => ?_
  match a with
  | ⟨0, _⟩ => rfl
  | ⟨1, _⟩ => rfl

theorem cntB_apply (g : Fin 512) (j : Fin 128) : cntB s (ix2 g j) = cntK s g := by
  unfold cntB
  rw [cols_apply, cntA_apply]

theorem meanA_apply (g : Fin 512) (j : Fin 128) : meanA s (ix2 g j) = meanK s g j := by
  unfold meanA meanK
  rw [hostDivf_apply, sumA_apply, cntB_apply]

theorem msqA_apply (g : Fin 512) (j : Fin 128) : msqA s (ix2 g j) = msqK s g j := by
  unfold msqA msqK
  rw [hostDivf_apply, sqA_apply, cntB_apply]

theorem cRow_apply (j : Fin 128) : cRow gc (ix2 0 j) = gc (ix1 j) := by
  unfold cRow
  refine broadcastInDim_apply ![1] bcast_S128_S1x128_1 gc (ix2 0 j) (ix1 j) fun a => ?_
  match a with
  | ⟨0, _⟩ => rfl

/-- One row spread over the 512 graphs. -/
theorem rows_apply (r : FVec Ideal S1x128 .f32) (g : Fin 512) (j : Fin 128) :
    broadcastInDim S512x128 ![0, 1] bcast_S1x128_S512x128_0_1 r (ix2 g j) = r (ix2 0 j) := by
  refine broadcastInDim_apply ![0, 1] bcast_S1x128_S512x128_0_1 r (ix2 g j) (ix2 0 j) fun a => ?_
  match a with
  | ⟨0, _⟩ => rfl
  | ⟨1, _⟩ => rfl

theorem facA_apply (j : Fin 128) : facA gc (ix2 0 j) = 2 * gc (ix1 j) - gc (ix1 j) * gc (ix1 j) := by
  unfold facA
  rw [subf_apply, mulf_apply, mulf_apply, broadcastInDim_scalar_apply, constant_apply, ofBits_two_f32, cRow_apply]

theorem varA_apply (g : Fin 512) (j : Fin 128) : varA s gc (ix2 g j) = varK s gc g j := by
  unfold varA varK
  rw [maximumf_apply, subf_apply, mulf_apply, mulf_apply, rows_apply, facA_apply, broadcastInDim_scalar_apply,
    constant_apply, Ideal.ofBits_zero_f32, msqA_apply, meanA_apply]

theorem hostSqrt_apply (a : FVec Ideal S512x128 .f32) (i : S512x128.Idx) : Host.sqrt a i = Ideal.sqrt (a i) := rfl

theorem rstdA_apply (g : Fin 512) (j : Fin 128) :
    rstdA s gc (ix2 g j) = Ideal.div 1 (Ideal.sqrt (varK s gc g j + epsv)) := by
  unfold rstdA epsv
  rw [hostDivf_apply, hostSqrt_apply, addf_apply, broadcastInDim_scalar_apply, constant_apply, Ideal.ofBits_one_f32,
    broadcastInDim_scalar_apply, constant_apply, varA_apply]

theorem scaleA_apply (g : Fin 512) (j : Fin 128) : scaleA s gc gw (ix2 g j) = scaleK s gc gw g j := by
  unfold scaleA scaleK
  rw [mulf_apply, rows_apply, cRow_apply, rstdA_apply]

theorem shiftA_apply (g : Fin 512) (j : Fin 128) : shiftA s gc gw gb (ix2 g j) = shiftK s gc gw gb g j := by
  unfold shiftA shiftK
  rw [subf_apply, mulf_apply, mulf_apply, rows_apply, rows_apply, cRow_apply, cRow_apply, meanA_apply, scaleA_apply]

/-- The table read at (g, q): the concatenation's two pieces are the spec's two cases. -/
theorem tableA_apply (g : Fin 512) (q : Fin 256) : tableA s gc gw gb (ix2 g q) = tableK s gc gw gb g q := by
  unfold tableA tableK
  rw [truncf_apply]
  by_cases hq : q.val < 128
  · rw [dif_pos hq]
    refine (concatenate_pair_apply_left (1 : Fin 2) (scaleA s gc gw) (shiftA s gc gw gb)
      concatenates_S512x128_S512x128_S512x256_d1 (ix2 g q) rfl (ix2 g ⟨q.val, hq⟩) fun b => ?_).trans
      (scaleA_apply s gc gw g _)
    match b with
    | ⟨0, _⟩ => rfl
    | ⟨1, _⟩ => rfl
  · rw [dif_neg hq]
    refine (concatenate_pair_apply_right (1 : Fin 2) (scaleA s gc gw) (shiftA s gc gw gb)
      concatenates_S512x128_S512x128_S512x256_d1 (ix2 g q) rfl rfl (ix2 g ⟨q.val - 128, by omega⟩) (fun b hb => ?_) ?_).trans
      (shiftA_apply s gc gw gb g _)
    · match b with
      | ⟨0, _⟩ => rfl
      | ⟨1, _⟩ => exact absurd rfl hb
    · show (q.val - 128) + 128 = q.val
      omega

end Reads

/-! ## The arguments as the host finds them after region 1: no earlier operation and no region writes one -/

/-- No operation of a stretch writes the buffer: the stretch leaves it as it was. -/
local macro "stretch_keeps" : tactic =>
  `(tactic| exact StableHlo.after_of_forall_not_mem _ _ (List.forall_iff_forall_mem.mp (by
      simp only [hostOps0, hostOps0_1, hostOps0_2, hostOps0_3, hostOps0_4, hostOps0_5, hostOps0_6,
        List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem W9_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := by stretch_keeps
    _ = W5 m ρ c (Proc.devRef .tc main_arg3) := by stretch_keeps
    _ = W4 m ρ c (Proc.devRef .tc main_arg3) := by stretch_keeps
    _ = W3 m ρ c (Proc.devRef .tc main_arg3) := by stretch_keeps
    _ = W2 m ρ c (Proc.devRef .tc main_arg3) := by stretch_keeps
    _ = W1 m ρ c (Proc.devRef .tc main_arg3) := by stretch_keeps
    _ = W0 m ρ c (Proc.devRef .tc main_arg3) := by stretch_keeps
    _ = m ((c : Thread nD τ).loc main_arg3) := rfl

theorem W9_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := by stretch_keeps
    _ = W5 m ρ c (Proc.devRef .tc main_arg4) := by stretch_keeps
    _ = W4 m ρ c (Proc.devRef .tc main_arg4) := by stretch_keeps
    _ = W3 m ρ c (Proc.devRef .tc main_arg4) := by stretch_keeps
    _ = W2 m ρ c (Proc.devRef .tc main_arg4) := by stretch_keeps
    _ = W1 m ρ c (Proc.devRef .tc main_arg4) := by stretch_keeps
    _ = W0 m ρ c (Proc.devRef .tc main_arg4) := by stretch_keeps
    _ = m ((c : Thread nD τ).loc main_arg4) := rfl

theorem W9_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := by stretch_keeps
    _ = W5 m ρ c (Proc.devRef .tc main_arg5) := by stretch_keeps
    _ = W4 m ρ c (Proc.devRef .tc main_arg5) := by stretch_keeps
    _ = W3 m ρ c (Proc.devRef .tc main_arg5) := by stretch_keeps
    _ = W2 m ρ c (Proc.devRef .tc main_arg5) := by stretch_keeps
    _ = W1 m ρ c (Proc.devRef .tc main_arg5) := by stretch_keeps
    _ = W0 m ρ c (Proc.devRef .tc main_arg5) := by stretch_keeps
    _ = m ((c : Thread nD τ).loc main_arg5) := rfl

theorem W9_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := by stretch_keeps
    _ = W5 m ρ c (Proc.devRef .tc main_arg6) := by stretch_keeps
    _ = W4 m ρ c (Proc.devRef .tc main_arg6) := by stretch_keeps
    _ = W3 m ρ c (Proc.devRef .tc main_arg6) := by stretch_keeps
    _ = W2 m ρ c (Proc.devRef .tc main_arg6) := by stretch_keeps
    _ = W1 m ρ c (Proc.devRef .tc main_arg6) := by stretch_keeps
    _ = W0 m ρ c (Proc.devRef .tc main_arg6) := by stretch_keeps
    _ = m ((c : Thread nD τ).loc main_arg6) := rfl

theorem W9_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := by stretch_keeps
    _ = W5 m ρ c (Proc.devRef .tc main_arg7) := by stretch_keeps
    _ = W4 m ρ c (Proc.devRef .tc main_arg7) := by stretch_keeps
    _ = W3 m ρ c (Proc.devRef .tc main_arg7) := by stretch_keeps
    _ = W2 m ρ c (Proc.devRef .tc main_arg7) := by stretch_keeps
    _ = W1 m ρ c (Proc.devRef .tc main_arg7) := by stretch_keeps
    _ = W0 m ρ c (Proc.devRef .tc main_arg7) := by stretch_keeps
    _ = m ((c : Thread nD τ).loc main_arg7) := rfl

/-! ## The three buffers as the host's operations leave them -/

set_option maxHeartbeats 4000000 in
/-- The table's buffer holds the named arrays' last one, over the buffers the host's operations read. -/
theorem table_run (c : Dev nD) :
    (V10 m ρ c main_v72 : Vec Ideal S512x256 .bf16)
      = tableA (W9 m ρ c (Proc.devRef .tc main_v35)) (W9 m ρ c (Proc.devRef .tc main_arg5))
          (W9 m ρ c (Proc.devRef .tc main_arg3)) (W9 m ρ c (Proc.devRef .tc main_arg4)) := by
  show StableHlo.after hostOps2 (W9 m ρ c) (Proc.devRef .tc main_v72) = _
  after_results_simp
  rfl

/-- The second layer's weights in the narrower float format: the same numbers at the ideal values. -/
def w2A (x : FVec Ideal S128x1 .f32) : FVec Ideal S128x1 .bf16 := truncf .bf16 x bitsLt_bf16_f32

theorem w2A_apply (x : FVec Ideal S128x1 .f32) (i : S128x1.Idx) : w2A x i = x i := rfl

set_option maxHeartbeats 4000000 in
theorem w2_run (c : Dev nD) :
    (V10 m ρ c main_v73 : Vec Ideal S128x1 .bf16) = w2A (W9 m ρ c (Proc.devRef .tc main_arg6)) := by
  show StableHlo.after hostOps2 (W9 m ρ c) (Proc.devRef .tc main_v73) = _
  after_results_simp
  rfl

set_option maxHeartbeats 4000000 in
theorem b2_run (c : Dev nD) :
    (V10 m ρ c main_v74 : Vec Ideal S1x1 .f32)
      = shapeCast S1x1 (W9 m ρ c (Proc.devRef .tc main_arg7) : FVec Ideal S1 .f32) shapeCasts_S1_S1x1 := by
  show StableHlo.after hostOps2 (W9 m ρ c) (Proc.devRef .tc main_v74) = _
  after_results_simp
  rfl

theorem table_term (c : Dev nD) :
    (V10 m ρ c main_v72 : Vec Ideal S512x256 .bf16) = tableA (statV m ρ c) (gcM m c) (gwM m c) (gbM m c) := by
  have e := table_run m ρ c
  rw [W9_arg5 m ρ c, W9_arg3 m ρ c, W9_arg4 m ρ c] at e
  exact e

theorem table_eq (c : Dev nD) (g : Fin 512) (q : Fin 256) :
    tableV m ρ c (ix2 g q) = tableK (statV m ρ c) (gcM m c) (gwM m c) (gbM m c) g q :=
  (congrFun (table_term m ρ c) (ix2 g q)).trans (tableA_apply (statV m ρ c) (gcM m c) (gwM m c) (gbM m c) g q)

theorem w2_eq (c : Dev nD) (j : Fin 128) : w2V m ρ c (ix2 j 0) = w2M m c (ix2 j 0) := by
  show (V10 m ρ c main_v73 : Vec Ideal S128x1 .bf16) (ix2 j 0) = _
  rw [w2_run m ρ c, w2A_apply, W9_arg6 m ρ c]

theorem b2_eq (c : Dev nD) : b2V m ρ c (ix2 0 0) = b2M m c (ix1 0) := by
  show (V10 m ρ c main_v74 : Vec Ideal S1x1 .f32) (ix2 0 0) = _
  rw [b2_run m ρ c, shapeCast_a_1a_apply, W9_arg7 m ρ c]

end Cert.KernelIdeal.HostB

end
-- ==== Proof.AlgSums.lean ====
/-
  Reindexing facts that hold on the extended reals as they stand (sums are only regrouped, and a 0/1 factor selects a term):
  a 128-term sum split into its two 64-term halves; a row of the 0/1 membership matrix times a table is the table's row of that
  graph; the tiles' sums added over the 250 tiles are the sums over all edges of each graph.
-/
import proofs.«412857_j18983755448605_4_alg».proof.Proof.Domain

noncomputable section

namespace Cert.EdgeNorm

open Idealize.ShloMosaic Idealize.ShloMosaic.ValueIdx

/-- The two half-products and the bias are the plain first layer. -/
theorem lin_eq_xR (emb : (⟨2, ![100000, 64]⟩ : Shape).Idx → EReal) (W1 : (⟨2, ![128, 128]⟩ : Shape).Idx → EReal)
    (b1 : (⟨1, ![128]⟩ : Shape).Idx → EReal) (col row : Fin 1600000 → Fin 100000)
    (ec er : (⟨2, ![1600000, 64]⟩ : Shape).Idx → EReal) (wt wb : (⟨2, ![64, 128]⟩ : Shape).Idx → EReal)
    (bb : (⟨2, ![1, 128]⟩ : Shape).Idx → EReal)
    (hec : ∀ e k, ec (ix2 e k) = emb (ix2 (col e) k)) (her : ∀ e k, er (ix2 e k) = emb (ix2 (row e) k))
    (hwt : ∀ (k : Fin 64) (j : Fin 128), wt (ix2 k j) = W1 (ix2 (⟨k.val, by omega⟩ : Fin 128) j))
    (hwb : ∀ (k : Fin 64) (j : Fin 128), wb (ix2 k j) = W1 (ix2 (⟨64 + k.val, by omega⟩ : Fin 128) j))
    (hbb : ∀ j : Fin 128, bb (ix2 0 j) = b1 (ix1 j)) (e : Fin 1600000) (j : Fin 128) :
    lin ec er wt wb bb e j = xR emb W1 b1 col row e j := by
  unfold lin xR
  rw [hbb]
  congr 1
  -- the 128-term sum, read over Fin (64 + 64), splits into its two halves
  have hsplit := Fin.sum_univ_add (M := EReal) (a := 64) (b := 64)
    (fun k => f12 emb col row e k * W1 (ix2 k j))
  refine Eq.trans ?_ hsplit.symm
  congr 1
  · refine Finset.sum_congr rfl (fun k _ => ?_)
    rw [hec, hwt]
    unfold f12
    rw [dif_pos (show (Fin.castAdd 64 k).val < 64 from k.isLt)]
    rfl
  · refine Finset.sum_congr rfl (fun k _ => ?_)
    rw [her, hwb]
    unfold f12
    have hk : ¬ (Fin.natAdd 64 k).val < 64 := by simp [Fin.natAdd]
    rw [dif_neg hk]
    have hidx : (⟨(Fin.natAdd 64 k).val - 64, by simp [Fin.natAdd]⟩ : Fin 64) = k := Fin.ext (by simp [Fin.natAdd])
    rw [hidx]
    rfl

/-- Two graph numbers below 512 with the same 32-bit numeral are equal. -/
theorem ofNat32_inj_lt {a b : Nat} (ha : a < 512) (hb : b < 512)
    (hab : BitVec.ofNat 32 a = BitVec.ofNat 32 b) : a = b := by
  have h := congrArg BitVec.toNat hab
  rw [BitVec.toNat_ofNat, BitVec.toNat_ofNat] at h
  omega

/-- The membership entry of the numeral of graph a is 1 at a and 0 elsewhere. -/
theorem hot_ofNat (a g : Fin 512) : hot (BitVec.ofNat 32 a.val) g = if a = g then 1 else 0 := by
  unfold hot
  by_cases hag : a = g
  · rw [if_pos hag, if_pos (by rw [hag])]
  · rw [if_neg hag, if_neg]
    intro heq
    exact hag (Fin.ext (ofNat32_inj_lt a.isLt g.isLt heq))

/-- A row of the membership matrix times the table is the table's row of the edge's graph. -/
theorem gat_eq (seg : (⟨2, ![1600000, 1]⟩ : Shape).Idx → BitVec 32) (sg : Fin 1600000 → Fin 512)
    (hseg : ∀ e, seg (ix2 e 0) = BitVec.ofNat 32 (sg e).val) (table : (⟨2, ![512, 256]⟩ : Shape).Idx → EReal)
    (e : Fin 1600000) (q : Fin 256) : gat seg table e q = table (ix2 (sg e) q) := by
  unfold gat
  rw [hseg, Finset.sum_eq_single (sg e)]
  · rw [hot_ofNat, if_pos rfl, one_mul]
  · intro g _ hne
    rw [hot_ofNat, if_neg (fun hh => hne hh.symm), zero_mul]
  · intro hne
    exact absurd (Finset.mem_univ _) hne

/-- Tile t, row r ↦ edge t · 6400 + r is a bijection of the 250 × 6400 pairs with the 1600000 edges
    (inverse: quotient and remainder by 6400). -/
def tileEquiv : Fin 250 × Fin 6400 ≃ Fin 1600000 where
  toFun p := edgeAt p.1 p.2
  invFun e := (⟨e.val / 6400, by omega⟩, ⟨e.val % 6400, by omega⟩)
  left_inv p := by
    rcases p with ⟨t, r⟩
    refine Prod.ext (Fin.ext ?_) (Fin.ext ?_)
    · show (t.val * 6400 + r.val) / 6400 = t.val
      omega
    · show (t.val * 6400 + r.val) % 6400 = r.val
      omega
  right_inv e := by
    refine Fin.ext ?_
    show e.val / 6400 * 6400 + e.val % 6400 = e.val
    omega

/-- A sum over all edges, taken tile by tile. -/
theorem sum_tiles (F : Fin 1600000 → EReal) :
    ∑ t : Fin 250, ∑ r : Fin 6400, F (edgeAt t r) = ∑ e : Fin 1600000, F e :=
  (Fintype.sum_prod_type' (fun t r => F (edgeAt t r))).symm.trans
    (Fintype.sum_equiv tileEquiv _ _ (fun _ => rfl))

/-- The tiles' sums added up are the sums over all the edges of a graph. -/
theorem comb_stat (h : (⟨2, ![1600000, 128]⟩ : Shape).Idx → EReal) (seg : (⟨2, ![1600000, 1]⟩ : Shape).Idx → BitVec 32)
    (sg : Fin 1600000 → Fin 512) (hseg : ∀ e, seg (ix2 e 0) = BitVec.ofNat 32 (sg e).val)
    (stats : (⟨3, ![250, 512, 384]⟩ : Shape).Idx → EReal) (hst : ∀ t g q, stats (ix3 t g q) = stat h seg t g q)
    (g : Fin 512) (q : Fin 384) :
    comb stats g q = ∑ e : Fin 1600000, if sg e = g then feat h e q else 0 := by
  unfold comb
  rw [← sum_tiles (fun e => if sg e = g then feat h e q else 0)]
  refine Finset.sum_congr rfl (fun t _ => ?_)
  rw [hst]
  unfold stat
  refine Finset.sum_congr rfl (fun r _ => ?_)
  rw [hseg, hot_ofNat]
  by_cases hg : sg (edgeAt t r) = g
  · rw [if_pos hg, if_pos hg, one_mul]
  · rw [if_neg hg, if_neg hg, zero_mul]

/-- Columns 0 … 127 of the row [x | x² | 1] hold x. -/
theorem feat_lo (h : (⟨2, ![1600000, 128]⟩ : Shape).Idx → EReal) (e : Fin 1600000) (j : Fin 128) :
    feat h e ⟨j.val, by omega⟩ = h (ix2 e j) := by
  unfold feat
  rw [dif_pos (show (⟨j.val, by omega⟩ : Fin 384).val < 128 from j.isLt)]

/-- Columns 128 … 255 of the row [x | x² | 1] hold x². -/
theorem feat_mid (h : (⟨2, ![1600000, 128]⟩ : Shape).Idx → EReal) (e : Fin 1600000) (j : Fin 128) :
    feat h e ⟨128 + j.val, by omega⟩ = h (ix2 e j) * h (ix2 e j) := by
  unfold feat
  have h1 : ¬ (⟨128 + j.val, by omega⟩ : Fin 384).val < 128 := by simp
  have h2 : (⟨128 + j.val, by omega⟩ : Fin 384).val < 256 := by simp; omega
  rw [dif_neg h1, dif_pos h2]
  have hidx : (⟨(⟨128 + j.val, by omega⟩ : Fin 384).val - 128, by show 128 + j.val - 128 < 128; omega⟩ : Fin 128) = j :=
    Fin.ext (by simp)
  rw [hidx]

/-- Column 256 of the row [x | x² | 1] holds 1. -/
theorem feat_hi (h : (⟨2, ![1600000, 128]⟩ : Shape).Idx → EReal) (e : Fin 1600000) :
    feat h e ⟨256, by decide⟩ = 1 := by
  unfold feat
  have h1 : ¬ (⟨256, by decide⟩ : Fin 384).val < 128 := by simp
  have h2 : ¬ (⟨256, by decide⟩ : Fin 384).val < 256 := by simp
  rw [dif_neg h1, dif_neg h2]

section Table

variable (x : Fin 1600000 → Fin 128 → EReal) (h : (⟨2, ![1600000, 128]⟩ : Shape).Idx → EReal)
  (hh : ∀ e j, h (ix2 e j) = x e j)
  (seg : (⟨2, ![1600000, 1]⟩ : Shape).Idx → BitVec 32) (sg : Fin 1600000 → Fin 512)
  (hseg : ∀ e, seg (ix2 e 0) = BitVec.ofNat 32 (sg e).val)
  (stats : (⟨3, ![250, 512, 384]⟩ : Shape).Idx → EReal) (hst : ∀ t g q, stats (ix3 t g q) = stat h seg t g q)
  (c w b : (⟨1, ![128]⟩ : Shape).Idx → EReal)

include hh hseg hst in
/-- Columns 0 … 127 of the totals: Σ x over the graph. -/
theorem comb_sum (g : Fin 512) (j : Fin 128) : comb stats g ⟨j.val, by omega⟩ = sumR x sg g j := by
  rw [comb_stat h seg sg hseg stats hst]
  unfold sumR
  refine Finset.sum_congr rfl (fun e _ => ?_)
  rw [feat_lo, hh]

include hh hseg hst in
/-- Columns 128 … 255 of the totals: Σ x² over the graph. -/
theorem comb_sq (g : Fin 512) (j : Fin 128) : comb stats g ⟨128 + j.val, by omega⟩ = sumR (sqR x) sg g j := by
  rw [comb_stat h seg sg hseg stats hst]
  unfold sumR sqR
  refine Finset.sum_congr rfl (fun e _ => ?_)
  rw [feat_mid, hh]

include hh hseg hst in
/-- Column 256 of the totals, cut below at 1: the graph's count. -/
theorem cntK_eq (g : Fin 512) : cntK stats g = cntR sg g := by
  unfold cntK cntR
  rw [comb_stat h seg sg hseg stats hst]
  simp only [feat_hi]

include hh hseg hst in
/-- The tiled mean is the graph's mean. -/
theorem meanK_eq (g : Fin 512) (j : Fin 128) : meanK stats g j = meanR x sg g j := by
  unfold meanK meanR
  rw [comb_sum x h hh seg sg hseg stats hst, cntK_eq x h hh seg sg hseg stats hst]

include hh hseg hst in
/-- The tiled mean of squares is Σ x² over the graph divided by its count. -/
theorem msqK_eq (g : Fin 512) (j : Fin 128) :
    msqK stats g j = Ideal.div (sumR (sqR x) sg g j) (cntR sg g) := by
  unfold msqK
  rw [comb_sq x h hh seg sg hseg stats hst, cntK_eq x h hh seg sg hseg stats hst]

include hh hseg hst in
/-- The tiled variance by moments is the moment form's. -/
theorem varK_eq (g : Fin 512) (j : Fin 128) : varK stats c g j = varM x sg c g j := by
  unfold varK varM
  rw [msqK_eq x h hh seg sg hseg stats hst, meanK_eq x h hh seg sg hseg stats hst]

include hh hseg hst in
/-- The tiled scale is the moment form's. -/
theorem scaleK_eq (g : Fin 512) (j : Fin 128) : scaleK stats c w g j = scaleM x sg c w g j := by
  unfold scaleK scaleM
  rw [varK_eq x h hh seg sg hseg stats hst]

include hh hseg hst in
/-- The tiled shift is the moment form's. -/
theorem shiftK_eq (g : Fin 512) (j : Fin 128) : shiftK stats c w b g j = shiftM x sg c w b g j := by
  unfold shiftK shiftM
  rw [meanK_eq x h hh seg sg hseg stats hst, scaleK_eq x h hh seg sg hseg stats hst]

include hh hseg hst in
/-- The table's first 128 columns are the moment-form scale. -/
theorem tableK_scale (g : Fin 512) (j : Fin 128) : tableK stats c w b g ⟨j.val, by omega⟩ = scaleM x sg c w g j := by
  unfold tableK
  rw [dif_pos (show (⟨j.val, by omega⟩ : Fin 256).val < 128 from j.isLt)]
  exact scaleK_eq x h hh seg sg hseg stats hst c w g j

include hh hseg hst in
/-- The table's last 128 columns are the moment-form shift. -/
theorem tableK_shift (g : Fin 512) (j : Fin 128) :
    tableK stats c w b g ⟨128 + j.val, by omega⟩ = shiftM x sg c w b g j := by
  unfold tableK
  have h1 : ¬ (⟨128 + j.val, by omega⟩ : Fin 256).val < 128 := by simp
  rw [dif_neg h1]
  have hidx : (⟨(⟨128 + j.val, by omega⟩ : Fin 256).val - 128, by show 128 + j.val - 128 < 128; omega⟩ : Fin 128) = j :=
    Fin.ext (by simp)
  rw [hidx]
  exact shiftK_eq x h hh seg sg hseg stats hst c w b g j

end Table

end Cert.EdgeNorm

end
-- ==== Proof.AlgReal.lean ====
/-
  The identity behind the moment form, over the reals.  For a finite family of edges with graph labels, fix an edge e and let
  g be its graph; g has at least one edge (e itself), so n = max (#g) 1 = #g.  With μ = (Σ_g x)/n and E₂ = (Σ_g x²)/n,
  (Σ_g (x − μc)²)/n = E₂ − 2cμ² + c²μ² = E₂ − μ²(2c − c²) ≥ 0, so the cut at 0 changes nothing, the two square roots agree, and
  x·(w/σ) + (b − μ c (w/σ)) = ((x − μc)/σ)·w + b.
-/
import Mathlib.Analysis.SpecialFunctions.Pow.Real
import Mathlib.Algebra.BigOperators.Field
import Mathlib.Tactic

namespace Cert.EdgeNorm

/-- The moment form and the centred form of the normalised value agree at every edge. -/
theorem real_norm_agree {ι G : Type*} [Fintype ι] [DecidableEq G] (x : ι → ℝ) (sg : ι → G) (c w b eps : ℝ)
    (heps : 0 < eps) (e : ι) :
    let n : ℝ := max (∑ i, if sg i = sg e then (1 : ℝ) else 0) 1
    let μ : ℝ := (∑ i, if sg i = sg e then x i else 0) / n
    let E2 : ℝ := (∑ i, if sg i = sg e then x i * x i else 0) / n
    let v' : ℝ := max (E2 - μ * μ * (2 * c - c * c)) 0
    let scale : ℝ := w * (1 / Real.sqrt (v' + eps))
    let shift : ℝ := b - μ * c * scale
    let v : ℝ := (∑ i, if sg i = sg e then (x i - μ * c) * (x i - μ * c) else 0) / n
    x e * scale + shift = (x e - μ * c) / Real.sqrt (v + eps) * w + b := by
  intro n μ E2 v' scale shift v
  -- the graph of e contains e, so its count is at least one and the cut at 1 is idle
  have hN : (1 : ℝ) ≤ ∑ i, if sg i = sg e then (1 : ℝ) else 0 := by
    have h := Finset.single_le_sum (f := fun i => if sg i = sg e then (1 : ℝ) else 0) (s := Finset.univ)
      (fun i _ => by split_ifs <;> norm_num) (Finset.mem_univ e)
    simpa using h
  have hn : n = ∑ i, if sg i = sg e then (1 : ℝ) else 0 := max_eq_left hN
  have hnpos : 0 < n := by rw [hn]; linarith
  have hn0 : n ≠ 0 := ne_of_gt hnpos
  -- the sum over the graph is the mean times the count
  have hS : (∑ i, if sg i = sg e then x i else 0) = μ * n := by
    show _ = (∑ i, if sg i = sg e then x i else 0) / n * n
    rw [div_mul_cancel₀ _ hn0]
  -- expand the centred squares term by term
  have hsum : (∑ i, if sg i = sg e then (x i - μ * c) * (x i - μ * c) else 0)
      = (∑ i, if sg i = sg e then x i * x i else 0)
        - 2 * (μ * c) * (∑ i, if sg i = sg e then x i else 0)
        + (μ * c) * (μ * c) * (∑ i, if sg i = sg e then (1 : ℝ) else 0) := by
    rw [Finset.mul_sum, Finset.mul_sum, ← Finset.sum_sub_distrib, ← Finset.sum_add_distrib]
    refine Finset.sum_congr rfl (fun i _ => ?_)
    split_ifs <;> ring
  -- hence the centred variance is the moment form
  have hv : v = E2 - μ * μ * (2 * c - c * c) := by
    show (∑ i, if sg i = sg e then (x i - μ * c) * (x i - μ * c) else 0) / n
      = (∑ i, if sg i = sg e then x i * x i else 0) / n - μ * μ * (2 * c - c * c)
    rw [hsum, hS, ← hn]
    field_simp
    ring
  -- a mean of squares is nonnegative, so the cut at 0 is idle
  have hv0 : 0 ≤ v := by
    apply div_nonneg _ (le_of_lt hnpos)
    apply Finset.sum_nonneg
    intro i _
    split_ifs
    · exact mul_self_nonneg _
    · exact le_refl 0
  have hv' : v' = v := by
    show max (E2 - μ * μ * (2 * c - c * c)) 0 = v
    rw [← hv]
    exact max_eq_left hv0
  have hσ : 0 < Real.sqrt (v + eps) := Real.sqrt_pos.mpr (by linarith)
  show x e * (w * (1 / Real.sqrt (v' + eps))) + (b - μ * c * (w * (1 / Real.sqrt (v' + eps))))
    = (x e - μ * c) / Real.sqrt (v + eps) * w + b
  rw [hv']
  field_simp
  ring

end Cert.EdgeNorm
-- ==== Proof.AlgNorm.lean ====
/-
  From the extended reals down to the reals.  When x and the three parameter vectors hold real numbers, every quantity of either
  form is a real number too — a count is at least 1, so a quotient by it is a real quotient; a variance plus ε is positive, so its
  root is a real root — and the two forms agree by the identity over the reals.
-/
import proofs.«412857_j18983755448605_4_alg».proof.Proof.Domain
import proofs.«412857_j18983755448605_4_alg».proof.Proof.AlgReal

noncomputable section

namespace Cert.EdgeNorm

open Idealize.ShloMosaic Idealize.ShloMosaic.ValueIdx

/-- The coercion of a finite sum of reals is the sum of the coercions. -/
private theorem coe_sum {α : Type*} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it commutes with max. -/
private theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The numeral 2 of the extended reals is the real 2. -/
private theorem two_eq_coe : (2 : EReal) = ((2 : ℝ) : EReal) := by
  rw [← one_add_one_eq_two, ← one_add_one_eq_two (R := ℝ), EReal.coe_add, EReal.coe_one]

/-- A quotient of reals by a nonzero real is the real quotient. -/
private theorem div_coe_coe (a n : ℝ) (hn : n ≠ 0) : Ideal.div (a : EReal) (n : EReal) = ((a / n : ℝ) : EReal) := by
  rw [Ideal.div_coe hn, ← EReal.coe_mul, mul_one_div]

/-- The root of a nonnegative real is the real root. -/
private theorem sqrt_coe_nonneg (r : ℝ) (h : 0 ≤ r) : Ideal.sqrt (r : EReal) = ((Real.sqrt r : ℝ) : EReal) := by
  rw [Ideal.sqrt_coe, if_neg (not_lt.mpr h)]

/-- A graph's sum of a per-edge value that is real on the graph's edges is the real sum. -/
private theorem sumR_coe (y : Fin 1600000 → Fin 128 → EReal) (yr : Fin 1600000 → ℝ) (sg : Fin 1600000 → Fin 512) (g : Fin 512)
    (j : Fin 128) (hy : ∀ i, sg i = g → y i j = (yr i : EReal)) :
    sumR y sg g j = ((∑ i, if sg i = g then yr i else 0 : ℝ) : EReal) := by
  unfold sumR
  rw [coe_sum]
  refine Finset.sum_congr rfl (fun i _ => ?_)
  by_cases h : sg i = g
  · rw [if_pos h, if_pos h, hy i h]
  · rw [if_neg h, if_neg h, EReal.coe_zero]

/-- A graph's count is the real count. -/
private theorem cntR_coe (sg : Fin 1600000 → Fin 512) (g : Fin 512) :
    cntR sg g = ((max (∑ i, if sg i = g then (1 : ℝ) else 0) 1 : ℝ) : EReal) := by
  unfold cntR
  rw [coe_max, EReal.coe_one, coe_sum]
  refine congrArg (fun t : EReal => max t 1) (Finset.sum_congr rfl (fun i _ => ?_))
  by_cases h : sg i = g
  · rw [if_pos h, if_pos h, EReal.coe_one]
  · rw [if_neg h, if_neg h, EReal.coe_zero]

/-- The first layer of real arrays is real. -/
theorem xR_real (emb : (⟨2, ![100000, 64]⟩ : Shape).Idx → EReal) (W1 : (⟨2, ![128, 128]⟩ : Shape).Idx → EReal)
    (b1 : (⟨1, ![128]⟩ : Shape).Idx → EReal) (hemb : FiniteArr emb) (hW1 : FiniteArr W1) (hb1 : FiniteArr b1)
    (col row : Fin 1600000 → Fin 100000) (e : Fin 1600000) (j : Fin 128) :
    ∃ r : ℝ, xR emb W1 b1 col row e j = (r : EReal) := by
  have hf : ∀ k : Fin 128, ∃ r : ℝ, f12 emb col row e k = (r : EReal) := by
    intro k
    unfold f12
    by_cases hk : k.val < 64
    · rw [dif_pos hk]; exact hemb _
    · rw [dif_neg hk]; exact hemb _
  choose fr hfr using hf
  choose wr hwr using fun k : Fin 128 => hW1 (ix2 k j)
  obtain ⟨br, hbr⟩ := hb1 (ix1 j)
  refine ⟨(∑ k, fr k * wr k) + br, ?_⟩
  unfold xR
  rw [EReal.coe_add, coe_sum, hbr]
  congr 1
  refine Finset.sum_congr rfl (fun k _ => ?_)
  rw [hfr, hwr, EReal.coe_mul]

/-- ε is a positive real. -/
theorem epsv_real : ∃ r : ℝ, 0 < r ∧ epsv = (r : EReal) := by
  -- the word has sign 0, exponent field 110 and fraction field 2606508: (2²³ + 2606508) · 2^(110 − 127 − 23) = 10995116 · 2⁻⁴⁰
  refine ⟨(10995116 : ℝ) * (2 : ℝ) ^ (-40 : ℤ), by positivity, ?_⟩
  unfold epsv
  simp [Ideal.ofBits, Ideal.ieee, -EReal.coe_mul]

/-- On real data the moment form of the normalised value is the centred form. -/
theorem norm_agree (x : Fin 1600000 → Fin 128 → EReal) (hx : ∀ e j, ∃ r : ℝ, x e j = (r : EReal))
    (sg : Fin 1600000 → Fin 512) (c w b : (⟨1, ![128]⟩ : Shape).Idx → EReal)
    (hc : FiniteArr c) (hw : FiniteArr w) (hb : FiniteArr b) (e : Fin 1600000) (j : Fin 128) :
    x e j * scaleM x sg c w (sg e) j + shiftM x sg c w b (sg e) j = normR x sg c w b e j := by
  choose xr hxr using hx
  obtain ⟨cr, hcr⟩ := hc (ix1 j)
  obtain ⟨wr, hwr⟩ := hw (ix1 j)
  obtain ⟨br, hbr⟩ := hb (ix1 j)
  obtain ⟨eps, heps, hepsv⟩ := epsv_real
  have key := real_norm_agree (fun i => xr i j) sg cr wr br eps heps e
  dsimp only at key
  -- the real quantities of the graph of e
  set n : ℝ := max (∑ i, if sg i = sg e then (1 : ℝ) else 0) 1 with hn_def
  set μ : ℝ := (∑ i, if sg i = sg e then xr i j else 0) / n with hμ_def
  set E2 : ℝ := (∑ i, if sg i = sg e then xr i j * xr i j else 0) / n with hE2_def
  set v' : ℝ := max (E2 - μ * μ * (2 * cr - cr * cr)) 0 with hv'_def
  set v : ℝ := (∑ i, if sg i = sg e then (xr i j - μ * cr) * (xr i j - μ * cr) else 0) / n with hv_def
  have hn1 : (1 : ℝ) ≤ n := le_max_right _ _
  have hnpos : 0 < n := lt_of_lt_of_le one_pos hn1
  have hn0 : n ≠ 0 := hnpos.ne'
  have hcnt : cntR sg (sg e) = (n : EReal) := cntR_coe sg (sg e)
  have hmean : meanR x sg (sg e) j = (μ : EReal) := by
    unfold meanR
    rw [hcnt, sumR_coe x (fun i => xr i j) sg (sg e) j (fun i _ => hxr i j), div_coe_coe _ _ hn0]
  have hE2 : Ideal.div (sumR (sqR x) sg (sg e) j) (cntR sg (sg e)) = (E2 : EReal) := by
    rw [hcnt, sumR_coe (sqR x) (fun i => xr i j * xr i j) sg (sg e) j
      (fun i _ => by show x i j * x i j = _; rw [hxr, EReal.coe_mul]), div_coe_coe _ _ hn0]
  have h2 : (2 : EReal) = ((2 : ℝ) : EReal) := two_eq_coe
  have hvarM : varM x sg c (sg e) j = (v' : EReal) := by
    unfold varM
    rw [hE2, hmean, hcr, h2, hv'_def, coe_max, EReal.coe_zero, EReal.coe_sub, EReal.coe_mul, EReal.coe_mul,
      EReal.coe_sub, EReal.coe_mul, EReal.coe_mul]
  have hv'0 : 0 ≤ v' := le_max_right _ _
  have hs'pos : 0 < Real.sqrt (v' + eps) := Real.sqrt_pos.mpr (by linarith)
  have hscale : scaleM x sg c w (sg e) j = ((wr * (1 / Real.sqrt (v' + eps)) : ℝ) : EReal) := by
    unfold scaleM
    rw [hvarM, hwr, hepsv, ← EReal.coe_add, sqrt_coe_nonneg _ (by linarith), ← EReal.coe_one,
      div_coe_coe _ _ hs'pos.ne', ← EReal.coe_mul]
  have hshift : shiftM x sg c w b (sg e) j
      = ((br - μ * cr * (wr * (1 / Real.sqrt (v' + eps))) : ℝ) : EReal) := by
    unfold shiftM
    rw [hbr, hmean, hcr, hscale, ← EReal.coe_mul, ← EReal.coe_mul, ← EReal.coe_sub]
  have hctr : ∀ i, sg i = sg e → ctrR x sg c i j = ((xr i j - μ * cr : ℝ) : EReal) := by
    intro i hi
    unfold ctrR
    rw [hi, hmean, hcr, hxr, ← EReal.coe_mul, ← EReal.coe_sub]
  have hvar : varR x sg c (sg e) j = (v : EReal) := by
    unfold varR
    rw [hcnt, sumR_coe (fun e j => ctrR x sg c e j * ctrR x sg c e j)
      (fun i => (xr i j - μ * cr) * (xr i j - μ * cr)) sg (sg e) j
      (fun i hi => by show ctrR x sg c i j * ctrR x sg c i j = _; rw [hctr i hi, EReal.coe_mul]),
      div_coe_coe _ _ hn0]
  have hv0 : 0 ≤ v := by
    refine div_nonneg (Finset.sum_nonneg (fun i _ => ?_)) hnpos.le
    by_cases h : sg i = sg e
    · rw [if_pos h]; exact mul_self_nonneg _
    · rw [if_neg h]
  have hspos : 0 < Real.sqrt (v + eps) := Real.sqrt_pos.mpr (by linarith)
  have hstd : stdR x sg c (sg e) j = ((Real.sqrt (v + eps) : ℝ) : EReal) := by
    unfold stdR
    rw [hvar, hepsv, ← EReal.coe_add, sqrt_coe_nonneg _ (by linarith)]
  have hnorm : normR x sg c w b e j
      = (((xr e j - μ * cr) / Real.sqrt (v + eps) * wr + br : ℝ) : EReal) := by
    unfold normR
    rw [hctr e rfl, hstd, div_coe_coe _ _ hspos.ne', hwr, hbr, ← EReal.coe_mul, ← EReal.coe_add]
  rw [hscale, hshift, hnorm, hxr, ← EReal.coe_mul, ← EReal.coe_add]
  exact congrArg _ key

end Cert.EdgeNorm

end
-- ==== Proof.AlgBridge.lean ====
/-
  The two programs' results agree: the tiled program's pieces, each characterised entry by entry, put together are the plain
  program's result.
-/
import proofs.«412857_j18983755448605_4_alg».proof.Proof.AlgSums
import proofs.«412857_j18983755448605_4_alg».proof.Proof.AlgNorm

noncomputable section

namespace Cert.EdgeNorm

open Idealize.ShloMosaic Idealize.ShloMosaic.ValueIdx

theorem bridge
    (emb : (⟨2, ![100000, 64]⟩ : Shape).Idx → EReal) (W1 : (⟨2, ![128, 128]⟩ : Shape).Idx → EReal)
    (b1 gw gb gc : (⟨1, ![128]⟩ : Shape).Idx → EReal) (W2 : (⟨2, ![128, 1]⟩ : Shape).Idx → EReal)
    (b2 : (⟨1, ![1]⟩ : Shape).Idx → EReal)
    (hemb : FiniteArr emb) (hW1 : FiniteArr W1) (hb1 : FiniteArr b1) (hgw : FiniteArr gw) (hgb : FiniteArr gb)
    (hgc : FiniteArr gc)
    (col row : Fin 1600000 → Fin 100000) (sg : Fin 1600000 → Fin 512)
    (ec er : (⟨2, ![1600000, 64]⟩ : Shape).Idx → EReal) (wt wb : (⟨2, ![64, 128]⟩ : Shape).Idx → EReal)
    (bb : (⟨2, ![1, 128]⟩ : Shape).Idx → EReal)
    (h : (⟨2, ![1600000, 128]⟩ : Shape).Idx → EReal) (seg : (⟨2, ![1600000, 1]⟩ : Shape).Idx → BitVec 32)
    (stats : (⟨3, ![250, 512, 384]⟩ : Shape).Idx → EReal) (table : (⟨2, ![512, 256]⟩ : Shape).Idx → EReal)
    (w2k : (⟨2, ![128, 1]⟩ : Shape).Idx → EReal) (b2k : (⟨2, ![1, 1]⟩ : Shape).Idx → EReal)
    (hec : ∀ e k, ec (ix2 e k) = emb (ix2 (col e) k)) (her : ∀ e k, er (ix2 e k) = emb (ix2 (row e) k))
    (hwt : ∀ (k : Fin 64) (j : Fin 128), wt (ix2 k j) = W1 (ix2 (⟨k.val, by omega⟩ : Fin 128) j))
    (hwb : ∀ (k : Fin 64) (j : Fin 128), wb (ix2 k j) = W1 (ix2 (⟨64 + k.val, by omega⟩ : Fin 128) j))
    (hbb : ∀ j : Fin 128, bb (ix2 0 j) = b1 (ix1 j))
    (hseg : ∀ e, seg (ix2 e 0) = BitVec.ofNat 32 (sg e).val)
    (hh : ∀ e j, h (ix2 e j) = lin ec er wt wb bb e j)
    (hst : ∀ t g q, stats (ix3 t g q) = stat h seg t g q)
    (htb : ∀ g q, table (ix2 g q) = tableK stats gc gw gb g q)
    (hw2 : ∀ j : Fin 128, w2k (ix2 j 0) = W2 (ix2 j 0)) (hb2 : b2k (ix2 0 0) = b2 (ix1 0))
    (e : Fin 1600000) :
    outK h seg table w2k b2k e = refOut (xR emb W1 b1 col row) sg gc gw gb W2 b2 e := by
  -- the tiled first layer is the plain first layer, entry by entry
  have hx : ∀ e j, h (ix2 e j) = xR emb W1 b1 col row e j := fun e j =>
    (hh e j).trans (lin_eq_xR emb W1 b1 col row ec er wt wb bb hec her hwt hwb hbb e j)
  -- the gathered table row of e's graph: its first half is the moment-form scale
  have hsc : ∀ j : Fin 128, gat seg table e ⟨j.val, by omega⟩
      = scaleM (xR emb W1 b1 col row) sg gc gw (sg e) j := by
    intro j
    rw [gat_eq seg sg hseg table e, htb]
    exact tableK_scale (xR emb W1 b1 col row) h hx seg sg hseg stats hst gc gw gb (sg e) j
  -- and its second half the moment-form shift
  have hsh : ∀ j : Fin 128, gat seg table e ⟨128 + j.val, by omega⟩
      = shiftM (xR emb W1 b1 col row) sg gc gw gb (sg e) j := by
    intro j
    rw [gat_eq seg sg hseg table e, htb]
    exact tableK_shift (xR emb W1 b1 col row) h hx seg sg hseg stats hst gc gw gb (sg e) j
  unfold outK refOut
  rw [hb2]
  refine congrArg (fun s => s + b2 (ix1 0)) ?_
  -- the two sums over the 128 columns agree term by term
  refine Finset.sum_congr rfl (fun j _ => ?_)
  rw [hx, hsc, hsh,
    norm_agree (xR emb W1 b1 col row) (fun e j => xR_real emb W1 b1 hemb hW1 hb1 col row e j) sg gc gw gb hgc hgw hgb e j,
    hw2]

end Cert.EdgeNorm

end
-- ==== Proof.Chain.lean ====
/-
  The tiled program's result buffer, followed back through @main: the last region's output array is outK of its five inputs; of
  those, the [scale | shift] table and the second layer's weights come from the host operations between the regions, the table
  from region 1's per-tile sums; x (region 0's output) and the graph column pass unchanged through the later regions, which
  only read them; and region 0's inputs come from the host operations before it.  Put together with the agreement of the two
  forms, the result at edge e is the plain program's refOut of the argument arrays.
-/
import proofs.«412857_j18983755448605_4_alg».proof.Proof.Region0
import proofs.«412857_j18983755448605_4_alg».proof.Proof.Region1
import proofs.«412857_j18983755448605_4_alg».proof.Proof.Region2
import proofs.«412857_j18983755448605_4_alg».proof.Proof.HostA
import proofs.«412857_j18983755448605_4_alg».proof.Proof.HostB
import proofs.«412857_j18983755448605_4_alg».proof.Proof.AlgBridge

set_option maxRecDepth 16384

noncomputable section

namespace Cert.KernelIdeal.Chain

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.EdgeNorm

variable (m : (ℓ : Loc nD τ sig) → Buf (Elt Ideal) ℓ) (ρ : Dev nD → PrngReg)

/-- No operation of the stretch between regions 1 and 2 writes the buffer b. -/
theorem after2_keeps (c : Dev nD) (b : Ref sig .tc)
    (hb : ∀ op ∈ (hostOps2 : List (HloOp τ sig (Elt Ideal))), (Proc.devRef .tc b : DevRef τ sig) ∉ op.writes) :
    W10 m ρ c (Proc.devRef .tc b) = W9 m ρ c (Proc.devRef .tc b) :=
  StableHlo.after_of_forall_not_mem (b := Proc.devRef .tc b) _ _ hb

/-- x, as region 0 leaves it. -/
theorem x_at8 (c : Dev nD) : (V8 m ρ c main_v34 : Vec Ideal S1600000x128 .bf16) = Region0.hOut (V7 m ρ) c :=
  W8_arr m ρ c 5

/-- Region 1 only reads x. -/
theorem x_at9 (c : Dev nD) : (V9 m ρ c main_v34 : Vec Ideal S1600000x128 .bf16) = V8 m ρ c main_v34 := by
  have h1 := W9_arr m ρ c (0 : Fin cfg1.W)
  have h2 := (dat1 (F := Ideal) (V8 m ρ) c).arrAt_in (0 : Fin cfg1.W) rfl cfg1.N
  have h3 := A_eq1 (F := Ideal) (V8 m ρ) c (0 : Fin cfg1.W)
  exact h1.trans (h2.trans h3)

/-- The host operations between regions 1 and 2 do not write x. -/
theorem x_at10 (c : Dev nD) : (V10 m ρ c main_v34 : Vec Ideal S1600000x128 .bf16) = V9 m ρ c main_v34 :=
  after2_keeps m ρ c main_v34 (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- Region 0 does not touch the graph column. -/
theorem seg_at8 (c : Dev nD) : (V8 m ρ c main_v28 : Vec Ideal S1600000x1 .i32) = V7 m ρ c main_v28 :=
  W8_of_ne m ρ c main_v28 (by decide)

/-- Region 1 only reads the graph column. -/
theorem seg_at9 (c : Dev nD) : (V9 m ρ c main_v28 : Vec Ideal S1600000x1 .i32) = V8 m ρ c main_v28 := by
  have h1 := W9_arr m ρ c (1 : Fin cfg1.W)
  have h2 := (dat1 (F := Ideal) (V8 m ρ) c).arrAt_in (1 : Fin cfg1.W) rfl cfg1.N
  have h3 := A_eq1 (F := Ideal) (V8 m ρ) c (1 : Fin cfg1.W)
  exact h1.trans (h2.trans h3)

/-- The host operations between regions 1 and 2 do not write the graph column. -/
theorem seg_at10 (c : Dev nD) : (V10 m ρ c main_v28 : Vec Ideal S1600000x1 .i32) = V9 m ρ c main_v28 :=
  after2_keeps m ρ c main_v28 (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The per-tile sums, as region 1 leaves them. -/
theorem stat_at9 (c : Dev nD) : (V9 m ρ c main_v35 : Vec Ideal S250x512x384 .f32) = Region1.statOut (V8 m ρ) c :=
  W9_arr m ρ c 2

/-- The result buffer, as region 2 leaves it. -/
theorem res_at11 (c : Dev nD) : (W11 m ρ c (Proc.devRef .tc main_v75) : Vec Ideal S1600000x1 .f32) = Region2.resOut (V10 m ρ) c :=
  W11_arr m ρ c 5

/-- The tiled program's result at edge e is the plain program's formula of the argument arrays. -/
theorem kernel_value (c : Dev nD)
    (hemb : FiniteArr (HostA.embM m c)) (hW1 : FiniteArr (HostA.w1M m c)) (hb1 : FiniteArr (HostA.b1M m c))
    (hgw : FiniteArr (HostA.gwM m c)) (hgb : FiniteArr (HostA.gbM m c)) (hgc : FiniteArr (HostA.gcM m c))
    (hr : InRange (HostA.eiM m c) (HostA.batchM m c)) (e : Fin 1600000) :
    (W11 m ρ c (Proc.devRef .tc main_v75) : Vec Ideal S1600000x1 .f32) (ix2 e 0)
      = refOut (xR (HostA.embM m c) (HostA.w1M m c) (HostA.b1M m c) (colOf (HostA.eiM m c)) (rowOf (HostA.eiM m c)))
          (sgOf (HostA.eiM m c) (HostA.batchM m c)) (HostA.gcM m c) (HostA.gwM m c) (HostA.gbM m c) (HostA.w2M m c)
          (HostA.b2M m c) e := by
  have hx10 : (V10 m ρ c main_v34 : Vec Ideal S1600000x128 .bf16) = Region0.hOut (V7 m ρ) c :=
    (x_at10 m ρ c).trans ((x_at9 m ρ c).trans (x_at8 m ρ c))
  have hs10 : (V10 m ρ c main_v28 : Vec Ideal S1600000x1 .i32) = V7 m ρ c main_v28 :=
    (seg_at10 m ρ c).trans ((seg_at9 m ρ c).trans (seg_at8 m ρ c))
  have hx8 : (V8 m ρ c main_v34 : Vec Ideal S1600000x128 .bf16) = V10 m ρ c main_v34 :=
    ((x_at10 m ρ c).trans (x_at9 m ρ c)).symm
  have hs8 : (V8 m ρ c main_v28 : Vec Ideal S1600000x1 .i32) = V10 m ρ c main_v28 :=
    ((seg_at10 m ρ c).trans (seg_at9 m ρ c)).symm
  rw [res_at11 m ρ c, Region2.value (V10 m ρ) c e]
  refine bridge (HostA.embM m c) (HostA.w1M m c) (HostA.b1M m c) (HostA.gwM m c) (HostA.gbM m c) (HostA.gcM m c)
    (HostA.w2M m c) (HostA.b2M m c) hemb hW1 hb1 hgw hgb hgc
    (colOf (HostA.eiM m c)) (rowOf (HostA.eiM m c)) (sgOf (HostA.eiM m c) (HostA.batchM m c))
    (HostA.ecV m ρ c) (HostA.erV m ρ c) (HostA.wtV m ρ c) (HostA.wbV m ρ c) (HostA.biasV m ρ c)
    (Region2.hA (V10 m ρ) c) (Region2.segA (V10 m ρ) c) (HostB.statV m ρ c) (Region2.tableA (V10 m ρ) c)
    (Region2.w2A (V10 m ρ) c) (Region2.b2A (V10 m ρ) c)
    (fun e k => HostA.ec_eq m ρ c hr e k) (fun e k => HostA.er_eq m ρ c hr e k)
    (fun k j => HostA.wt_eq m ρ c k j) (fun k j => HostA.wb_eq m ρ c k j) (fun j => HostA.bias_eq m ρ c j)
    ?hseg ?hh ?hst (fun g q => HostB.table_eq m ρ c g q) (fun j => HostB.w2_eq m ρ c j) (HostB.b2_eq m ρ c) e
  case hseg =>
    intro e'
    show (V10 m ρ c main_v28 : Vec Ideal S1600000x1 .i32) (ix2 e' 0) = _
    rw [hs10]
    have h := HostA.seg_eq m ρ c hr e'
    have hb := hr.2 (colOf (HostA.eiM m c) e')
    exact h.trans (word_eq_ofNat_graphOf _ hb.1 hb.2)
  case hh =>
    intro e' j
    show (V10 m ρ c main_v34 : Vec Ideal S1600000x128 .bf16) (ix2 e' j) = _
    rw [hx10]
    exact Region0.value (V7 m ρ) c e' j
  case hst =>
    intro t g q
    show (V9 m ρ c main_v35 : Vec Ideal S250x512x384 .f32) (ix3 t g q) = _
    rw [stat_at9 m ρ c, Region1.value (V8 m ρ) c t g q]
    show stat (V8 m ρ c main_v34 : Vec Ideal S1600000x128 .bf16) (V8 m ρ c main_v28 : Vec Ideal S1600000x1 .i32) t g q = _
    rw [hx8, hs8]

end Cert.KernelIdeal.Chain

end
-- ==== Proof.PreDecode.lean ====
/-
  What the precondition says, entry by entry: each float argument holds real numbers (|x| < +∞ at every entry), each node index
  lies in 0 … 99999 and each graph number in 0 … 511.
-/
import proofs.«412857_j18983755448605_4_alg».proof.Pre_finite_inputs
import proofs.«412857_j18983755448605_4_alg».proof.Proof.Domain
import Idealize.ShloMosaic.Lib.ReduceAll
import Idealize.ShloMosaic.Lib.StableHlo.Predicate

set_option maxRecDepth 16384

noncomputable section

namespace Cert.EdgeNorm

open Idealize.ShloMosaic Idealize.ShloMosaic.ValueIdx

namespace PreDecode

local instance subsingleton_scalar_idx : Subsingleton (⟨0, ![]⟩ : Shape).Idx := ⟨fun a b => funext fun d => d.elim0⟩

/-- A one-bit word made from a Boolean is 1 exactly when the Boolean holds. -/
theorem ofBool_one (b : Bool) : BitVec.ofBool b = 1#1 ↔ b = true := by cases b <;> decide

/-- The single-precision word 0x7F800000 (exponent all ones, fraction 0, sign 0) is +∞. -/
theorem inf_word : Ideal.ofBits .f32 0x7F800000#32 = (⊤ : EReal) := by
  simp [Ideal.ofBits, Ideal.ieee]

/-- |x| < +∞ leaves only the reals: |x| is the larger of x and −x, which is ⊤ both at ⊥ and at ⊤. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [inf_word] at h
  unfold Ideal.cmp at h
  rw [ofBool_one] at h
  simp only [decide_eq_true_eq] at h
  induction x using EReal.rec with
  | bot => simp at h
  | coe r => exact ⟨r, rfl⟩
  | top => simp at h

/-- z ≥ 0 as signed words: 0 ≤ the signed value of z. -/
theorem nonneg_of_sge (z : BitVec 32) (h : IntOp.cmpi .sge z 0#32 = 1#1) : 0 ≤ z.toInt := by
  unfold IntOp.cmpi at h
  rw [ofBool_one] at h
  simp only [BitVec.sle, decide_eq_true_eq] at h
  simpa using h

/-- z < c as signed words: the signed values compare so. -/
theorem lt_of_slt (z c : BitVec 32) (h : IntOp.cmpi .slt z c = 1#1) : z.toInt < c.toInt := by
  unfold IntOp.cmpi at h
  rw [ofBool_one] at h
  simpa only [BitVec.slt, decide_eq_true_eq] using h

section Arrays
variable {s : Shape} {axes : List (Fin s.rank)}

/-- "All of |a| < +∞" being 1 says every entry of a is a real number. -/
theorem finite_of_all (a : s.Idx → EReal)
    (hb : (⟨0, ![]⟩ : Shape).BroadcastsInDim s (![] : Fin 0 → Fin s.rank))
    (hr : s.ReducesTo axes ⟨0, ![]⟩) (h0 : 0 < (⟨0, ![]⟩ : Shape).numel)
    (e : Host.reduce IntOp.andi
          (cmpf (F := Ideal) (φ := .f32) .olt (Host.absf (F := Ideal) (φ := .f32) a)
            (broadcastInDim s ![] hb (constant (F := Ideal) ⟨0, ![]⟩ .f32 0x7F800000#32)))
          (constantI ⟨0, ![]⟩ 1 1#1) hr h0 ix0 = 1#1) : FiniteArr a := by
  intro i
  exact real_of_abs_lt (a i) (Host.reduce_andi_all _ _ hr h0 ix0 e i)

/-- "All of a ≥ 0" being 1 says every entry of a is non-negative. -/
theorem nonneg_of_all (a : s.Idx → BitVec 32)
    (hb : (⟨0, ![]⟩ : Shape).BroadcastsInDim s (![] : Fin 0 → Fin s.rank))
    (hr : s.ReducesTo axes ⟨0, ![]⟩) (h0 : 0 < (⟨0, ![]⟩ : Shape).numel)
    (e : Host.reduce IntOp.andi
          (cmpi .sge a (broadcastInDim s ![] hb (constantI ⟨0, ![]⟩ 32 0#32)))
          (constantI ⟨0, ![]⟩ 1 1#1) hr h0 ix0 = 1#1) (i : s.Idx) : 0 ≤ (a i).toInt :=
  nonneg_of_sge (a i) (Host.reduce_andi_all _ _ hr h0 ix0 e i)

/-- "All of a < c" being 1 says every entry of a is below c. -/
theorem lt_of_all (a : s.Idx → BitVec 32) (c : BitVec 32)
    (hb : (⟨0, ![]⟩ : Shape).BroadcastsInDim s (![] : Fin 0 → Fin s.rank))
    (hr : s.ReducesTo axes ⟨0, ![]⟩) (h0 : 0 < (⟨0, ![]⟩ : Shape).numel)
    (e : Host.reduce IntOp.andi
          (cmpi .slt a (broadcastInDim s ![] hb (constantI ⟨0, ![]⟩ 32 c)))
          (constantI ⟨0, ![]⟩ 1 1#1) hr h0 ix0 = 1#1) (i : s.Idx) : (a i).toInt < c.toInt :=
  lt_of_slt (a i) c (Host.reduce_andi_all _ _ hr h0 ix0 e i)

end Arrays

end PreDecode

/-- The precondition, all ones, gives the domain. -/
theorem domain_of_pre [hP : Cert.Pre_finite_inputs.Facts]
    (a0 : (⟨2, ![100000, 64]⟩ : Shape).Idx → EReal) (a1 : (⟨2, ![128, 128]⟩ : Shape).Idx → EReal)
    (a2 a3 a4 a5 : (⟨1, ![128]⟩ : Shape).Idx → EReal) (a6 : (⟨2, ![128, 1]⟩ : Shape).Idx → EReal)
    (a7 : (⟨1, ![1]⟩ : Shape).Idx → EReal) (a8 : (⟨2, ![2, 1600000]⟩ : Shape).Idx → BitVec 32)
    (a9 : (⟨1, ![100000]⟩ : Shape).Idx → BitVec 32)
    (hpre : Cert.Pre_finite_inputs.fn (F := Ideal) a0 a1 a2 a3 a4 a5 a6 a7 a8 a9 = (fun _ => 1#1)) :
    FiniteArr a0 ∧ FiniteArr a1 ∧ FiniteArr a2 ∧ FiniteArr a3 ∧ FiniteArr a4 ∧ FiniteArr a5 ∧ FiniteArr a6 ∧ FiniteArr a7
      ∧ InRange a8 a9 := by
  have e := congrFun hpre ix0
  dsimp only [Cert.Pre_finite_inputs.fn, Cert.Pre_finite_inputs.fn_part1, Cert.Pre_finite_inputs.fn_part2,
    Cert.Pre_finite_inputs.fn_part3] at e
  -- the result is a left-nested conjunction of twelve "all" words
  obtain ⟨e, h9b⟩ := IntOp.andi_eq_one.1 e
  obtain ⟨e, h9a⟩ := IntOp.andi_eq_one.1 e
  obtain ⟨e, h8b⟩ := IntOp.andi_eq_one.1 e
  obtain ⟨e, h8a⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  have c1 : (100000#32 : BitVec 32).toInt = 100000 := by decide
  have c2 : (512#32 : BitVec 32).toInt = 512 := by decide
  refine ⟨PreDecode.finite_of_all a0 _ _ _ h0, PreDecode.finite_of_all a1 _ _ _ h1, PreDecode.finite_of_all a2 _ _ _ h2, PreDecode.finite_of_all a3 _ _ _ h3,
    PreDecode.finite_of_all a4 _ _ _ h4, PreDecode.finite_of_all a5 _ _ _ h5, PreDecode.finite_of_all a6 _ _ _ h6, PreDecode.finite_of_all a7 _ _ _ h7, ?_, ?_⟩
  · intro a ed
    exact ⟨PreDecode.nonneg_of_all a8 _ _ _ h8a (ix2 a ed), c1 ▸ PreDecode.lt_of_all a8 _ _ _ _ h8b (ix2 a ed)⟩
  · intro n
    exact ⟨PreDecode.nonneg_of_all a9 _ _ _ h9a (ix1 n), c2 ▸ PreDecode.lt_of_all a9 _ _ _ _ h9b (ix1 n)⟩

end Cert.EdgeNorm

end
-- ==== Proof.RefValueA.lean ====
/-
  The plain program's first half, read at an index, on the domain where every index is in range (so a negative-index wrap-around
  and a gather's clamp are the identity, and no scattered update is dropped): the first layer x, the graph word of each edge,
  the per-graph count (at least 1) and the per-graph mean.
-/
import proofs.«412857_j18983755448605_4_alg».proof.Proof.Gen.ReferenceIdeal.Run
import proofs.«412857_j18983755448605_4_alg».proof.Proof.Gen.ReferenceIdeal.Read
import proofs.«412857_j18983755448605_4_alg».proof.Proof.Domain
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx Cert.EdgeNorm Cert.ReferenceIdeal

namespace FirstHalf

/-- A select on "the word is negative" keeps a non-negative word. -/
theorem wrap_id (z alt : BitVec 32) (h0 : 0 ≤ z.toInt) :
    Scalar.select (IntOp.cmpi .slt z 0#32) alt z = z := by
  have hs : z.slt 0#32 = false := by
    refine Bool.eq_false_iff.mpr (fun h => ?_)
    rw [BitVec.slt_iff_toInt_lt] at h
    have hz : (0#32 : BitVec 32).toInt = 0 := by decide
    omega
  have hc : IntOp.cmpi .slt z 0#32 = 0#1 := by
    unfold IntOp.cmpi
    simp only [hs]
    rfl
  rw [hc]
  exact select_zero _ _

/-- Row 0 of the edge list, flattened: position e is entry (0, e). -/
theorem idx_col (e : Fin 1600000) : Read.idx_main_v0 (Read.idx_main_v1 (ix1 e)) = ix2 0 e := by
  funext a; refine Fin.ext ?_
  match a with
  | ⟨0, _⟩ => rfl
  | ⟨1, _⟩ => exact Nat.mod_eq_of_lt e.isLt

/-- Row 1 of the edge list, flattened: position e is entry (1, e). -/
theorem idx_row (e : Fin 1600000) : Read.idx_main_v2 (Read.idx_main_v3 (ix1 e)) = ix2 1 e := by
  funext a; refine Fin.ext ?_
  match a with
  | ⟨0, _⟩ => rfl
  | ⟨1, _⟩ => exact Nat.mod_eq_of_lt e.isLt

/-- The first node's word of edge e. -/
theorem v1_apply (x8 : (⟨2, ![2, 1600000]⟩ : Shape).Idx → BitVec 32) (e : Fin 1600000) :
    Read.val_main_v1 (F := Ideal) x8 (ix1 e) = x8 (ix2 0 e) := by
  rw [Read.val_main_v1_apply, Read.val_main_v0_apply, idx_col]

/-- The second node's word of edge e. -/
theorem v3_apply (x8 : (⟨2, ![2, 1600000]⟩ : Shape).Idx → BitVec 32) (e : Fin 1600000) :
    Read.val_main_v3 (F := Ideal) x8 (ix1 e) = x8 (ix2 1 e) := by
  rw [Read.val_main_v3_apply, Read.val_main_v2_apply, idx_row]

/-- A column of width one over the edges, read at (e, 0), is the vector at e. -/
theorem idx_unit (e : Fin 1600000) : Read.idx_main_v9 (ix2 e 0) = ix1 e := by
  funext a
  match a with
  | ⟨0, _⟩ => rfl

/-- In range, the wrapped first-node word of edge e is the word itself. -/
theorem v9_apply (x8 : (⟨2, ![2, 1600000]⟩ : Shape).Idx → BitVec 32) (x9 : (⟨1, ![100000]⟩ : Shape).Idx → BitVec 32) (hr : InRange x8 x9) (e : Fin 1600000) :
    Read.val_main_v9 (F := Ideal) x8 (ix2 e 0) = x8 (ix2 0 e) := by
  rw [Read.val_main_v9_apply, idx_unit, Read.val_main_v8_apply, Read.val_main_v5_apply, Read.val_main_v4_apply,
    Read.val_main_c_apply, v1_apply]
  exact wrap_id _ _ (hr.1 0 e).1

/-- In range, the wrapped second-node word of edge e is the word itself. -/
theorem v16_apply (x8 : (⟨2, ![2, 1600000]⟩ : Shape).Idx → BitVec 32) (x9 : (⟨1, ![100000]⟩ : Shape).Idx → BitVec 32) (hr : InRange x8 x9) (e : Fin 1600000) :
    Read.val_main_v16 (F := Ideal) x8 (ix2 e 0) = x8 (ix2 1 e) := by
  rw [Read.val_main_v16_apply, show Read.idx_main_v16 (ix2 e 0) = ix1 e from idx_unit e, Read.val_main_v15_apply,
    Read.val_main_v12_apply, Read.val_main_v11_apply, Read.val_main_c_1_apply, v3_apply]
  exact wrap_id _ _ (hr.1 1 e).1

/-- The wrapped first-node word again (the copy the graph lookup reads). -/
theorem v28_apply (x8 : (⟨2, ![2, 1600000]⟩ : Shape).Idx → BitVec 32) (x9 : (⟨1, ![100000]⟩ : Shape).Idx → BitVec 32) (hr : InRange x8 x9) (e : Fin 1600000) :
    Read.val_main_v28 (F := Ideal) x8 (ix2 e 0) = x8 (ix2 0 e) := by
  rw [Read.val_main_v28_apply, show Read.idx_main_v28 (ix2 e 0) = ix1 e from idx_unit e, Read.val_main_v27_apply,
    Read.val_main_v24_apply, Read.val_main_v23_apply, Read.val_main_c_3_apply, v1_apply]
  exact wrap_id _ _ (hr.1 0 e).1

/-- The gathered row of the first node. -/
theorem v10_apply (x0 : (⟨2, ![100000, 64]⟩ : Shape).Idx → EReal) (x8 : (⟨2, ![2, 1600000]⟩ : Shape).Idx → BitVec 32) (x9 : (⟨1, ![100000]⟩ : Shape).Idx → BitVec 32) (hr : InRange x8 x9) (e : Fin 1600000) (k : Fin 64) :
    Read.val_main_v10 (F := Ideal) x0 x8 (ix2 e k) = x0 (ix2 (colOf x8 e) k) := by
  unfold Read.val_main_v10
  refine (Cert.LibRowOps.gather_rows_apply (N := 100000) (C := 64) (E := 1600000) (by decide) _ rfl rfl rfl rfl rfl rfl rfl
    x0 _ e k).trans ?_
  rw [v9_apply x8 x9 hr e]
  rfl

/-- The gathered row of the second node. -/
theorem v17_apply (x0 : (⟨2, ![100000, 64]⟩ : Shape).Idx → EReal) (x8 : (⟨2, ![2, 1600000]⟩ : Shape).Idx → BitVec 32) (x9 : (⟨1, ![100000]⟩ : Shape).Idx → BitVec 32) (hr : InRange x8 x9) (e : Fin 1600000) (k : Fin 64) :
    Read.val_main_v17 (F := Ideal) x0 x8 (ix2 e k) = x0 (ix2 (rowOf x8 e) k) := by
  unfold Read.val_main_v17
  refine (Cert.LibRowOps.gather_rows_apply (N := 100000) (C := 64) (E := 1600000) (by decide) _ rfl rfl rfl rfl rfl rfl rfl
    x0 _ e k).trans ?_
  rw [v16_apply x8 x9 hr e]
  rfl

/-- The two gathered halves side by side: column k below 64 from the first node's row, else column k − 64 of the second's. -/
theorem v18_apply (x0 : (⟨2, ![100000, 64]⟩ : Shape).Idx → EReal) (x8 : (⟨2, ![2, 1600000]⟩ : Shape).Idx → BitVec 32) (x9 : (⟨1, ![100000]⟩ : Shape).Idx → BitVec 32) (hr : InRange x8 x9) (e : Fin 1600000) (k : Fin 128) :
    Read.val_main_v18 (F := Ideal) x0 x8 (ix2 e k) = f12 x0 (colOf x8) (rowOf x8) e k := by
  unfold Read.val_main_v18 f12
  by_cases hk : k.val < 64
  · rw [dif_pos hk]
    refine (concatenate_pair_apply_left (t := ⟨2, ![1600000, 128]⟩) (s₁ := ⟨2, ![1600000, 64]⟩) (s₂ := ⟨2, ![1600000, 64]⟩) (1 : Fin 2) _ _ _ (ix2 e k) rfl (ix2 e (⟨k.val, hk⟩ : Fin 64))
      (fun b => match b with
        | ⟨0, _⟩ => rfl
        | ⟨1, _⟩ => rfl)).trans ?_
    exact v10_apply x0 x8 x9 hr e _
  · rw [dif_neg hk]
    refine (concatenate_pair_apply_right (t := ⟨2, ![1600000, 128]⟩) (s₁ := ⟨2, ![1600000, 64]⟩) (s₂ := ⟨2, ![1600000, 64]⟩) (1 : Fin 2) _ _ _ (ix2 e k) rfl rfl (ix2 e (⟨k.val - 64, by omega⟩ : Fin 64))
      (fun b hb => match b, hb with
        | ⟨0, _⟩, _ => rfl
        | ⟨1, _⟩, hb => absurd rfl hb) ?_).trans ?_
    · show k.val - 64 + 64 = k.val
      omega
    · exact v17_apply x0 x8 x9 hr e _

/-- E entries gathered out of a vector of length N: entry e of the result is the vector's entry at the clamped signed index. -/
theorem gather_vec_apply {α : Type} {N E w : Nat} (hN : 0 < N) (d : GatherDims ⟨1, ![N]⟩ ⟨2, ![E, 1]⟩ ⟨1, ![E]⟩)
    (ho : d.offsetDims = []) (hc : d.collapsedSliceDims = [0]) (hb : d.operandBatchingDims = [])
    (hsb : d.startIndicesBatchingDims = []) (hm : d.startIndexMap = [0]) (hv : d.indexVectorDim = 1)
    (hsz : d.sliceSizes = ![1])
    (x : (⟨1, ![N]⟩ : Shape).Idx → α) (idx : IVec ⟨2, ![E, 1]⟩ w) (e : Fin E) :
    Host.gather d x idx (ix1 e) = x (ix1 (Cert.LibRowOps.clampRow N hN (idx (ix2 e 0)).toInt)) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix1 e) idx a + GatherDims.batchCoord _ (ix1 e) a + GatherDims.offCoord _ (ix1 e) a = _
  rw [GatherDims.batchCoord_eq_zero _ _ _ List.not_mem_nil, Nat.add_zero]
  obtain rfl : a = 0 := Subsingleton.elim _ _
  rw [GatherDims.offCoord_eq_zero _ _ _ (fun h => ((GatherDims.mem_sKept _ _).mp h).1 (List.mem_singleton.mpr rfl)),
    Nat.add_zero]
  unfold GatherDims.start
  rw [dif_pos (List.mem_singleton.mpr rfl)]
  have hsi : ∀ c, GatherDims.siIdx (s := ⟨1, ![N]⟩) (si := ⟨2, ![E, 1]⟩) (t := ⟨1, ![E]⟩)
      ⟨[], [0], [], [], [0], 1, ![1], wf⟩ (ix1 e) c = ix2 e 0 := by
    intro c
    funext b; refine Fin.ext ?_
    match b with
    | ⟨0, _⟩ => rfl
    | ⟨1, _⟩ => exact Nat.lt_one_iff.mp c.isLt
  rw [hsi]
  show min (idx (ix2 e 0)).toInt.toNat (N - 1) = (min (max (idx (ix2 e 0)).toInt 0) ((N - 1 : Nat) : Int)).toNat
  omega

/-- In range, a graph word names graph g exactly when its signed value is g. -/
theorem toInt_eq_iff (z : BitVec 32) (h0 : 0 ≤ z.toInt) (h1 : z.toInt < 512) (g : Fin 512) :
    z.toInt = (g.val : ℤ) ↔ graphOf z = g := by
  have hv := graphOf_val z h0 h1
  constructor
  · intro h
    refine Fin.ext ?_
    omega
  · intro h
    rw [← h]
    exact hv.symm

/-- The single-precision word 0x3F800000 is the number 1. -/
theorem ofBits_one : Ideal.ofBits .f32 0x3F800000#32 = 1 := by
  have h : ((8388608 : ℝ) : EReal) * (((2 ^ 23 : ℝ)⁻¹ : ℝ) : EReal) = 1 := by
    rw [← EReal.coe_mul, ← EReal.coe_one]
    congr 1
    norm_num
  simpa [Ideal.ofBits, Ideal.ieee] using h

end FirstHalf

open FirstHalf

/-- x e j: the gathered rows of the two nodes, joined, times W1, plus b1. -/
theorem x_apply (x0 : (⟨2, ![100000, 64]⟩ : Shape).Idx → EReal) (x1 : (⟨2, ![128, 128]⟩ : Shape).Idx → EReal)
    (x2 : (⟨1, ![128]⟩ : Shape).Idx → EReal)
    (x8 : (⟨2, ![2, 1600000]⟩ : Shape).Idx → BitVec 32) (x9 : (⟨1, ![100000]⟩ : Shape).Idx → BitVec 32)
    (hr : InRange x8 x9) (e : Fin 1600000) (j : Fin 128) :
    Read.val_main_v22 (F := Ideal) x0 x1 x2 x8 (ix2 e j) = xR x0 x1 x2 (colOf x8) (rowOf x8) e j := by
  rw [Read.val_main_v22_apply, Read.val_main_v19_apply, Read.val_main_v21_apply, Read.val_main_v20_apply, Ideal.addf_def]
  unfold xR
  have hb : Read.idx_main_v20 (Read.idx_main_v21 (ix2 e j)) = ix1 j := by
    funext a
    match a with
    | ⟨0, _⟩ => rfl
  rw [hb]
  congr 1
  refine Finset.sum_congr rfl (fun k _ => ?_)
  have hl : Read.lidx_main_v19 (ix2 e j) k = ix2 e k := by
    funext a
    match a with
    | ⟨0, _⟩ => rfl
    | ⟨1, _⟩ => rfl
  have hrr : Read.ridx_main_v19 (ix2 e j) k = ix2 k j := by
    funext a
    match a with
    | ⟨0, _⟩ => rfl
    | ⟨1, _⟩ => rfl
  rw [hl, hrr, v18_apply x0 x8 x9 hr e k]

/-- The graph word of edge e: the graph number of its first node. -/
theorem seg_apply (x8 : (⟨2, ![2, 1600000]⟩ : Shape).Idx → BitVec 32) (x9 : (⟨1, ![100000]⟩ : Shape).Idx → BitVec 32)
    (hr : InRange x8 x9) (e : Fin 1600000) :
    Read.val_main_v29 (F := Ideal) x8 x9 (ix1 e) = x9 (ix1 (colOf x8 e)) := by
  unfold Read.val_main_v29
  refine (gather_vec_apply (N := 100000) (E := 1600000) (by decide) _ rfl rfl rfl rfl rfl rfl rfl x9 _ e).trans ?_
  rw [v28_apply x8 x9 hr e]
  rfl

namespace FirstHalf

/-- In range, edge e's graph word has signed value g exactly when e belongs to graph g. -/
theorem seg_toInt_iff (x8 : (⟨2, ![2, 1600000]⟩ : Shape).Idx → BitVec 32) (x9 : (⟨1, ![100000]⟩ : Shape).Idx → BitVec 32)
    (hr : InRange x8 x9) (e : Fin 1600000) (g : Fin 512) :
    (Read.val_main_v29 (F := Ideal) x8 x9 (ix1 e)).toInt = (g.val : ℤ) ↔ sgOf x8 x9 e = g := by
  rw [seg_apply x8 x9 hr e]
  exact toInt_eq_iff _ (hr.2 _).1 (hr.2 _).2 g

/-- The host's accumulating scatter of scalars into a vector, at the extended reals: entry n is its old value plus the updates
    whose signed index is n. -/
theorem hostScatterAdd_vec {N E : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ 32) (upd : (⟨1, ![E]⟩ : Shape).Idx → EReal) (n : Fin N) :
    Host.scatterAdd (F := Ideal) (φ := .f32) d x idx upd (ix1 n)
      = x (ix1 n) + ∑ e : Fin E, (if (idx (ix2 e 0)).toInt = (n.val : ℤ) then upd (ix1 e) else 0) :=
  Cert.LibRowOps.scatterAdd_vec_apply d hu hi hs hv x idx upd n

/-- The host's accumulating scatter of rows into a table, at the extended reals. -/
theorem hostScatterAdd_rows {N C E : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ 32) (upd : (⟨2, ![E, C]⟩ : Shape).Idx → EReal)
    (n : Fin N) (f : Fin C) :
    Host.scatterAdd (F := Ideal) (φ := .f32) d x idx upd (ix2 n f)
      = x (ix2 n f) + ∑ e : Fin E, (if (idx (ix2 e 0)).toInt = (n.val : ℤ) then upd (ix2 e f) else 0) :=
  Cert.LibRowOps.scatterAdd_rows_apply d hu hi hs hv x idx upd n f

/-- The zero vector the count is added into. -/
theorem v31_apply (g : Fin 512) : Read.val_main_v31 (F := Ideal) (ix1 g) = 0 := by
  rw [Read.val_main_v31_apply, Read.val_main_cst_5_apply, Ideal.ofBits_def, Ideal.ofBits_zero_f32]

/-- The ones that are added, one per edge. -/
theorem v30_apply (e : Fin 1600000) : Read.val_main_v30 (F := Ideal) (ix1 e) = 1 := by
  rw [Read.val_main_v30_apply, Read.val_main_cst_apply, Ideal.ofBits_def, ofBits_one]

/-- The lower bound 1 of the count. -/
theorem v34_apply (g : Fin 512) : Read.val_main_v34 (F := Ideal) (ix1 g) = 1 := by
  rw [Read.val_main_v34_apply, Read.val_main_cst_6_apply, Ideal.ofBits_def, ofBits_one]

/-- The zero table the rows are added into. -/
theorem v37_apply (g : Fin 512) (j : Fin 128) : Read.val_main_v37 (F := Ideal) (ix2 g j) = 0 := by
  rw [Read.val_main_v37_apply, Read.val_main_cst_7_apply, Ideal.ofBits_def, Ideal.ofBits_zero_f32]

/-- The scatter's index column at (e, 0) is edge e's graph word. -/
theorem v32_apply (x8 : (⟨2, ![2, 1600000]⟩ : Shape).Idx → BitVec 32) (x9 : (⟨1, ![100000]⟩ : Shape).Idx → BitVec 32) (e : Fin 1600000) :
    Read.val_main_v32 (F := Ideal) x8 x9 (ix2 e 0) = Read.val_main_v29 (F := Ideal) x8 x9 (ix1 e) := by
  rw [Read.val_main_v32_apply, show Read.idx_main_v32 (ix2 e 0) = ix1 e from idx_unit e]

/-- The second scatter's index column at (e, 0) is edge e's graph word. -/
theorem v38_apply (x8 : (⟨2, ![2, 1600000]⟩ : Shape).Idx → BitVec 32) (x9 : (⟨1, ![100000]⟩ : Shape).Idx → BitVec 32) (e : Fin 1600000) :
    Read.val_main_v38 (F := Ideal) x8 x9 (ix2 e 0) = Read.val_main_v29 (F := Ideal) x8 x9 (ix1 e) := by
  rw [Read.val_main_v38_apply, show Read.idx_main_v38 (ix2 e 0) = ix1 e from idx_unit e]

/-- One term of the count: 1 when edge e belongs to graph g. -/
theorem cnt_term (x8 : (⟨2, ![2, 1600000]⟩ : Shape).Idx → BitVec 32) (x9 : (⟨1, ![100000]⟩ : Shape).Idx → BitVec 32) (hr : InRange x8 x9) (g : Fin 512) (e : Fin 1600000) :
    (if (Read.val_main_v32 (F := Ideal) x8 x9 (ix2 e 0)).toInt = (g.val : ℤ) then Read.val_main_v30 (F := Ideal) (ix1 e) else 0)
      = if sgOf x8 x9 e = g then (1 : EReal) else 0 := by
  rw [v32_apply, v30_apply]
  exact if_congr (seg_toInt_iff x8 x9 hr e g) rfl rfl

/-- One term of the row sums: x e j when edge e belongs to graph g. -/
theorem sum_term (x0 : (⟨2, ![100000, 64]⟩ : Shape).Idx → EReal) (x1 : (⟨2, ![128, 128]⟩ : Shape).Idx → EReal)
    (x2 : (⟨1, ![128]⟩ : Shape).Idx → EReal)
    (x8 : (⟨2, ![2, 1600000]⟩ : Shape).Idx → BitVec 32) (x9 : (⟨1, ![100000]⟩ : Shape).Idx → BitVec 32) (hr : InRange x8 x9) (g : Fin 512) (j : Fin 128) (e : Fin 1600000) :
    (if (Read.val_main_v38 (F := Ideal) x8 x9 (ix2 e 0)).toInt = (g.val : ℤ)
      then Read.val_main_v22 (F := Ideal) x0 x1 x2 x8 (ix2 e j) else 0)
      = if sgOf x8 x9 e = g then xR x0 x1 x2 (colOf x8) (rowOf x8) e j else 0 := by
  rw [v38_apply, x_apply x0 x1 x2 x8 x9 hr e j]
  exact if_congr (seg_toInt_iff x8 x9 hr e g) rfl rfl

/-- The ones added per graph: the number of the graph's edges. -/
theorem v33_apply (x8 : (⟨2, ![2, 1600000]⟩ : Shape).Idx → BitVec 32) (x9 : (⟨1, ![100000]⟩ : Shape).Idx → BitVec 32)
    (hr : InRange x8 x9) (g : Fin 512) :
    Read.val_main_v33 (F := Ideal) x8 x9 (ix1 g) = ∑ e : Fin 1600000, if sgOf x8 x9 e = g then (1 : EReal) else 0 := by
  refine Eq.trans (hostScatterAdd_vec (N := 512) (E := 1600000) scatter_S512_S1600000x1_S1600000_n_0_0_1 rfl rfl rfl rfl
      (Read.val_main_v31 (F := Ideal)) (Read.val_main_v32 (F := Ideal) x8 x9) (Read.val_main_v30 (F := Ideal)) g) ?_
  rw [v31_apply, zero_add]
  exact Finset.sum_congr rfl (fun e _ => cnt_term x8 x9 hr g e)

end FirstHalf

/-- The per-graph count, cut below at 1. -/
theorem cnt_apply (x8 : (⟨2, ![2, 1600000]⟩ : Shape).Idx → BitVec 32) (x9 : (⟨1, ![100000]⟩ : Shape).Idx → BitVec 32)
    (hr : InRange x8 x9) (g : Fin 512) :
    Read.val_main_v35 (F := Ideal) x8 x9 (ix1 g) = cntR (sgOf x8 x9) g := by
  rw [Read.val_main_v35_apply, v34_apply, v33_apply x8 x9 hr g, Ideal.maximumf_def]
  rfl

namespace FirstHalf

/-- The rows of x added per graph. -/
theorem v39_apply (x0 : (⟨2, ![100000, 64]⟩ : Shape).Idx → EReal) (x1 : (⟨2, ![128, 128]⟩ : Shape).Idx → EReal)
    (x2 : (⟨1, ![128]⟩ : Shape).Idx → EReal)
    (x8 : (⟨2, ![2, 1600000]⟩ : Shape).Idx → BitVec 32) (x9 : (⟨1, ![100000]⟩ : Shape).Idx → BitVec 32)
    (hr : InRange x8 x9) (g : Fin 512) (j : Fin 128) :
    Read.val_main_v39 (F := Ideal) x0 x1 x2 x8 x9 (ix2 g j)
      = sumR (xR x0 x1 x2 (colOf x8) (rowOf x8)) (sgOf x8 x9) g j := by
  refine Eq.trans (hostScatterAdd_rows (N := 512) (C := 128) (E := 1600000) scatter_S512x128_S1600000x1_S1600000x128_1_0_0_1
      rfl rfl rfl rfl (Read.val_main_v37 (F := Ideal)) (Read.val_main_v38 (F := Ideal) x8 x9)
      (Read.val_main_v22 (F := Ideal) x0 x1 x2 x8) g j) ?_
  rw [v37_apply, zero_add]
  exact Finset.sum_congr rfl (fun e _ => sum_term x0 x1 x2 x8 x9 hr g j e)

end FirstHalf

/-- The per-graph mean of x. -/
theorem mean_apply (x0 : (⟨2, ![100000, 64]⟩ : Shape).Idx → EReal) (x1 : (⟨2, ![128, 128]⟩ : Shape).Idx → EReal)
    (x2 : (⟨1, ![128]⟩ : Shape).Idx → EReal)
    (x8 : (⟨2, ![2, 1600000]⟩ : Shape).Idx → BitVec 32) (x9 : (⟨1, ![100000]⟩ : Shape).Idx → BitVec 32)
    (hr : InRange x8 x9) (g : Fin 512) (j : Fin 128) :
    Read.val_main_v41 (F := Ideal) x0 x1 x2 x8 x9 (ix2 g j)
      = meanR (xR x0 x1 x2 (colOf x8) (rowOf x8)) (sgOf x8 x9) g j := by
  have hi : Read.idx_main_v36 (Read.idx_main_v40 (ix2 g j)) = ix1 g := by
    funext a
    match a with
    | ⟨0, _⟩ => rfl
  rw [Read.val_main_v41_apply, Read.val_main_v40_apply, Read.val_main_v36_apply, hi, cnt_apply x8 x9 hr g,
    v39_apply x0 x1 x2 x8 x9 hr g j, Ideal.hostDivf_def]
  rfl

end Cert.ReferenceIdeal.RefValue

end
-- ==== Proof.RefValue.lean ====
/-
  The plain program's result, read back: at edge e its one output column holds Cert.EdgeNorm.refOut of the argument arrays,
  with col e, row e the nodes the two index rows name and sg e the graph of node col e.  The second half of the program: the
  mean gathered per edge, the centred value, its per-graph variance, the root, the normalised value, the cut at 0 and the second
  layer.
-/
import proofs.«412857_j18983755448605_4_alg».proof.Proof.Gen.ReferenceIdeal.Run
import proofs.«412857_j18983755448605_4_alg».proof.Proof.Gen.ReferenceIdeal.Read
import proofs.«412857_j18983755448605_4_alg».proof.Proof.Domain
import proofs.«412857_j18983755448605_4_alg».proof.Proof.RefValueA
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx Cert.EdgeNorm Cert.ReferenceIdeal

/-- A word that is not negative is not below zero, so the wrap-around of a negative index leaves it as it is. -/
theorem wrap_id (z : BitVec 32) (h0 : 0 ≤ z.toInt) :
    Scalar.select (IntOp.cmpi .slt z 0#32) (IntOp.addi z 512#32) z = z := by
  have hs : z.slt 0#32 = false := by
    unfold BitVec.slt
    rw [decide_eq_false_iff_not, BitVec.toInt_zero]
    omega
  have hc : IntOp.cmpi .slt z 0#32 = 0#1 := by
    unfold IntOp.cmpi
    simp only [hs]
    rfl
  rw [hc]
  exact if_neg (by decide)

/-- The row of the 512 that a clamped signed word selects is the graph the word names. -/
theorem clamp_word (h : 0 < 512) (z : BitVec 32) : Cert.LibRowOps.clampRow 512 h z.toInt = graphOf z := rfl

section Stages

variable (x0 : (⟨2, ![100000, 64]⟩ : Shape).Idx → EReal) (x1 : (⟨2, ![128, 128]⟩ : Shape).Idx → EReal)
  (x2 x3 x4 x5 : (⟨1, ![128]⟩ : Shape).Idx → EReal) (x6 : (⟨2, ![128, 1]⟩ : Shape).Idx → EReal)
  (x7 : (⟨1, ![1]⟩ : Shape).Idx → EReal)
  (x8 : (⟨2, ![2, 1600000]⟩ : Shape).Idx → BitVec 32) (x9 : (⟨1, ![100000]⟩ : Shape).Idx → BitVec 32)
  (hr : InRange x8 x9)

include hr in
/-- The graph word of edge e after the first wrap-around: unchanged, the word being in range. -/
theorem word46 (e : Fin 1600000) :
    Read.val_main_v46 (F := Ideal) x8 x9 (ix1 e) = x9 (ix1 (colOf x8 e)) := by
  rw [Read.val_main_v46_apply, Read.val_main_v43_apply, Read.val_main_v45_apply, Read.val_main_v42_apply,
    Read.val_main_v44_apply, Read.val_main_c_8_apply, Read.val_main_c_9_apply, seg_apply x8 x9 hr e]
  exact wrap_id _ (hr.2 (colOf x8 e)).1

include hr in
/-- … and as the one column of a 1600000 × 1 array. -/
theorem word47 (e : Fin 1600000) :
    Read.val_main_v47 (F := Ideal) x8 x9 (ix2 e (0 : Fin 1)) = x9 (ix1 (colOf x8 e)) := by
  rw [Read.val_main_v47_apply]
  have hi : Read.idx_main_v47 (ix2 e (0 : Fin 1)) = ix1 e := funext fun a => by match a with | ⟨0, _⟩ => rfl
  rw [hi, word46 x8 x9 hr e]

include hr in
/-- The mean table's row gathered at edge e is the mean of e's graph. -/
theorem gathered_mean (e : Fin 1600000) (j : Fin 128) :
    Read.val_main_v48 (F := Ideal) x0 x1 x2 x8 x9 (ix2 e j)
      = meanR (xR x0 x1 x2 (colOf x8) (rowOf x8)) (sgOf x8 x9) (sgOf x8 x9 e) j := by
  unfold Read.val_main_v48
  rw [Cert.LibRowOps.gather_rows_apply (Nat.succ_pos 511) gather_S512x128_S1600000x1_S1600000x128_1_0_n_n_0_1_1128 rfl rfl rfl rfl rfl rfl rfl, word47 x8 x9 hr e,
    clamp_word, mean_apply x0 x1 x2 x8 x9 hr]
  unfold sgOf
  rfl

/-- The mean-scale vector c, repeated on every row. -/
theorem row_c (e : Fin 1600000) (j : Fin 128) : Read.val_main_v50 (F := Ideal) x5 (ix2 e j) = x5 (ix1 j) := by
  rw [Read.val_main_v50_apply, Read.val_main_v49_apply]
  exact congrArg x5 (funext fun a => by match a with | ⟨0, _⟩ => rfl)

/-- The weight vector w, repeated on every row. -/
theorem row_w (e : Fin 1600000) (j : Fin 128) : Read.val_main_v71 (F := Ideal) x3 (ix2 e j) = x3 (ix1 j) := by
  rw [Read.val_main_v71_apply, Read.val_main_v70_apply]
  exact congrArg x3 (funext fun a => by match a with | ⟨0, _⟩ => rfl)

/-- The bias vector b, repeated on every row. -/
theorem row_b (e : Fin 1600000) (j : Fin 128) : Read.val_main_v74 (F := Ideal) x4 (ix2 e j) = x4 (ix1 j) := by
  rw [Read.val_main_v74_apply, Read.val_main_v73_apply]
  exact congrArg x4 (funext fun a => by match a with | ⟨0, _⟩ => rfl)

include hr in
/-- The centred value x − μ(sg e) · c. -/
theorem centred (e : Fin 1600000) (j : Fin 128) :
    Read.val_main_v52 (F := Ideal) x0 x1 x2 x5 x8 x9 (ix2 e j)
      = ctrR (xR x0 x1 x2 (colOf x8) (rowOf x8)) (sgOf x8 x9) x5 e j := by
  rw [Read.val_main_v52_apply, Read.val_main_v51_apply, x_apply x0 x1 x2 x8 x9 hr e j,
    gathered_mean x0 x1 x2 x8 x9 hr e j, row_c x5 e j, Ideal.subf_def, Ideal.mulf_def]
  unfold ctrR
  rfl

include hr in
/-- Its square. -/
theorem squared (e : Fin 1600000) (j : Fin 128) :
    Read.val_main_v53 (F := Ideal) x0 x1 x2 x5 x8 x9 (ix2 e j)
      = ctrR (xR x0 x1 x2 (colOf x8) (rowOf x8)) (sgOf x8 x9) x5 e j
        * ctrR (xR x0 x1 x2 (colOf x8) (rowOf x8)) (sgOf x8 x9) x5 e j := by
  rw [Read.val_main_v53_apply, centred x0 x1 x2 x5 x8 x9 hr e j, Ideal.mulf_def]

include hr in
/-- The graph word of edge e, unwrapped, as the one column of a 1600000 × 1 array. -/
theorem word55 (e : Fin 1600000) :
    Read.val_main_v55 (F := Ideal) x8 x9 (ix2 e (0 : Fin 1)) = x9 (ix1 (colOf x8 e)) := by
  rw [Read.val_main_v55_apply]
  have hi : Read.idx_main_v55 (ix2 e (0 : Fin 1)) = ix1 e := funext fun a => by match a with | ⟨0, _⟩ => rfl
  rw [hi, seg_apply x8 x9 hr e]

include hr in
/-- In range, the signed value of e's graph word is g exactly when e's graph is g. -/
theorem word_toInt_iff (e : Fin 1600000) (g : Fin 512) :
    (x9 (ix1 (colOf x8 e))).toInt = (g.val : ℤ) ↔ sgOf x8 x9 e = g := by
  have hz := hr.2 (colOf x8 e)
  have hv : (((graphOf (x9 (ix1 (colOf x8 e)))).val : ℕ) : ℤ) = (x9 (ix1 (colOf x8 e))).toInt :=
    graphOf_val _ hz.1 hz.2
  unfold sgOf
  constructor
  · intro hh
    refine Fin.ext ?_
    have : (((graphOf (x9 (ix1 (colOf x8 e)))).val : ℕ) : ℤ) = (g.val : ℤ) := hv.trans hh
    exact_mod_cast this
  · intro hh
    rw [← hh]
    exact hv.symm

/-- Rows added into the 512 × 128 table by graph word: entry (g, j) gains the rows whose word is g. -/
theorem scatter_at (t : (⟨2, ![512, 128]⟩ : Shape).Idx → EReal) (wd : (⟨2, ![1600000, 1]⟩ : Shape).Idx → BitVec 32)
    (u : (⟨2, ![1600000, 128]⟩ : Shape).Idx → EReal) (g : Fin 512) (j : Fin 128) :
    Host.scatterAdd (F := Ideal) (φ := .f32) scatter_S512x128_S1600000x1_S1600000x128_1_0_0_1 t wd u (ix2 g j)
      = t (ix2 g j) + ∑ e : Fin 1600000, (if (wd (ix2 e 0)).toInt = (g.val : ℤ) then u (ix2 e j) else 0) :=
  Cert.LibRowOps.scatterAdd_rows_apply scatter_S512x128_S1600000x1_S1600000x128_1_0_0_1 rfl rfl rfl rfl t wd u g j

include hr in
/-- The squared rows added per graph: no row is dropped, every graph word being a graph. -/
theorem scattered_squares (g : Fin 512) (j : Fin 128) :
    Read.val_main_v56 (F := Ideal) x0 x1 x2 x5 x8 x9 (ix2 g j)
      = sumR (fun e j => ctrR (xR x0 x1 x2 (colOf x8) (rowOf x8)) (sgOf x8 x9) x5 e j
          * ctrR (xR x0 x1 x2 (colOf x8) (rowOf x8)) (sgOf x8 x9) x5 e j) (sgOf x8 x9) g j := by
  unfold Read.val_main_v56
  rw [scatter_at, Read.val_main_v54_apply, Read.val_main_cst_10_apply, Ideal.ofBits_def, Ideal.ofBits_zero_f32, zero_add]
  unfold sumR
  refine Finset.sum_congr rfl (fun e _ => ?_)
  rw [word55 x8 x9 hr e, squared x0 x1 x2 x5 x8 x9 hr e j]
  by_cases hg : sgOf x8 x9 e = g
  · rw [if_pos hg, if_pos ((word_toInt_iff x8 x9 hr e g).mpr hg)]
  · rw [if_neg hg, if_neg (fun hh => hg ((word_toInt_iff x8 x9 hr e g).mp hh))]

include hr in
/-- The count of graph g, repeated on every column. -/
theorem count_bcast (g : Fin 512) (j : Fin 128) :
    Read.val_main_v57 (F := Ideal) x8 x9 (ix2 g j) = cntR (sgOf x8 x9) g := by
  rw [Read.val_main_v57_apply, Read.val_main_v36_apply]
  have hi : Read.idx_main_v36 (Read.idx_main_v57 (ix2 g j)) = ix1 g := funext fun a => by match a with | ⟨0, _⟩ => rfl
  rw [hi, cnt_apply x8 x9 hr g]

include hr in
/-- The variance of the centred values of graph g. -/
theorem variance (g : Fin 512) (j : Fin 128) :
    Read.val_main_v58 (F := Ideal) x0 x1 x2 x5 x8 x9 (ix2 g j)
      = varR (xR x0 x1 x2 (colOf x8) (rowOf x8)) (sgOf x8 x9) x5 g j := by
  rw [Read.val_main_v58_apply, scattered_squares x0 x1 x2 x5 x8 x9 hr g j, count_bcast x8 x9 hr g j,
    Ideal.hostDivf_def]
  unfold varR
  rfl

/-- The constant under the root is ε. -/
theorem eps_bcast (g : Fin 512) (j : Fin 128) : Read.val_main_v59 (F := Ideal) (ix2 g j) = epsv := by
  rw [Read.val_main_v59_apply, Read.val_main_cst_11_apply, Ideal.ofBits_def]
  unfold epsv
  rfl

include hr in
/-- σ g j = √(v g j + ε). -/
theorem deviation (g : Fin 512) (j : Fin 128) :
    Read.val_main_v61 (F := Ideal) x0 x1 x2 x5 x8 x9 (ix2 g j)
      = stdR (xR x0 x1 x2 (colOf x8) (rowOf x8)) (sgOf x8 x9) x5 g j := by
  rw [Read.val_main_v61_apply, Read.val_main_v60_apply, variance x0 x1 x2 x5 x8 x9 hr g j, eps_bcast g j,
    Ideal.hostUnary_sqrt_def, Ideal.addf_def]
  unfold stdR
  rfl

include hr in
/-- The graph word of edge e after the second wrap-around. -/
theorem word66 (e : Fin 1600000) :
    Read.val_main_v66 (F := Ideal) x8 x9 (ix1 e) = x9 (ix1 (colOf x8 e)) := by
  rw [Read.val_main_v66_apply, Read.val_main_v63_apply, Read.val_main_v65_apply, Read.val_main_v62_apply,
    Read.val_main_v64_apply, Read.val_main_c_12_apply, Read.val_main_c_13_apply, seg_apply x8 x9 hr e]
  exact wrap_id _ (hr.2 (colOf x8 e)).1

include hr in
/-- … and as the one column of a 1600000 × 1 array. -/
theorem word67 (e : Fin 1600000) :
    Read.val_main_v67 (F := Ideal) x8 x9 (ix2 e (0 : Fin 1)) = x9 (ix1 (colOf x8 e)) := by
  rw [Read.val_main_v67_apply]
  have hi : Read.idx_main_v67 (ix2 e (0 : Fin 1)) = ix1 e := funext fun a => by match a with | ⟨0, _⟩ => rfl
  rw [hi, word66 x8 x9 hr e]

include hr in
/-- The σ table's row gathered at edge e is the σ of e's graph. -/
theorem gathered_deviation (e : Fin 1600000) (j : Fin 128) :
    Read.val_main_v68 (F := Ideal) x0 x1 x2 x5 x8 x9 (ix2 e j)
      = stdR (xR x0 x1 x2 (colOf x8) (rowOf x8)) (sgOf x8 x9) x5 (sgOf x8 x9 e) j := by
  unfold Read.val_main_v68
  rw [Cert.LibRowOps.gather_rows_apply (Nat.succ_pos 511) gather_S512x128_S1600000x1_S1600000x128_1_0_n_n_0_1_1128 rfl rfl rfl rfl rfl rfl rfl, word67 x8 x9 hr e,
    clamp_word, deviation x0 x1 x2 x5 x8 x9 hr]
  unfold sgOf
  rfl

include hr in
/-- The normalised value (o / σ) · w + b. -/
theorem normalised (e : Fin 1600000) (j : Fin 128) :
    Read.val_main_v75 (F := Ideal) x0 x1 x2 x3 x4 x5 x8 x9 (ix2 e j)
      = normR (xR x0 x1 x2 (colOf x8) (rowOf x8)) (sgOf x8 x9) x5 x3 x4 e j := by
  rw [Read.val_main_v75_apply, Read.val_main_v72_apply, Read.val_main_v69_apply,
    centred x0 x1 x2 x5 x8 x9 hr e j, gathered_deviation x0 x1 x2 x5 x8 x9 hr e j, row_w x3 e j, row_b x4 e j,
    Ideal.hostDivf_def, Ideal.mulf_def, Ideal.addf_def]
  unfold normR
  rfl

include hr in
/-- Cut below at 0. -/
theorem rectified (e : Fin 1600000) (j : Fin 128) :
    Read.val_main_v76 (F := Ideal) x0 x1 x2 x3 x4 x5 x8 x9 (ix2 e j)
      = max (normR (xR x0 x1 x2 (colOf x8) (rowOf x8)) (sgOf x8 x9) x5 x3 x4 e j) 0 := by
  rw [Read.val_main_v76_apply, normalised x0 x1 x2 x3 x4 x5 x8 x9 hr e j, Read.val_main_call0_v0_apply,
    Read.val_main_call0_cst_apply, Ideal.maximumf_def, Ideal.ofBits_def, Ideal.ofBits_zero_f32]

/-- The second layer's bias, at the one column of every row. -/
theorem bias2 (e : Fin 1600000) : Read.val_main_v79 (F := Ideal) x7 (ix2 e (0 : Fin 1)) = x7 (ix1 0) := by
  rw [Read.val_main_v79_apply, Read.val_main_v78_apply]
  exact congrArg x7 (funext fun a => by match a with | ⟨0, _⟩ => rfl)

end Stages

/-- The plain program's result at edge e. -/
theorem value (x0 : (⟨2, ![100000, 64]⟩ : Shape).Idx → EReal) (x1 : (⟨2, ![128, 128]⟩ : Shape).Idx → EReal)
    (x2 : (⟨1, ![128]⟩ : Shape).Idx → EReal)
    (x3 x4 x5 : (⟨1, ![128]⟩ : Shape).Idx → EReal) (x6 : (⟨2, ![128, 1]⟩ : Shape).Idx → EReal)
    (x7 : (⟨1, ![1]⟩ : Shape).Idx → EReal)
    (x8 : (⟨2, ![2, 1600000]⟩ : Shape).Idx → BitVec 32) (x9 : (⟨1, ![100000]⟩ : Shape).Idx → BitVec 32)
    (hr : InRange x8 x9) (e : Fin 1600000) :
    Read.val_main_v80 (F := Ideal) x0 x1 x2 x3 x4 x5 x6 x7 x8 x9 (ix2 e 0)
      = refOut (xR x0 x1 x2 (colOf x8) (rowOf x8)) (sgOf x8 x9) x5 x3 x4 x6 x7 e := by
  rw [Read.val_main_v80_apply, Read.val_main_v77_apply, bias2 x7 e]
  unfold refOut
  rw [Ideal.addf_def]
  refine congrArg (fun s => s + x7 (ix1 0)) ?_
  -- the two sums over the 128 columns agree term by term
  refine Finset.sum_congr rfl (fun k _ => ?_)
  have hl : Read.lidx_main_v77 (ix2 e (0 : Fin 1)) k = ix2 e k :=
    funext fun a => by match a with | ⟨0, _⟩ => rfl | ⟨1, _⟩ => rfl
  have hrr : Read.ridx_main_v77 (ix2 e (0 : Fin 1)) k = ix2 k (0 : Fin 1) :=
    funext fun a => by match a with | ⟨0, _⟩ => rfl | ⟨1, _⟩ => rfl
  rw [hl, hrr, rectified x0 x1 x2 x3 x4 x5 x8 x9 hr e k]

end Cert.ReferenceIdeal.RefValue

end
-- ==== Proof.lean ====
/-
  The certificate of the edge-wise graph normalisation: the tiled program (three kernel regions among host operations) against the
  plain program, on the domain where every float argument is finite and every node and graph index is in range.

  Frames: the tiled program's two frames are the generated ones; the plain program's is its generated run with the result dropped.
  The idealization rewrote no operation, so its claim is trivial.  The value claim: the tiled program's run names its result buffer
  (the generated launch called once more with the buffer read in the post); followed back through the three regions and the host
  operations the buffer holds, at edge e, the plain program's formula of the argument arrays; the plain program's run holds the same
  formula; the arguments agree.
-/
import proofs.«412857_j18983755448605_4_alg».proof.Defs
import proofs.«412857_j18983755448605_4_alg».proof.Proof.Gen.Kernel
import proofs.«412857_j18983755448605_4_alg».proof.Proof.Gen.Kernel.Frame
import proofs.«412857_j18983755448605_4_alg».proof.Proof.Gen.KernelIdeal
import proofs.«412857_j18983755448605_4_alg».proof.Proof.Gen.KernelIdeal.Frame
import proofs.«412857_j18983755448605_4_alg».proof.Proof.Gen.ReferenceIdeal
import proofs.«412857_j18983755448605_4_alg».proof.Proof.Gen.ReferenceIdeal.Run
import proofs.«412857_j18983755448605_4_alg».proof.Proof.Gen.ReferenceIdeal.Read
import proofs.«412857_j18983755448605_4_alg».proof.Proof.Gen.Pre_finite_inputs
import proofs.«412857_j18983755448605_4_alg».proof.Proof.RunNamed
import proofs.«412857_j18983755448605_4_alg».proof.Proof.Chain
import proofs.«412857_j18983755448605_4_alg».proof.Proof.PreDecode
import proofs.«412857_j18983755448605_4_alg».proof.Proof.RefValue
import Idealize.ShloMosaic.Adequacy
import Idealize.ShloMosaic.Init

set_option maxRecDepth 16384

noncomputable section

namespace Cert.Proof

open Idealize.ShloMosaic Idealize.ShloMosaic.ValueIdx Idealize.SL.Sem Cert.EdgeNorm

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Every index of a one-column array is (e, 0). -/
theorem idx_col (i : (⟨2, ![1600000, 1]⟩ : Shape).Idx) : i = ix2 (i 0) (0 : Fin 1) := by
  funext a
  match a with
  | ⟨0, _⟩ => rfl
  | ⟨1, _⟩ => exact Fin.ext (Nat.lt_one_iff.mp (i 1).isLt)

/-- Both programs end with the same result: at edge e, refOut of the argument arrays. -/
theorem algebraic : Cert.algebraic_KernelIdeal_ReferenceIdeal := by
  intro m ρ m' ρ' hpre hagree
  refine ⟨fun c => Cert.KernelIdeal.Gen.W11 m ρ c (Proc.devRef .tc Cert.KernelIdeal.main_v75),
    Cert.KernelIdeal.RunNamed.run_named m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9⟩ := hagree c
  obtain ⟨f0, f1, f2, f3, f4, f5, f6, f7, hr⟩ := domain_of_pre _ _ _ _ _ _ _ _ _ _ (hpre c)
  rw [Cert.ReferenceIdeal.Read.val_main_v80_eq, h0, h1, h2, h3, h4, h5, h6, h7, h8, h9]
  funext i
  rw [idx_col i]
  exact (Cert.ReferenceIdeal.RefValue.value _ _ _ _ _ _ _ _ _ _ hr (i 0)).trans
    (Cert.KernelIdeal.Chain.kernel_value m ρ c f0 f1 f2 f3 f4 f5 hr (i 0)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
